-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S3200000 : Shape := ⟨1, ![3200000]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S3200000 : S_.BroadcastsInDim S3200000 (![] : Fin 0 → Fin S3200000.rank)
  reducesTo_S3200000_S_d0 : S3200000.ReducesTo [0] S_

variable [Facts]

def fn {F : FTy → Type} [FloatOps F] (main_arg0 : FVec F S100000x16 .f32) (main_arg1 : FVec F S3200000 .f32) (main_arg2 : IVec S3200000 32) (main_arg3 : IVec S3200000 32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S3200000 .f32 := Host.absf main_arg1
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  main_v8
-- ==== Kernel.lean ====
abbrev S100000x16 : Shape := ⟨2, ![100000, 16]⟩
abbrev S3200000 : Shape := ⟨1, ![3200000]⟩
abbrev S25000x128 : Shape := ⟨2, ![25000, 128]⟩
abbrev S1x1 : Shape := ⟨2, ![1, 1]⟩
abbrev S1000x128 : Shape := ⟨2, ![1000, 128]⟩
abbrev S1000 : Shape := ⟨1, ![1000]⟩
abbrev S1000x1 : Shape := ⟨2, ![1000, 1]⟩
abbrev S1 : Shape := ⟨1, ![1]⟩
abbrev S_ : Shape := ⟨0, ![]⟩
abbrev S1x16 : Shape := ⟨2, ![1, 16]⟩
abbrev S5000x16 : Shape := ⟨2, ![5000, 16]⟩
abbrev S16 : Shape := ⟨1, ![16]⟩
abbrev S3200000x1 : Shape := ⟨2, ![3200000, 1]⟩
abbrev S3200000x16 : Shape := ⟨2, ![3200000, 16]⟩
abbrev S400000x128 : Shape := ⟨2, ![400000, 128]⟩
abbrev S16000x128 : Shape := ⟨2, ![16000, 128]⟩
abbrev S16000 : Shape := ⟨1, ![16000]⟩
abbrev S16000x1 : Shape := ⟨2, ![16000, 1]⟩

abbrev nBuf : Space → Nat
  | .hbm => 42
  | .vmem => 14
  | .smem => 0
  | _ => 0

abbrev bufTy : (tb : Table) → Fin (tcTables nBuf tb) → BufTy
  | .hbm, ⟨0, _⟩ => ⟨S100000x16, .f32⟩
  | .hbm, ⟨1, _⟩ => ⟨S3200000, .f32⟩
  | .hbm, ⟨2, _⟩ => ⟨S3200000, .i32⟩
  | .hbm, ⟨3, _⟩ => ⟨S3200000, .i32⟩
  | .hbm, ⟨4, _⟩ => ⟨S25000x128, .f32⟩
  | .hbm, ⟨5, _⟩ => ⟨S1x1, .f32⟩
  | .hbm, ⟨6, _⟩ => ⟨S_, .f32⟩
  | .hbm, ⟨7, _⟩ => ⟨S1x16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S_, .f32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x16, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x16, .f32⟩
  | .hbm, ⟨33, _⟩ => ⟨S_, .f32⟩
  | .hbm, ⟨34, _⟩ => ⟨S3200000x16, .f32⟩
  | .hbm, ⟨35, _⟩ => ⟨S3200000x16, .f32⟩
  | .hbm, ⟨36, _⟩ => ⟨S400000x128, .f32⟩
  | .hbm, ⟨37, _⟩ => ⟨S400000x128, .f32⟩
  | .hbm, ⟨38, _⟩ => ⟨S1x1, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S1000x128, .f32⟩
  | .local _ .vmem, ⟨1, _⟩ => ⟨S1000x128, .f32⟩
  | .local _ .vmem, ⟨2, _⟩ => ⟨S1x1, .f32⟩
  | .local _ .vmem, ⟨3, _⟩ => ⟨S1x1, .f32⟩
  | .local _ .vmem, ⟨4, _⟩ => ⟨S5000x16, .f32⟩
  | .local _ .vmem, ⟨5, _⟩ => ⟨S5000x16, .f32⟩
  | .local _ .vmem, ⟨6, _⟩ => ⟨S1x16, .f32⟩
  | .local _ .vmem, ⟨7, _⟩ => ⟨S1x16, .f32⟩
  | .local _ .vmem, ⟨8, _⟩ => ⟨S16000x128, .f32⟩
  | .local _ .vmem, ⟨9, _⟩ => ⟨S16000x128, .f32⟩
  | .local _ .vmem, ⟨10, _⟩ => ⟨S16000x128, .f32⟩
  | .local _ .vmem, ⟨11, _⟩ => ⟨S16000x128, .f32⟩
  | .local _ .vmem, ⟨12, _⟩ => ⟨S1x1, .f32⟩
  | .local _ .vmem, ⟨13, _⟩ => ⟨S1x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_scratch0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_scratch0 : Ref sig .tc := ⟨.vmem, 13, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc2_sem0_0 : DmaSem sig := 6
abbrev cc2_sem0_1 : DmaSem sig := 7
abbrev cc2_sem1_0 : DmaSem sig := 8
abbrev cc2_sem1_1 : DmaSem sig := 9
abbrev cc2_sem2_0 : DmaSem sig := 10

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v14 : BitVec 1 := Scalar.cmpi .eq arg0 c24_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v11 : BitVec 1 := Scalar.cmpi .eq arg0 c19_i32
  let v12 : BitVec 32 := Scalar.extui v11
  let c0_i32_6 : BitVec 32 := 0#32
  let v13 : BitVec 1 := Scalar.cmpi .ne v12 c0_i32_6
  v13

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v17 : BitVec 1 := Scalar.cmpi .eq arg0 c24_i32
  let v18 : BitVec 32 := Scalar.extui v17
  let c0_i32_9 : BitVec 32 := 0#32
  let v19 : BitVec 1 := Scalar.cmpi .ne v18 c0_i32_9
  v19

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S16000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  shapeCasts_S3200000_S25000x128 : S3200000.ShapeCasts S25000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  reduces_S1000x128_S1000 : S1000x128.Reduces [1] S1000
  shapeCasts_S1000_S1000x1 : S1000.ShapeCasts S1000x1
  reduces_S1000x1_S1 : S1000x1.Reduces [0] S1
  shapeCasts_S1_S1x1 : S1.ShapeCasts S1x1
  shapeCasts_S1x1_S_ : S1x1.ShapeCasts S_
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S5000x16_S5000x16_0_0 : ∀ a, (![0, 0] : Fin 2 → Nat) a + S5000x16.size a ≤ S5000x16.size a
  h_S5000x16 : 0 < S5000x16.numel
  reduces_S5000x16_S16 : S5000x16.Reduces [0] S16
  shapeCasts_S16_S1x16 : S16.ShapeCasts S1x16
  shapeCasts_S1x16_S16 : S1x16.ShapeCasts S16
  bcast_S_S16 : S_.BroadcastsInDim S16 (![] : Fin 0 → Fin S16.rank)
  reducesTo_S16_S_d0 : S16.ReducesTo [0] S_
  h_S_ : 0 < S_.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x16 : S_.BroadcastsInDim S3200000x16 (![] : Fin 0 → Fin S3200000x16.rank)
  shapeCasts_S3200000x16_S400000x128 : S3200000x16.ShapeCasts S400000x128
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  reduces_S16000x128_S16000 : S16000x128.Reduces [1] S16000
  shapeCasts_S16000_S16000x1 : S16000.ShapeCasts S16000x1
  reduces_S16000x1_S1 : S16000x1.Reduces [0] S1
  gather_S100000x16_S3200000x1_S3200000x16_1_0_n_n_0_1_116_wf : GatherDims.WF S100000x16 S3200000x1 S3200000x16 [1] [0] [] [0] [] 1 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S25000x128.size a
  hwx0_0 : ∀ i : grid0.Coords, EltTy.bits .f32 = 32 ∨ (Rect.block (s := S25000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x128.size a ≤ S400000x128.size a
  hwx2_0 : ∀ i : grid2.Coords, EltTy.bits .f32 = 32 ∨ (Rect.block (s := S400000x128) S16000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16000x128.size a ≤ S400000x128.size a
  hwx2_1 : ∀ i : grid2.Coords, EltTy.bits .f32 = 32 ∨ (Rect.block (s := S400000x128) S16000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf

abbrev win0_0 : Pipeline.Window sig grid0 :=
  Pipeline.Window.ofSpec (Memref.whole main_v0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x16.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_v25) S16000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S16000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S100000x16 : Shape := ⟨2, ![100000, 16]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S16 : Shape := ⟨1, ![16]⟩

abbrev nBuf : Space → Nat
  | .hbm => 40
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S3200000, .f32⟩
  | .hbm, ⟨2, _⟩ => ⟨S3200000, .i32⟩
  | .hbm, ⟨3, _⟩ => ⟨S3200000, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S100000x16, .f32⟩
  | .hbm, ⟨8, _⟩ => ⟨S100000x16, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x16, .f32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000x16, .f32⟩
  | .hbm, ⟨27, _⟩ => ⟨S3200000x16, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S_, .f32⟩
  | .hbm, ⟨39, _⟩ => ⟨S_, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S3200000_S_d0 : S3200000.ReducesTo [0] S_
  h_S_ : 0 < S_.numel
  bcast_S_S100000x16 : S_.BroadcastsInDim S100000x16 (![] : Fin 0 → Fin S100000x16.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x16_S_d0_1 : S3200000x16.ReducesTo [0, 1] S_
  reducesTo_S100000x16_S16_d0 : S100000x16.ReducesTo [0] S16
  bcast_S_S16 : S_.BroadcastsInDim S16 (![] : Fin 0 → Fin S16.rank)
  reducesTo_S16_S_d0 : S16.ReducesTo [0] S_
  gather_S100000x16_S3200000x1_S3200000x16_1_0_n_n_0_1_116_wf : GatherDims.WF S100000x16 S3200000x1 S3200000x16 [1] [0] [] [0] [] 1 ![1, 16]

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf

class Facts : Prop extends Facts₀ where

variable [Facts]
-- ==== Proof.K.Region0.lean ====
/- Region 0 of @main: the blocked total sum. The kernel carries an accumulator between the 25 grid points:
   it is zeroed at the first point, every point adds its block's sum, and the last point copies the total
   into the one-block output. Stated at any entry contents `V` of the TensorCore's buffers: the proof data
   of the region, its body obligation, and the invariant's entry from and return to the class's invariant. -/
import proofs.«111018_j28578712388223_1_alg».proof.Proof.Gen.Kernel.Launch
import proofs.«111018_j28578712388223_1_alg».proof.Proof.Gen.Kernel.Skeleton
import proofs.«111018_j28578712388223_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, in closed form over the grid -/

/-- The reset condition (the first `scf.if`): the scalar chain of the body on the grid coordinate. -/
abbrev isReset (i : grid0.Coords) : Prop :=
  (Scalar.cmpi .ne (Scalar.extui (Scalar.cmpi .eq (BitVec.ofNat 32 (i 0).val) 0#32)) 0#32) = 1#1

/-- The emit condition (the second `scf.if`). -/
abbrev isEmit (i : grid0.Coords) : Prop := k0_cond2 i = 1#1

/-- The accumulator is reset at the first point and nowhere else. -/
theorem isReset_iff : ∀ t : Fin cfg0.N, isReset (grid0.coords t) ↔ t.val = 0 :=
  (by decide +kernel : ∀ t : Fin grid0.N, isReset (grid0.coords t) ↔ t.val = 0)

/-- The total is emitted at the last point and nowhere else. -/
theorem isEmit_iff : ∀ t : Fin cfg0.N, isEmit (grid0.coords t) ↔ t.val = 24 :=
  (by decide +kernel : ∀ t : Fin grid0.N, isEmit (grid0.coords t) ↔ t.val = 24)

/-- The input window is live at every point. -/
theorem in_live : ∀ t : Fin cfg0.N, cfg0.idle 0 (grid0.coords t) = false := by decide +kernel

/-- Away from the last point the output window is idle, -/
theorem out_idle : ∀ t : Fin cfg0.N, ¬isEmit (grid0.coords t) → cfg0.idle 1 (grid0.coords t) = true := by decide +kernel

/-- and its block is not written back there; -/
theorem out_noflush : ∀ t : Fin cfg0.N, ¬isEmit (grid0.coords t) → (cfg0.win 1).flush t = false := by decide +kernel

/-- at the last point it is live. -/
theorem out_live : ∀ t : Fin cfg0.N, isEmit (grid0.coords t) → cfg0.idle 1 (grid0.coords t) = false := by decide +kernel

/-! ## The body, case by case, on any whole memrefs -/

section Runs
variable (c : Dev nD) (i : grid0.Coords)
  (arg1 : Memref sig .tc .vmem S1000x128 .f32) (harg1 : arg1.IsWhole)
  (arg2 : Memref sig .tc .vmem S1x1 .f32) (harg2 : arg2.IsWhole)
  (arg3 : Memref sig .tc .vmem S1x1 .f32) (harg3 : arg3.IsWhole)

set_option maxHeartbeats 1000000 in
/-- FIRST point (reset, no emit). The accumulator, held at anything, is zeroed and then the block's sum is
    added: the stores it ends with are found by the run; the input block `x` and the output buffer (at `o`)
    come back untouched. -/
noncomputable def runFirst (x : Vec F S1000x128 .f32) :
    { LS : List (View.Piece (Elt F) S1x1 .f32) //
      ∀ (hr : isReset i) (he : ¬isEmit i) (o : Vec F S1x1 .f32) (E : Set ℕ) (K : PUnit → sProp 𝕄),
        iprop(owns (c : Thread nD τ) arg1 fullShare x ∗ owns (c : Thread nD τ) arg2 fullShare o
            ∗ (∃ d, owns (c : Thread nD τ) arg3 fullShare d)
            ∗ (iprop(owns (c : Thread nD τ) arg1 fullShare x ∗ owns (c : Thread nD τ) arg2 fullShare o
                ∗ owns (c : Thread nD τ) arg3 fullShare (View.canon LS)) -∗ K ⟨⟩))
          ⊢ wp frame (wpE (defs₀ (F := F)) Variants.none c none) E (cc0__sum_all_kernel i arg1 harg1 arg2 harg2 arg3 harg3) K } := by
  refine ⟨?_, fun hr he o E K => ?run⟩
  case run =>
    simp only [cc0__sum_all_kernel_eq_skeleton]; unfold cc0__sum_all_kernel_skel
    unfold owns
    iintro ⟨⟨%f1, %hf1, H1⟩, ⟨%f2, %hf2, H2⟩, ⟨%d3, %f3, -, H3⟩, Hk⟩
    obtain rfl := harg1.eq_unread hf1; obtain rfl := harg2.eq_unread hf2
    sl_exec (disch := first | exact hr | exact he)
    sl_step
    iapply Hk
    isplitl [H1]
    · iexists _; isplitr; · ipureintro; exact harg1.read_unread _
      iexact H1
    isplitl [H2]
    · iexists _; isplitr; · ipureintro; exact harg2.read_unread _
      iexact H2
    iexists _; isplitr
    swap; · iexact H3
    ipureintro
    exact View.read_writes_eq_canon (Val := Elt F) _ _ _ (View.cover_of_tiledL _ S1x1.size (by sl_kernel_rfl))

set_option maxHeartbeats 1000000 in
/-- MIDDLE points (no reset, no emit). The accumulator holds `a`; the block's sum is added to it. -/
noncomputable def runMid (x : Vec F S1000x128 .f32) (a : Vec F S1x1 .f32) :
    { LS : List (View.Piece (Elt F) S1x1 .f32) //
      ∀ (hr : ¬isReset i) (he : ¬isEmit i) (o : Vec F S1x1 .f32) (E : Set ℕ) (K : PUnit → sProp 𝕄),
        iprop(owns (c : Thread nD τ) arg1 fullShare x ∗ owns (c : Thread nD τ) arg2 fullShare o
            ∗ owns (c : Thread nD τ) arg3 fullShare a
            ∗ (iprop(owns (c : Thread nD τ) arg1 fullShare x ∗ owns (c : Thread nD τ) arg2 fullShare o
                ∗ owns (c : Thread nD τ) arg3 fullShare (View.canon LS)) -∗ K ⟨⟩))
          ⊢ wp frame (wpE (defs₀ (F := F)) Variants.none c none) E (cc0__sum_all_kernel i arg1 harg1 arg2 harg2 arg3 harg3) K } := by
  refine ⟨?_, fun hr he o E K => ?run⟩
  case run =>
    simp only [cc0__sum_all_kernel_eq_skeleton]; unfold cc0__sum_all_kernel_skel
    unfold owns
    iintro ⟨⟨%f1, %hf1, H1⟩, ⟨%f2, %hf2, H2⟩, ⟨%f3, %hf3, H3⟩, Hk⟩
    obtain rfl := harg1.eq_unread hf1; obtain rfl := harg2.eq_unread hf2; obtain rfl := harg3.eq_unread hf3
    sl_exec (disch := first | exact hr | exact he)
    sl_step
    iapply Hk
    isplitl [H1]
    · iexists _; isplitr; · ipureintro; exact harg1.read_unread _
      iexact H1
    isplitl [H2]
    · iexists _; isplitr; · ipureintro; exact harg2.read_unread _
      iexact H2
    iexists _; isplitr
    swap; · iexact H3
    ipureintro
    exact View.read_writes_eq_canon (Val := Elt F) _ _ _ (View.cover_of_tiledL _ S1x1.size (by sl_kernel_rfl))

set_option maxHeartbeats 1000000 in
/-- LAST point (no reset, emit). The accumulator holds `a`; the block's sum is added to it and the total is
    copied into the output buffer, held at anything. -/
noncomputable def runLast (x : Vec F S1000x128 .f32) (a : Vec F S1x1 .f32) :
    Σ' (LO : List (View.Piece (Elt F) S1x1 .f32)), { LS : List (View.Piece (Elt F) S1x1 .f32) //
      ∀ (hr : ¬isReset i) (he : isEmit i) (E : Set ℕ) (K : PUnit → sProp 𝕄),
        iprop(owns (c : Thread nD τ) arg1 fullShare x ∗ (∃ d, owns (c : Thread nD τ) arg2 fullShare d)
            ∗ owns (c : Thread nD τ) arg3 fullShare a
            ∗ (iprop(owns (c : Thread nD τ) arg1 fullShare x ∗ owns (c : Thread nD τ) arg2 fullShare (View.canon LO)
                ∗ owns (c : Thread nD τ) arg3 fullShare (View.canon LS)) -∗ K ⟨⟩))
          ⊢ wp frame (wpE (defs₀ (F := F)) Variants.none c none) E (cc0__sum_all_kernel i arg1 harg1 arg2 harg2 arg3 harg3) K } := by
  refine ⟨?_, ?_, fun hr he E K => ?run⟩
  case run =>
    simp only [cc0__sum_all_kernel_eq_skeleton]; unfold cc0__sum_all_kernel_skel
    unfold owns
    iintro ⟨⟨%f1, %hf1, H1⟩, ⟨%d2, %f2, -, H2⟩, ⟨%f3, %hf3, H3⟩, Hk⟩
    obtain rfl := harg1.eq_unread hf1; obtain rfl := harg3.eq_unread hf3
    sl_exec (disch := first | exact hr | exact he)
    sl_step
    iapply Hk
    isplitl [H1]
    · iexists _; isplitr; · ipureintro; exact harg1.read_unread _
      iexact H1
    isplitl [H2]
    · iexists _; isplitr
      swap; · iexact H2
      ipureintro
      exact View.read_writes_eq_canon (Val := Elt F) _ _ _ (View.cover_of_tiledL _ S1x1.size (by sl_kernel_rfl))
    iexists _; isplitr
    swap; · iexact H3
    ipureintro
    exact View.read_writes_eq_canon (Val := Elt F) _ _ _ (View.cover_of_tiledL _ S1x1.size (by sl_kernel_rfl))

end Runs

/-! ## The accumulator between points -/

/-- The kernel's accumulator: a whole scoped buffer of its own, passed beside the windows. -/
abbrev scM : Memref sig .tc .vmem S1x1 .f32 := Memref.whole cc0_scratch0

/-- The staging memrefs the body is called with at point `t`, and their wholeness. -/
abbrev mIn (t : Fin cfg0.N) : Memref sig .tc .vmem S1000x128 .f32 := win0_0.stage (cfg0.slots t 0)
abbrev hIn (t : Fin cfg0.N) : (mIn t).IsWhole := hstage0_0 ((cfg0.slots t 0).cast nbuf0_0)
abbrev mOut (t : Fin cfg0.N) : Memref sig .tc .vmem S1x1 .f32 := win0_1.stage (cfg0.slots t 1)
abbrev hOut (t : Fin cfg0.N) : (mOut t).IsWhole := hstage0_1 ((cfg0.slots t 1).cast nbuf0_1)

/-- All of the class's invariant but the accumulator: what returns the invariant once the accumulator, at
    whatever contents, is handed back. (The scoped rest holds ten more buffers, the other two kernels'; they
    stay inside this one hypothesis.) -/
def Keep (c : Dev nD) : sProp 𝕄 :=
  iprop((∃ d, owns (c : Thread nD τ) scM fullShare d) -∗ Pipeline.ΦA (U := UR sig nD τ) (Val := Elt F) spec0 c)

/-- The class's invariant gives up the accumulator at some contents and keeps the promise to take it back. -/
theorem ΦA_split (c : Dev nD) :
    (Pipeline.ΦA spec0 c : sProp 𝕄) ⊢ iprop((∃ d, owns (c : Thread nD τ) scM fullShare d) ∗ Keep (F := F) c) := by
  unfold Keep Pipeline.ΦA; rw [scopedRest0_eq]; simp only [scM, owns_whole]
  iintro ⟨⟨Hs, Hrest⟩, Hg⟩
  isplitl [Hs]; · iexact Hs
  iintro Hs
  isplitr [Hg]
  · isplitl [Hs]; · iexact Hs
    iexact Hrest
  iexact Hg

section Region
variable (V : (c : Dev nD) → (b : Ref sig .tc) → Buf (Elt F) ((c : Thread nD τ).loc b))

/-- The input window's block at point `t`, read off its array as the region finds it. -/
def xblk (c : Dev nD) (t : Fin cfg0.N) : ((cfg0.win 0).xblock (cfg0.grid.coords t)).Idx → Elt F (cfg0.win 0).elt :=
  ((cfg0.win 0).blk t).view.read (Elt F) (V c (Pipeline.arrRef spec0 0))

/-- What the accumulator holds after the body at point `n`: at the first point the reset case's stores over the
    block; at a later point that point's case over the block and what the point before left. -/
def accAfter (c : Dev nD) : (n : ℕ) → n < cfg0.N → Vec F S1x1 .f32
  | 0, h => View.canon (runFirst c (grid0.coords ⟨0, h⟩) (mIn ⟨0, h⟩) (hIn ⟨0, h⟩) (mOut ⟨0, h⟩) (hOut ⟨0, h⟩) scM (Memref.isWhole_whole _) (xblk V c ⟨0, h⟩)).1
  | n + 1, h =>
    if n + 1 = 24 then
      View.canon (runLast c (grid0.coords ⟨n + 1, h⟩) (mIn ⟨n + 1, h⟩) (hIn ⟨n + 1, h⟩) (mOut ⟨n + 1, h⟩) (hOut ⟨n + 1, h⟩) scM (Memref.isWhole_whole _) (xblk V c ⟨n + 1, h⟩) (accAfter c n (Nat.lt_of_succ_lt h))).2.1
    else
      View.canon (runMid c (grid0.coords ⟨n + 1, h⟩) (mIn ⟨n + 1, h⟩) (hIn ⟨n + 1, h⟩) (mOut ⟨n + 1, h⟩) (hOut ⟨n + 1, h⟩) scM (Memref.isWhole_whole _) (xblk V c ⟨n + 1, h⟩) (accAfter c n (Nat.lt_of_succ_lt h))).1

/-- What the accumulator holds when the body starts at a point `t` after the first: what the point before left. -/
abbrev accBefore (c : Dev nD) (t : Fin cfg0.N) : Vec F S1x1 .f32 :=
  accAfter V c (t.val - 1) (Nat.lt_of_le_of_lt (Nat.sub_le _ _) t.isLt)

theorem accAfter_first (c : Dev nD) (t : Fin cfg0.N) (h0 : t.val = 0) :
    accAfter V c t.val t.isLt = View.canon (runFirst c (grid0.coords t) (mIn t) (hIn t) (mOut t) (hOut t) scM (Memref.isWhole_whole _) (xblk V c t)).1 := by
  obtain ⟨n, hn⟩ := t
  cases n with
  | zero => rfl
  | succ n => exact absurd h0 (Nat.succ_ne_zero n)

theorem accAfter_mid (c : Dev nD) (t : Fin cfg0.N) (h0 : t.val ≠ 0) (h24 : t.val ≠ 24) :
    accAfter V c t.val t.isLt = View.canon (runMid c (grid0.coords t) (mIn t) (hIn t) (mOut t) (hOut t) scM (Memref.isWhole_whole _) (xblk V c t) (accBefore V c t)).1 := by
  obtain ⟨n, hn⟩ := t
  cases n with
  | zero => exact absurd rfl h0
  | succ n => exact (if_neg h24).trans rfl

theorem accAfter_last (c : Dev nD) (t : Fin cfg0.N) (h0 : t.val ≠ 0) (h24 : t.val = 24) :
    accAfter V c t.val t.isLt = View.canon (runLast c (grid0.coords t) (mIn t) (hIn t) (mOut t) (hOut t) scM (Memref.isWhole_whole _) (xblk V c t) (accBefore V c t)).2.1 := by
  obtain ⟨n, hn⟩ := t
  cases n with
  | zero => exact absurd rfl h0
  | succ n => exact (if_pos h24).trans rfl

/-- What the output window's buffer holds after the body at a point that emits: the emit case's store, over
    the block and what the point before left in the accumulator. (Consulted at the last point only: elsewhere
    the window is idle and its buffer is handed back as found.) -/
def outAfter (c : Dev nD) (t : Fin cfg0.N) : Vec F S1x1 .f32 :=
  View.canon (runLast c (grid0.coords t) (mIn t) (hIn t) (mOut t) (hOut t) scM (Memref.isWhole_whole _) (xblk V c t) (accBefore V c t)).1

/-! ## The invariant and the proof data -/

/-- Before the first point, the class's invariant; before a later point `n + 1`, the accumulator at what
    point `n` left in it, and the rest of the class's invariant kept aside. -/
def inv0 (c : Dev nD) : (n : ℕ) → n ≤ cfg0.N → sProp 𝕄
  | 0, _ => Pipeline.ΦA spec0 c
  | n + 1, h => iprop(owns (c : Thread nD τ) scM fullShare (accAfter V c n h) ∗ Keep (F := F) c)

theorem inv0_zero (c : Dev nD) (n : ℕ) (h : n ≤ cfg0.N) (hz : n = 0) : inv0 V c n h = Pipeline.ΦA spec0 c := by
  subst hz; rfl

theorem inv0_pos (c : Dev nD) (n : ℕ) (h : n ≤ cfg0.N) (hz : n ≠ 0) :
    inv0 V c n h = iprop(owns (c : Thread nD τ) scM fullShare (accAfter V c (n - 1) (by omega)) ∗ Keep (F := F) c) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => xblk V c t
    | ⟨1, _⟩ => outAfter V c t
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_in (c : Dev nD) (t : Fin cfg0.N) : (dat0 V c).after 0 t = xblk V c t := by dsimp only [dat0]
theorem after0_out (c : Dev nD) (t : Fin cfg0.N) : (dat0 V c).after 1 t = outAfter V c t := by dsimp only [dat0]

theorem Φ_castSucc (c : Dev nD) (t : Fin cfg0.N) :
    (dat0 V c).Φ t.castSucc = inv0 V c t.val (Nat.le_of_lt t.isLt) := by
  dsimp only [dat0]; simp only [Fin.coe_castSucc]

theorem Φ_succ (c : Dev nD) (t : Fin cfg0.N) :
    (dat0 V c).Φ t.succ = iprop(owns (c : Thread nD τ) scM fullShare (accAfter V c t.val t.isLt) ∗ Keep (F := F) c) := rfl

/-- The input window's buffer holds its block whenever the body runs: it is fetched at every point and the
    body leaves it in place. -/
theorem before0_in (c : Dev nD) (t : Fin cfg0.N) (d) : (dat0 V c).before 0 t d = xblk V c t :=
  ((dat0 V c).before_in_eq_fetched 0 rfl (fun _ => rfl) (fun _ _ _ => rfl)
      (fun t => by rw [after0_in]; unfold Dat.blockOf xblk; rw [A_eq0]; try rfl) t d).trans
    (by unfold Dat.fetched Dat.blockOf xblk; rw [A_eq0]; try rfl)

end Region

section Region
variable (V : (c : Dev nD) → (b : Ref sig .tc) → Buf (Elt F) ((c : Thread nD τ).loc b))

/-! ## The body obligation at a generic point -/

/-- What the body is called with at point `t`: the invariant, what the core owes, each window's buffer. -/
def bodyPre0 (c : Dev nD) (t : Fin cfg0.N) : sProp 𝕄 :=
  iprop((dat0 V c).Φ t.castSucc ∗ (dat0 V c).owesAt () t.castSucc
    ∗ (∃ d, owns (c : Thread nD τ) (mIn t) fullShare ((dat0 V c).before 0 t d))
    ∗ (∃ d, owns (c : Thread nD τ) (mOut t) fullShare ((dat0 V c).before 1 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4000000 in
/-- The body at any point. The input buffer holds its block. At the first point the class's invariant lends
    the accumulator at anything and the reset case runs; at a later point the invariant holds the accumulator at
    what the point before left and the middle or the emit case runs; either way the accumulator returns at this
    point's contents. Away from the last point the output buffer is handed back as found; at the last point it
    takes the total. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in]
  rw [show (dat0 V c).owesAt () t.succ = (dat0 V c).owesAt () t.castSucc from rfl, Φ_succ, Φ_castSucc]
  rw [show (dat0 V c).leavesExact 0 t = owns (c : Thread nD τ) (mIn t) fullShare ((dat0 V c).after 0 t) from by
    unfold Dat.leavesExact; rw [in_live t], after0_in]
  have hN : t.val < 25 := lt_of_lt_of_eq t.isLt (show cfg0.N = 25 from N_0)
  by_cases h0 : t.val = 0
  · have hr : isReset (grid0.coords t) := (isReset_iff t).mpr h0
    have he : ¬isEmit (grid0.coords t) := fun h => by have := (isEmit_iff t).mp h; omega
    rw [Dat.leavesExact_idle (dat0 V c) 1 t (out_idle t he) (out_noflush t he)]
    rw [accAfter_first V c t h0, inv0_zero V c _ _ h0]
    iintro ⟨HΦ, Ho, ⟨%d0, H0⟩, ⟨%d1, H1⟩⟩
    ihave Hsp := (ΦA_split c) $$ HΦ
    icases Hsp with ⟨HS, Hkeep⟩
    iapply ((runFirst c (grid0.coords t) _ _ _ _ _ _ (xblk V c t)).2 hr he _ Set.univ _)
    isplitl [H0]; · iexact H0
    isplitl [H1]; · iexact H1
    isplitl [HS]; · iexact HS
    iintro ⟨H0, H1, HS⟩
    isplitl [HS Hkeep]
    · isplitl [HS]; · iexact HS
      iexact Hkeep
    isplitl [Ho]; · iexact Ho
    isplitl [H0]; · iexact H0
    iexists _; iexact H1
  · have hr : ¬isReset (grid0.coords t) := fun h => h0 ((isReset_iff t).mp h)
    by_cases h24 : t.val = 24
    · have he : isEmit (grid0.coords t) := (isEmit_iff t).mpr h24
      rw [show (dat0 V c).leavesExact 1 t = owns (c : Thread nD τ) (mOut t) fullShare ((dat0 V c).after 1 t) from by
        unfold Dat.leavesExact; rw [out_live t he], after0_out]
      rw [accAfter_last V c t h0 h24, inv0_pos V c _ _ h0]
      unfold outAfter
      iintro ⟨⟨HS, Hkeep⟩, Ho, ⟨%d0, H0⟩, ⟨%d1, H1⟩⟩
      iapply ((runLast c (grid0.coords t) _ _ _ _ _ _ (xblk V c t) _).2.2 hr he Set.univ _)
      isplitl [H0]; · iexact H0
      isplitl [H1]; · iexists _; iexact H1
      isplitl [HS]; · iexact HS
      iintro ⟨H0, H1, HS⟩
      isplitl [HS Hkeep]
      · isplitl [HS]; · iexact HS
        iexact Hkeep
      isplitl [Ho]; · iexact Ho
      isplitl [H0]; · iexact H0
      iexact H1
    · have he : ¬isEmit (grid0.coords t) := fun h => h24 ((isEmit_iff t).mp h)
      rw [Dat.leavesExact_idle (dat0 V c) 1 t (out_idle t he) (out_noflush t he)]
      rw [accAfter_mid V c t h0 h24, inv0_pos V c _ _ h0]
      iintro ⟨⟨HS, Hkeep⟩, Ho, ⟨%d0, H0⟩, ⟨%d1, H1⟩⟩
      iapply ((runMid c (grid0.coords t) _ _ _ _ _ _ (xblk V c t) _).2 hr he _ Set.univ _)
      isplitl [H0]; · iexact H0
      isplitl [H1]; · iexact H1
      isplitl [HS]; · iexact HS
      iintro ⟨H0, H1, HS⟩
      isplitl [HS Hkeep]
      · isplitl [HS]; · iexact HS
        iexact Hkeep
      isplitl [Ho]; · iexact Ho
      isplitl [H0]; · iexact H0
      iexists _; iexact H1

/-! ## The interface of region 0 -/

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 25 := N_0; omega)]
  unfold Keep
  iintro ⟨HS, Hkeep⟩
  iapply Hkeep
  iexists _; iexact HS

end Region

end Cert.Kernel.Hand

end
-- ==== Proof.K.Region1.lean ====
/- Region 1 of @main: the column-sum kernel's region, its proof data at entry contents V. -/
import proofs.«111018_j28578712388223_1_alg».proof.Proof.Gen.Kernel.Launch
import proofs.«111018_j28578712388223_1_alg».proof.Proof.Gen.Kernel.Skeleton
import proofs.«111018_j28578712388223_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions of the body, in closed form over the grid -/

/-- The reset branch's condition: the scalar chain of the first conditional, from the grid coordinate. -/
abbrev cond1_0 (i : grid1.Coords) : Prop :=
  (Scalar.cmpi .ne (Scalar.extui (Scalar.cmpi .eq (BitVec.ofNat 32 (i 0).val) 0#32)) 0#32) = 1#1
/-- It holds exactly at the first point. -/
theorem hcond1_0 : ∀ t : Fin cfg1.N, cond1_0 (grid1.coords t) ↔ t.val = 0 :=
  (by decide +kernel : ∀ t : Fin grid1.N, cond1_0 (grid1.coords t) ↔ t.val = 0)

/-- The output branch's condition. -/
abbrev cond1_1 (i : grid1.Coords) : Prop := k1_cond2 i = 1#1
/-- It holds exactly at the last point. -/
theorem hcond1_1 : ∀ t : Fin cfg1.N, cond1_1 (grid1.coords t) ↔ t.val = 19 :=
  (by decide +kernel : ∀ t : Fin grid1.N, cond1_1 (grid1.coords t) ↔ t.val = 19)

/-! ## Where the windows are idle -/

/-- The input window is live at every point. -/
theorem live1_0 : ∀ t : Fin cfg1.N, cfg1.idle 0 (grid1.coords t) = false := by decide +kernel
/-- Off the last point the output window is idle, -/
theorem idle1_1 : ∀ t : Fin cfg1.N, ¬cond1_1 (grid1.coords t) → cfg1.idle 1 (grid1.coords t) = true := by decide +kernel
/-- and is not written back there; -/
theorem noFlush1_1 : ∀ t : Fin cfg1.N, ¬cond1_1 (grid1.coords t) → (cfg1.win 1).flush t = false := by decide +kernel
/-- at the last point it is live. -/
theorem live1_1 : ∀ t : Fin cfg1.N, cond1_1 (grid1.coords t) → cfg1.idle 1 (grid1.coords t) = false := by decide +kernel

/-! ## The memrefs the body is called with -/

abbrev ms1_0 (t : Fin cfg1.N) : Memref sig .tc .vmem S5000x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16 .f32 := win1_1.stage (cfg1.slots t 1)
abbrev hs1_1 (t : Fin cfg1.N) : (ms1_1 t).IsWhole := hstage1_1 ((cfg1.slots t 1).cast nbuf1_1)
/-- The accumulator: a whole scoped buffer of the kernel's own, carried from point to point. -/
abbrev scM1 : Memref sig .tc .vmem S1x16 .f32 := Memref.whole cc1_scratch0

/-- The zero offsets of every access of the body, however spelt. -/
theorem off2_zero : (![0, 0] : Fin 2 → ℕ) = fun _ => 0 := by
  funext a; fin_cases a <;> rfl

/-! ## The body's triple, one per control case

Every access of the body is through the whole-shape rectangle at zero offsets, so a load reads the buffer's
contents and a store leaves its payload: each case's post is stated in closed form over the payloads. -/

set_option maxHeartbeats 1000000 in
/-- The first point: the reset branch taken, the output branch not. Whatever the accumulator held, it ends at the
    payload of the zero vector and the block; the output's buffer is handed back untouched. -/
theorem run1_first (c : Dev nD) (i : grid1.Coords) (arg1 : Memref sig .tc .vmem S5000x16 .f32) (harg1 : arg1.IsWhole)
    (arg2 : Memref sig .tc .vmem S1x16 .f32) (harg2 : arg2.IsWhole) (arg3 : Memref sig .tc .vmem S1x16 .f32) (harg3 : arg3.IsWhole)
    (hc0 : cond1_0 i) (hc1 : ¬cond1_1 i) (x0 : Vec F S5000x16 .f32) (xi : Vec F S1x16 .f32)
    (E : Set ℕ) (K : PUnit → sProp 𝕄) :
    iprop(owns (c : Thread nD τ) arg1 fullShare x0 ∗ owns (c : Thread nD τ) arg2 fullShare xi ∗ (∃ d, owns (c : Thread nD τ) arg3 fullShare d)
        ∗ (iprop(owns (c : Thread nD τ) arg1 fullShare x0 ∗ owns (c : Thread nD τ) arg2 fullShare xi
            ∗ owns (c : Thread nD τ) arg3 fullShare (k1_pay2 (k1_pay1 (F := F)) x0)) -∗ K ⟨⟩))
      ⊢ wp frame (wpE (defs₀ (F := F)) Variants.none c none) E (cc1__colsum_kernel i arg1 harg1 arg2 harg2 arg3 harg3) K := by
  simp only [cc1__colsum_kernel_eq_skeleton]; unfold cc1__colsum_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  try sl_unfold_words
  rw [View.read_writes_eq_canon _ _ _ (fun y => ⟨_, List.mem_cons.mpr (Or.inl rfl), View.mem_set_unit_zero off2_zero inb_S1x16_S1x16_0_0 y⟩),
    View.canon_cons_unit_zero off2_zero]
  simp only [View.readAt_eq_ld, harg1.read_unread, View.readCov_unit_zero (S := S1x16) _ off2_zero, View.ld_unit_zero (S := S5000x16) off2_zero]

set_option maxHeartbeats 1000000 in
/-- A middle point: neither branch taken. The accumulator, found at xs, ends at the payload of xs and the block;
    the output's buffer is handed back untouched. -/
theorem run1_mid (c : Dev nD) (i : grid1.Coords) (arg1 : Memref sig .tc .vmem S5000x16 .f32) (harg1 : arg1.IsWhole)
    (arg2 : Memref sig .tc .vmem S1x16 .f32) (harg2 : arg2.IsWhole) (arg3 : Memref sig .tc .vmem S1x16 .f32) (harg3 : arg3.IsWhole)
    (hc0 : ¬cond1_0 i) (hc1 : ¬cond1_1 i) (x0 : Vec F S5000x16 .f32) (xi : Vec F S1x16 .f32) (xs : Vec F S1x16 .f32)
    (E : Set ℕ) (K : PUnit → sProp 𝕄) :
    iprop(owns (c : Thread nD τ) arg1 fullShare x0 ∗ owns (c : Thread nD τ) arg2 fullShare xi ∗ owns (c : Thread nD τ) arg3 fullShare xs
        ∗ (iprop(owns (c : Thread nD τ) arg1 fullShare x0 ∗ owns (c : Thread nD τ) arg2 fullShare xi
            ∗ owns (c : Thread nD τ) arg3 fullShare (k1_pay2 xs x0)) -∗ K ⟨⟩))
      ⊢ wp frame (wpE (defs₀ (F := F)) Variants.none c none) E (cc1__colsum_kernel i arg1 harg1 arg2 harg2 arg3 harg3) K := by
  simp only [cc1__colsum_kernel_eq_skeleton]; unfold cc1__colsum_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg3.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  try sl_unfold_words
  rw [View.read_writes_eq_canon _ _ _ (fun y => ⟨_, List.mem_singleton_self _, View.mem_set_unit_zero off2_zero inb_S1x16_S1x16_0_0 y⟩),
    View.canon_unit_zero off2_zero]
  simp only [View.readAt_eq_ld, harg1.read_unread, harg3.read_unread, View.ld_unit_zero (S := S1x16) off2_zero, View.ld_unit_zero (S := S5000x16) off2_zero]

set_option maxHeartbeats 1000000 in
/-- The last point: the output branch taken, the reset branch not. The accumulator, found at xs, ends at the
    payload of xs and the block, and so does the output's buffer, whatever it held. -/
theorem run1_last (c : Dev nD) (i : grid1.Coords) (arg1 : Memref sig .tc .vmem S5000x16 .f32) (harg1 : arg1.IsWhole)
    (arg2 : Memref sig .tc .vmem S1x16 .f32) (harg2 : arg2.IsWhole) (arg3 : Memref sig .tc .vmem S1x16 .f32) (harg3 : arg3.IsWhole)
    (hc0 : ¬cond1_0 i) (hc1 : cond1_1 i) (x0 : Vec F S5000x16 .f32) (xs : Vec F S1x16 .f32)
    (E : Set ℕ) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (k1_pay2 xs x0)
            ∗ owns (c : Thread nD τ) arg3 fullShare (k1_pay2 xs x0)) -∗ K ⟨⟩))
      ⊢ wp frame (wpE (defs₀ (F := F)) Variants.none c none) E (cc1__colsum_kernel i arg1 harg1 arg2 harg2 arg3 harg3) K := by
  simp only [cc1__colsum_kernel_eq_skeleton]; unfold cc1__colsum_kernel_skel
  unfold owns
  iintro ⟨⟨%f0, %hf0, H0⟩, ⟨%d1, %f1, -, H1⟩, ⟨%fs, %hfs, HS⟩, Hk⟩
  obtain rfl := harg1.eq_unread hf0; obtain rfl := harg3.eq_unread hfs
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    try sl_unfold_words
    rw [View.read_writes_eq_canon _ _ _ (fun y => ⟨_, List.mem_singleton_self _, View.mem_set_unit_zero off2_zero inb_S1x16_S1x16_0_0 y⟩),
      View.canon_unit_zero off2_zero]
    simp only [View.readAt_eq_ld, harg1.read_unread, harg3.read_unread, View.readCov_unit_zero (S := S1x16) _ off2_zero, View.ld_unit_zero (S := S1x16) off2_zero, View.ld_unit_zero (S := S5000x16) off2_zero]
  iexists _; isplitr
  swap; · iexact HS
  ipureintro
  try sl_unfold_words
  rw [View.read_writes_eq_canon _ _ _ (fun y => ⟨_, List.mem_singleton_self _, View.mem_set_unit_zero off2_zero inb_S1x16_S1x16_0_0 y⟩),
    View.canon_unit_zero off2_zero]
  simp only [View.readAt_eq_ld, harg1.read_unread, harg3.read_unread, View.ld_unit_zero (S := S1x16) off2_zero, View.ld_unit_zero (S := S5000x16) off2_zero]

section
variable (V : (c : Dev nD) → (b : Ref sig .tc) → Buf (Elt F) ((c : Thread nD τ).loc b))

/-! ## The input window's blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's block at point t, at its literal type: rows 5000·t … 5000·t + 4999 of the array. -/
abbrev xblk1 (c : Dev nD) (t : Fin cfg1.N) : Vec F S5000x16 .f32 := iblk1 V c 0 t

/-- The input's current staging buffer holds its block at every point, for any proof data whose array is the entry
    contents and whose body leaves the block in place: the window is uncut, never idle, and an unfetched point has
    not moved the block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator, point by point -/

/-- What the accumulator holds when the body at position n loads it: the zero vector at the first point (the
    reset has just stored it), afterwards the payload of what the point before loaded and that point's block. -/
def scr1 (c : Dev nD) : (n : ℕ) → n ≤ cfg1.N → Vec F S1x16 .f32
  | 0, _ => k1_pay1
  | n + 1, hn => k1_pay2 (scr1 c n (Nat.le_of_succ_le hn)) (xblk1 V c ⟨n, hn⟩)

theorem scr1_of_zero (c : Dev nD) (n : ℕ) (h : n ≤ cfg1.N) (hz : n = 0) : scr1 V c n h = k1_pay1 := by
  subst hz; rfl

/-- After the body at point t: one more step of the recursion. -/
theorem scr1_succ (c : Dev nD) (t : Fin cfg1.N) :
    scr1 V c (t.val + 1) t.isLt = k1_pay2 (scr1 V c t.val (Nat.le_of_lt t.isLt)) (xblk1 V c t) := rfl

/-! ## The region invariant -/

/-- Everything of the class invariant but the accumulator: it gives the class invariant back for the accumulator
    at any contents. -/
def Keep1 (c : Dev nD) : sProp 𝕄 :=
  iprop((∃ d, owns (c : Thread nD τ) scM1 fullShare d) -∗ (Pipeline.ΦA spec1 c : sProp 𝕄))

/-- The class invariant holds the accumulator at some contents, beside the rest. -/
theorem split1 (c : Dev nD) :
    (Pipeline.ΦA spec1 c : sProp 𝕄) ⊢ iprop((∃ d, owns (c : Thread nD τ) scM1 fullShare d) ∗ Keep1 (F := F) c) := by
  unfold Keep1 Pipeline.ΦA
  rw [scopedRest1_eq]
  simp only [scM1, owns_whole]
  iintro ⟨⟨H0, H1, H2, H3, HS, H5⟩, Hr⟩
  isplitl [HS]
  · iexact HS
  iintro HS
  isplitr [Hr]
  · isplitl [H0]; · iexact H0
    isplitl [H1]; · iexact H1
    isplitl [H2]; · iexact H2
    isplitl [H3]; · iexact H3
    isplitl [HS]; · iexact HS
    iexact H5
  iexact Hr

/-- The invariant before position n: before the first point the class's; afterwards the accumulator at what the
    point before left in it, beside the rest. -/
def inv1 (c : Dev nD) : (n : ℕ) → n ≤ cfg1.N → sProp 𝕄
  | 0, _ => Pipeline.ΦA spec1 c
  | n + 1, hn => iprop(owns (c : Thread nD τ) scM1 fullShare (scr1 V c (n + 1) hn) ∗ Keep1 c)

theorem inv1_zero (c : Dev nD) (n : ℕ) (h : n ≤ cfg1.N) (hz : n = 0) : inv1 V c n h = Pipeline.ΦA spec1 c := by
  subst hz; rfl

theorem inv1_succ (c : Dev nD) (n : ℕ) (hn : n < cfg1.N) :
    inv1 V c (n + 1) hn = iprop(owns (c : Thread nD τ) scM1 fullShare (scr1 V c (n + 1) hn) ∗ Keep1 c) := rfl

theorem inv1_pos (c : Dev nD) (n : ℕ) (h : n ≤ cfg1.N) (hz : n ≠ 0) :
    inv1 V c n h = iprop(owns (c : Thread nD τ) scM1 fullShare (scr1 V c n h) ∗ Keep1 c) := by
  cases n with
  | zero => exact absurd rfl hz
  | succ n => rfl

/-! ## The proof data -/

/-- The proof data of the region on core c: the arrays as the region finds them; after the body at point t the
    input's buffer at its block and the output's at what the accumulator then holds (read only at the last point,
    the one point that stores it); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => scr1 V c (t.val + 1) t.isLt
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = scr1 V c (t.val + 1) t.isLt := by dsimp only [dat1]

theorem before1_0 (c : Dev nD) (t : Fin cfg1.N) (d) : (dat1 V c).before 0 t d = iblk1 V c 0 t :=
  before1_0_of V (dat1 V c) (A_eq1 V c 0) (after1_0 V c) t d

theorem inv1_castSucc (c : Dev nD) (t : Fin cfg1.N) :
    (dat1 V c).Φ t.castSucc = inv1 V c t.val (Nat.le_of_lt t.isLt) := by
  dsimp only [dat1]; simp only [Fin.coe_castSucc]

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4000000 in
/-- The body at any point. The input's buffer holds its block; the closed forms say which of the three cases the
    point is in. At the first point the class invariant is split into the accumulator at anything and the rest;
    afterwards the invariant hands the accumulator over at what the point before left. The case's triple applies,
    and the accumulator comes back one step of the recursion further. Off the last point the output's buffer is
    handed back as found; at the last point it holds what the accumulator holds. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = inv1 V c (t.val + 1) t.isLt from rfl, inv1_succ, scr1_succ]
  rw [show (dat1 V c).leavesExact 0 t = owns (c : Thread nD τ) (ms1_0 t) fullShare ((dat1 V c).after 0 t) from by
    unfold Dat.leavesExact; rw [live1_0 t], after1_0]
  have hN : t.val < 20 := lt_of_lt_of_eq t.isLt (show cfg1.N = 20 from N_1)
  by_cases h0 : t.val = 0
  · have h1 : ¬t.val = 19 := by omega
    rw [Dat.leavesExact_idle (dat1 V c) 1 t (idle1_1 t (fun h => h1 ((hcond1_1 t).mp h))) (noFlush1_1 t (fun h => h1 ((hcond1_1 t).mp h)))]
    rw [scr1_of_zero V c _ _ h0, inv1_castSucc V c t, inv1_zero V c _ _ h0]
    iintro ⟨HΦ, Ho, ⟨%d0, H0⟩, ⟨%d1, H1⟩⟩
    ihave HΦ' := (split1 (F := F) c) $$ HΦ
    icases HΦ' with ⟨HS, HK⟩
    iapply (run1_first c (grid1.coords t) _ _ _ _ _ _ ((hcond1_0 t).mpr h0) (fun h => h1 ((hcond1_1 t).mp h)) (xblk1 V c t) _ Set.univ _)
    isplitl [H0]; · iexact H0
    isplitl [H1]; · iexact H1
    isplitl [HS]; · iexact HS
    iintro ⟨H0, H1, HS⟩
    isplitl [HS HK]
    · isplitl [HS]; · iexact HS
      iexact HK
    isplitl [Ho]; · iexact Ho
    isplitl [H0]; · iexact H0
    iexists _; iexact H1
  · by_cases h1 : t.val = 19
    · rw [show (dat1 V c).leavesExact 1 t = owns (c : Thread nD τ) (ms1_1 t) fullShare ((dat1 V c).after 1 t) from by
        unfold Dat.leavesExact; rw [live1_1 t ((hcond1_1 t).mpr h1)], after1_1, scr1_succ]
      rw [inv1_castSucc V c t, inv1_pos V c _ _ h0]
      iintro ⟨⟨HS, HK⟩, Ho, ⟨%d0, H0⟩, ⟨%d1, H1⟩⟩
      iapply (run1_last c (grid1.coords t) _ _ _ _ _ _ (fun h => h0 ((hcond1_0 t).mp h)) ((hcond1_1 t).mpr h1) (xblk1 V c t) (scr1 V c t.val (Nat.le_of_lt t.isLt)) Set.univ _)
      isplitl [H0]; · iexact H0
      isplitl [H1]; · iexists _; iexact H1
      isplitl [HS]; · iexact HS
      iintro ⟨H0, H1, HS⟩
      isplitl [HS HK]
      · isplitl [HS]; · iexact HS
        iexact HK
      isplitl [Ho]; · iexact Ho
      isplitl [H0]; · iexact H0
      iexact H1
    · rw [Dat.leavesExact_idle (dat1 V c) 1 t (idle1_1 t (fun h => h1 ((hcond1_1 t).mp h))) (noFlush1_1 t (fun h => h1 ((hcond1_1 t).mp h)))]
      rw [inv1_castSucc V c t, inv1_pos V c _ _ h0]
      iintro ⟨⟨HS, HK⟩, Ho, ⟨%d0, H0⟩, ⟨%d1, H1⟩⟩
      iapply (run1_mid c (grid1.coords t) _ _ _ _ _ _ (fun h => h0 ((hcond1_0 t).mp h)) (fun h => h1 ((hcond1_1 t).mp h)) (xblk1 V c t) _ (scr1 V c t.val (Nat.le_of_lt t.isLt)) Set.univ _)
      isplitl [H0]; · iexact H0
      isplitl [H1]; · iexact H1
      isplitl [HS]; · iexact HS
      iintro ⟨H0, H1, HS⟩
      isplitl [HS HK]
      · isplitl [HS]; · iexact HS
        iexact HK
      isplitl [Ho]; · iexact Ho
      isplitl [H0]; · iexact H0
      iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = inv1 V c 0 (Nat.zero_le _) from rfl, inv1_zero V c 0 _ rfl]

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 20 := N_1; omega)]
  unfold Keep1
  iintro ⟨HS, HK⟩
  iapply HK
  iexists _; iexact HS

end

end Cert.Kernel.Hand

end
-- ==== Proof.K.Region2.lean ====
/- Region 2 of @main: the blocked dot-reduce, at any contents of the core's buffers on entry. The
   accumulator it carries between grid points is followed point by point; everything else the resting
   invariant holds is kept aside, untouched, until the region ends. -/
import proofs.«111018_j28578712388223_1_alg».proof.Proof.Gen.Kernel.Launch
import proofs.«111018_j28578712388223_1_alg».proof.Proof.Gen.Kernel.Skeleton
import proofs.«111018_j28578712388223_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which branches a grid point takes -/

/-- The condition of the branch that clears the accumulator, as the body computes it from the grid
    coordinate. -/
abbrev clears2 (i : grid2.Coords) : Prop :=
  (Scalar.cmpi .ne (Scalar.extui (Scalar.cmpi .eq (BitVec.ofNat 32 (i 0).val) 0#32)) 0#32) = 1#1

/-- The condition of the branch that copies the accumulator to the result block. -/
abbrev emits2 (i : grid2.Coords) : Prop := k2_cond2 i = 1#1

/-- The accumulator is cleared at the first point and nowhere else. -/
theorem clears2_iff : ∀ t : Fin cfg2.N, clears2 (grid2.coords t) ↔ t.val = 0 :=
  (by decide +kernel : ∀ t : Fin grid2.N, clears2 (grid2.coords t) ↔ t.val = 0)

/-- The result block is stored at the last point and nowhere else. -/
theorem emits2_iff : ∀ t : Fin cfg2.N, emits2 (grid2.coords t) ↔ t.val = 24 :=
  (by decide +kernel : ∀ t : Fin grid2.N, emits2 (grid2.coords t) ↔ t.val = 24)

/-- The two operand windows are live at every point. -/
theorem live2_0 : ∀ t : Fin cfg2.N, cfg2.idle 0 (grid2.coords t) = false := by decide +kernel
theorem live2_1 : ∀ t : Fin cfg2.N, cfg2.idle 1 (grid2.coords t) = false := by decide +kernel
/-- Before the last point the result window is idle and is not written back. -/
theorem idle2_2 : ∀ t : Fin cfg2.N, t.val ≠ 24 → cfg2.idle 2 (grid2.coords t) = true := by decide +kernel
theorem keep2_2 : ∀ t : Fin cfg2.N, t.val ≠ 24 → (cfg2.win 2).flush t = false := by decide +kernel
/-- At the last point it is live. -/
theorem live2_2 : ∀ t : Fin cfg2.N, t.val = 24 → cfg2.idle 2 (grid2.coords t) = false := by decide +kernel

/-! ## The memrefs the body is called with -/

abbrev opA (t : Fin cfg2.N) : Memref sig .tc .vmem S16000x128 .f32 := win2_0.stage (cfg2.slots t 0)
abbrev opA_whole (t : Fin cfg2.N) : (opA t).IsWhole := hstage2_0 ((cfg2.slots t 0).cast nbuf2_0)
abbrev opB (t : Fin cfg2.N) : Memref sig .tc .vmem S16000x128 .f32 := win2_1.stage (cfg2.slots t 1)
abbrev opB_whole (t : Fin cfg2.N) : (opB t).IsWhole := hstage2_1 ((cfg2.slots t 1).cast nbuf2_1)
abbrev res (t : Fin cfg2.N) : Memref sig .tc .vmem S1x1 .f32 := win2_2.stage (cfg2.slots t 2)
abbrev res_whole (t : Fin cfg2.N) : (res t).IsWhole := hstage2_2 ((cfg2.slots t 2).cast nbuf2_2)
/-- The accumulator: a whole scoped buffer of the kernel's own. -/
abbrev accM : Memref sig .tc .vmem S1x1 .f32 := Memref.whole cc2_scratch0

/-! ## The accumulator apart from the rest of the resting invariant -/

/-- What the resting invariant holds besides the accumulator, as the promise to give the resting
    invariant back for the accumulator at any contents. -/
def Keep2 (c : Dev nD) : sProp 𝕄 :=
  iprop((∃ d, owns (c : Thread nD τ) accM fullShare d) -∗ Pipeline.ΦA spec2 c)

/-- The resting invariant hands out the accumulator and keeps the promise. -/
theorem rest_split2 (c : Dev nD) :
    (Pipeline.ΦA spec2 c : sProp 𝕄) ⊢ iprop((∃ d, owns (c : Thread nD τ) accM fullShare d) ∗ Keep2 (F := F) c) := by
  unfold Keep2 Pipeline.ΦA; rw [scopedRest2_eq]; simp only [accM, owns_whole]
  iintro ⟨⟨H0, H1, H2, H3, H4, H5, H6, H7, HS⟩, Hg⟩
  isplitl [HS]; · iexact HS
  iintro HS
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HS

/-- The accumulator at any contents, with the promise, is the resting invariant again. -/
theorem rest_join2 (c : Dev nD) (X : Vec F S1x1 .f32) :
    iprop(owns (c : Thread nD τ) accM fullShare X ∗ Keep2 (F := F) c) ⊢ (Pipeline.ΦA spec2 c : sProp 𝕄) := by
  unfold Keep2
  iintro ⟨HS, Hk⟩
  iapply Hk
  iexists _; iexact HS

/-! ## The body's run, in each of its three control cases

In every case the body is run on whole memrefs: the operands' at the blocks they hold, which it leaves
as they were; the accumulator, which it stores into, ends as a list of stored pieces over whatever it
held, and that list is what each run yields. -/

set_option maxHeartbeats 1000000 in
/-- The first point: the accumulator, at anything, is cleared and the block's sum of products added;
    the result block, at any contents `xr`, is not touched. -/
noncomputable def runFirst2 (c : Dev nD) (i : grid2.Coords)
    (arg1 : Memref sig .tc .vmem S16000x128 .f32) (harg1 : arg1.IsWhole) (arg2 : Memref sig .tc .vmem S16000x128 .f32) (harg2 : arg2.IsWhole)
    (arg3 : Memref sig .tc .vmem S1x1 .f32) (harg3 : arg3.IsWhole) (arg4 : Memref sig .tc .vmem S1x1 .f32) (harg4 : arg4.IsWhole)
    (hc0 : clears2 i) (hc1 : ¬emits2 i) (xa xb : Vec F S16000x128 .f32) :
    { LS : List (View.Piece (Elt F) S1x1 .f32) //
      ∀ (xr : Vec F S1x1 .f32) (E : Set ℕ) (K : PUnit → sProp 𝕄),
        iprop(owns (c : Thread nD τ) arg1 fullShare xa ∗ owns (c : Thread nD τ) arg2 fullShare xb ∗ owns (c : Thread nD τ) arg3 fullShare xr
            ∗ (∃ d, owns (c : Thread nD τ) arg4 fullShare d)
            ∗ (iprop(owns (c : Thread nD τ) arg1 fullShare xa ∗ owns (c : Thread nD τ) arg2 fullShare xb ∗ owns (c : Thread nD τ) arg3 fullShare xr
                ∗ (∃ f, arg4.view.loc (c : Thread nD τ) ↦[arg4.view.set]{fullShare} arg4.view.writes (Elt F) f LS)) -∗ K ⟨⟩))
          ⊢ wp frame (wpE (defs₀ (F := F)) Variants.none c none) E (cc2__dot_reduce_kernel i arg1 harg1 arg2 harg2 arg3 harg3 arg4 harg4) K } := by
  refine ⟨?_, fun xr E K => ?run⟩
  case run =>
    simp only [cc2__dot_reduce_kernel_eq_skeleton]; unfold cc2__dot_reduce_kernel_skel
    unfold owns
    iintro ⟨⟨%fa, %hfa, Ha⟩, ⟨%fb, %hfb, Hb⟩, ⟨%fr, %hfr, Hr⟩, ⟨%ds, %fs, -, Hs⟩, Hk⟩
    obtain rfl := harg1.eq_unread hfa; obtain rfl := harg2.eq_unread hfb; obtain rfl := harg3.eq_unread hfr
    sl_exec (disch := first | exact hc0 | exact hc1)
    sl_step
    iapply Hk
    isplitl [Ha]
    · iexists _; isplitr; · ipureintro; exact harg1.read_unread _
      iexact Ha
    isplitl [Hb]
    · iexists _; isplitr; · ipureintro; exact harg2.read_unread _
      iexact Hb
    isplitl [Hr]
    · iexists _; isplitr; · ipureintro; exact harg3.read_unread _
      iexact Hr
    iexists _; iexact Hs

set_option maxHeartbeats 1000000 in
/-- A point strictly between the first and the last: the block's sum of products is added to the
    accumulator's contents `xs`; the result block, at any contents `xr`, is not touched. -/
noncomputable def runMid2 (c : Dev nD) (i : grid2.Coords)
    (arg1 : Memref sig .tc .vmem S16000x128 .f32) (harg1 : arg1.IsWhole) (arg2 : Memref sig .tc .vmem S16000x128 .f32) (harg2 : arg2.IsWhole)
    (arg3 : Memref sig .tc .vmem S1x1 .f32) (harg3 : arg3.IsWhole) (arg4 : Memref sig .tc .vmem S1x1 .f32) (harg4 : arg4.IsWhole)
    (hc0 : ¬clears2 i) (hc1 : ¬emits2 i) (xa xb : Vec F S16000x128 .f32) (xs : Vec F S1x1 .f32) :
    { LS : List (View.Piece (Elt F) S1x1 .f32) //
      ∀ (xr : Vec F S1x1 .f32) (E : Set ℕ) (K : PUnit → sProp 𝕄),
        iprop(owns (c : Thread nD τ) arg1 fullShare xa ∗ owns (c : Thread nD τ) arg2 fullShare xb ∗ owns (c : Thread nD τ) arg3 fullShare xr
            ∗ owns (c : Thread nD τ) arg4 fullShare xs
            ∗ (iprop(owns (c : Thread nD τ) arg1 fullShare xa ∗ owns (c : Thread nD τ) arg2 fullShare xb ∗ owns (c : Thread nD τ) arg3 fullShare xr
                ∗ (∃ f, arg4.view.loc (c : Thread nD τ) ↦[arg4.view.set]{fullShare} arg4.view.writes (Elt F) f LS)) -∗ K ⟨⟩))
          ⊢ wp frame (wpE (defs₀ (F := F)) Variants.none c none) E (cc2__dot_reduce_kernel i arg1 harg1 arg2 harg2 arg3 harg3 arg4 harg4) K } := by
  refine ⟨?_, fun xr E K => ?run⟩
  case run =>
    simp only [cc2__dot_reduce_kernel_eq_skeleton]; unfold cc2__dot_reduce_kernel_skel
    unfold owns
    iintro ⟨⟨%fa, %hfa, Ha⟩, ⟨%fb, %hfb, Hb⟩, ⟨%fr, %hfr, Hr⟩, ⟨%fs, %hfs, Hs⟩, Hk⟩
    obtain rfl := harg1.eq_unread hfa; obtain rfl := harg2.eq_unread hfb; obtain rfl := harg3.eq_unread hfr
    obtain rfl := harg4.eq_unread hfs
    sl_exec (disch := first | exact hc0 | exact hc1)
    sl_step
    iapply Hk
    isplitl [Ha]
    · iexists _; isplitr; · ipureintro; exact harg1.read_unread _
      iexact Ha
    isplitl [Hb]
    · iexists _; isplitr; · ipureintro; exact harg2.read_unread _
      iexact Hb
    isplitl [Hr]
    · iexists _; isplitr; · ipureintro; exact harg3.read_unread _
      iexact Hr
    iexists _; iexact Hs

set_option maxHeartbeats 1000000 in
/-- The last point: the block's sum of products is added to the accumulator's contents `xs`, and the
    accumulator is copied over the result block, whatever that held: two lists of stored pieces. -/
noncomputable def runLast2 (c : Dev nD) (i : grid2.Coords)
    (arg1 : Memref sig .tc .vmem S16000x128 .f32) (harg1 : arg1.IsWhole) (arg2 : Memref sig .tc .vmem S16000x128 .f32) (harg2 : arg2.IsWhole)
    (arg3 : Memref sig .tc .vmem S1x1 .f32) (harg3 : arg3.IsWhole) (arg4 : Memref sig .tc .vmem S1x1 .f32) (harg4 : arg4.IsWhole)
    (hc0 : ¬clears2 i) (hc1 : emits2 i) (xa xb : Vec F S16000x128 .f32) (xs : Vec F S1x1 .f32) :
    Σ' (LR : List (View.Piece (Elt F) S1x1 .f32)), { LS : List (View.Piece (Elt F) S1x1 .f32) //
      ∀ (E : Set ℕ) (K : PUnit → sProp 𝕄),
        iprop(owns (c : Thread nD τ) arg1 fullShare xa ∗ owns (c : Thread nD τ) arg2 fullShare xb ∗ (∃ d, owns (c : Thread nD τ) arg3 fullShare d)
            ∗ owns (c : Thread nD τ) arg4 fullShare xs
            ∗ (iprop(owns (c : Thread nD τ) arg1 fullShare xa ∗ owns (c : Thread nD τ) arg2 fullShare xb
                ∗ (∃ f, arg3.view.loc (c : Thread nD τ) ↦[arg3.view.set]{fullShare} arg3.view.writes (Elt F) f LR)
                ∗ (∃ f, arg4.view.loc (c : Thread nD τ) ↦[arg4.view.set]{fullShare} arg4.view.writes (Elt F) f LS)) -∗ K ⟨⟩))
          ⊢ wp frame (wpE (defs₀ (F := F)) Variants.none c none) E (cc2__dot_reduce_kernel i arg1 harg1 arg2 harg2 arg3 harg3 arg4 harg4) K } := by
  refine ⟨?_, ?_, fun E K => ?run⟩
  case run =>
    simp only [cc2__dot_reduce_kernel_eq_skeleton]; unfold cc2__dot_reduce_kernel_skel
    unfold owns
    iintro ⟨⟨%fa, %hfa, Ha⟩, ⟨%fb, %hfb, Hb⟩, ⟨%dr, %fr, -, Hr⟩, ⟨%fs, %hfs, Hs⟩, Hk⟩
    obtain rfl := harg1.eq_unread hfa; obtain rfl := harg2.eq_unread hfb
    obtain rfl := harg4.eq_unread hfs
    sl_exec (disch := first | exact hc0 | exact hc1)
    sl_step
    iapply Hk
    isplitl [Ha]
    · iexists _; isplitr; · ipureintro; exact harg1.read_unread _
      iexact Ha
    isplitl [Hb]
    · iexists _; isplitr; · ipureintro; exact harg2.read_unread _
      iexact Hb
    isplitl [Hr]; · iexists _; iexact Hr
    iexists _; iexact Hs

/-! ## The stored pieces cover the one-element buffers -/

theorem coverFirst2 (c : Dev nD) (i : grid2.Coords)
    (arg1 : Memref sig .tc .vmem S16000x128 .f32) (harg1 : arg1.IsWhole) (arg2 : Memref sig .tc .vmem S16000x128 .f32) (harg2 : arg2.IsWhole)
    (arg3 : Memref sig .tc .vmem S1x1 .f32) (harg3 : arg3.IsWhole) (arg4 : Memref sig .tc .vmem S1x1 .f32) (harg4 : arg4.IsWhole)
    (hc0 : clears2 i) (hc1 : ¬emits2 i) (xa xb : Vec F S16000x128 .f32) (y : S1x1.Idx) :
    ∃ pc ∈ (runFirst2 c i arg1 harg1 arg2 harg2 arg3 harg3 arg4 harg4 hc0 hc1 xa xb).1, y ∈ pc.1.set :=
  View.cover_of_tiledL (runFirst2 c i arg1 harg1 arg2 harg2 arg3 harg3 arg4 harg4 hc0 hc1 xa xb).1 S1x1.size (by sl_kernel_rfl) y

theorem coverMid2 (c : Dev nD) (i : grid2.Coords)
    (arg1 : Memref sig .tc .vmem S16000x128 .f32) (harg1 : arg1.IsWhole) (arg2 : Memref sig .tc .vmem S16000x128 .f32) (harg2 : arg2.IsWhole)
    (arg3 : Memref sig .tc .vmem S1x1 .f32) (harg3 : arg3.IsWhole) (arg4 : Memref sig .tc .vmem S1x1 .f32) (harg4 : arg4.IsWhole)
    (hc0 : ¬clears2 i) (hc1 : ¬emits2 i) (xa xb : Vec F S16000x128 .f32) (xs : Vec F S1x1 .f32) (y : S1x1.Idx) :
    ∃ pc ∈ (runMid2 c i arg1 harg1 arg2 harg2 arg3 harg3 arg4 harg4 hc0 hc1 xa xb xs).1, y ∈ pc.1.set :=
  View.cover_of_tiledL (runMid2 c i arg1 harg1 arg2 harg2 arg3 harg3 arg4 harg4 hc0 hc1 xa xb xs).1 S1x1.size (by sl_kernel_rfl) y

theorem coverLastAcc2 (c : Dev nD) (i : grid2.Coords)
    (arg1 : Memref sig .tc .vmem S16000x128 .f32) (harg1 : arg1.IsWhole) (arg2 : Memref sig .tc .vmem S16000x128 .f32) (harg2 : arg2.IsWhole)
    (arg3 : Memref sig .tc .vmem S1x1 .f32) (harg3 : arg3.IsWhole) (arg4 : Memref sig .tc .vmem S1x1 .f32) (harg4 : arg4.IsWhole)
    (hc0 : ¬clears2 i) (hc1 : emits2 i) (xa xb : Vec F S16000x128 .f32) (xs : Vec F S1x1 .f32) (y : S1x1.Idx) :
    ∃ pc ∈ (runLast2 c i arg1 harg1 arg2 harg2 arg3 harg3 arg4 harg4 hc0 hc1 xa xb xs).2.1, y ∈ pc.1.set :=
  View.cover_of_tiledL (runLast2 c i arg1 harg1 arg2 harg2 arg3 harg3 arg4 harg4 hc0 hc1 xa xb xs).2.1 S1x1.size (by sl_kernel_rfl) y

theorem coverLastRes2 (c : Dev nD) (i : grid2.Coords)
    (arg1 : Memref sig .tc .vmem S16000x128 .f32) (harg1 : arg1.IsWhole) (arg2 : Memref sig .tc .vmem S16000x128 .f32) (harg2 : arg2.IsWhole)
    (arg3 : Memref sig .tc .vmem S1x1 .f32) (harg3 : arg3.IsWhole) (arg4 : Memref sig .tc .vmem S1x1 .f32) (harg4 : arg4.IsWhole)
    (hc0 : ¬clears2 i) (hc1 : emits2 i) (xa xb : Vec F S16000x128 .f32) (xs : Vec F S1x1 .f32) (y : S1x1.Idx) :
    ∃ pc ∈ (runLast2 c i arg1 harg1 arg2 harg2 arg3 harg3 arg4 harg4 hc0 hc1 xa xb xs).1, y ∈ pc.1.set :=
  View.cover_of_tiledL (runLast2 c i arg1 harg1 arg2 harg2 arg3 harg3 arg4 harg4 hc0 hc1 xa xb xs).1 S1x1.size (by sl_kernel_rfl) y

section
variable (V : (c : Dev nD) → (b : Ref sig .tc) → Buf (Elt F) ((c : Thread nD τ).loc b))

/-! ## The operand blocks and what each point leaves -/

/-- The two operands' blocks at point `t`, read off their arrays as the region finds them. -/
def blkA2 (c : Dev nD) (t : Fin cfg2.N) : Vec F S16000x128 .f32 :=
  ((cfg2.win 0).blk t).view.read (Elt F) (V c (Pipeline.arrRef spec2 0))
def blkB2 (c : Dev nD) (t : Fin cfg2.N) : Vec F S16000x128 .f32 :=
  ((cfg2.win 1).blk t).view.read (Elt F) (V c (Pipeline.arrRef spec2 1))

/-- The accumulator after the first point. -/
def accFirst2 (c : Dev nD) (t : Fin cfg2.N) (h0 : t.val = 0) : Vec F S1x1 .f32 :=
  View.canon (runFirst2 c (grid2.coords t) (opA t) (opA_whole t) (opB t) (opB_whole t) (res t) (res_whole t) accM (Memref.isWhole_whole _)
    ((clears2_iff t).mpr h0) (fun h => absurd ((emits2_iff t).mp h) (by omega)) (blkA2 V c t) (blkB2 V c t)).1

/-- The accumulator after a point strictly inside the grid, from what the point found in it. -/
def accMid2 (c : Dev nD) (t : Fin cfg2.N) (h0 : t.val ≠ 0) (h1 : t.val ≠ 24) (xs : Vec F S1x1 .f32) : Vec F S1x1 .f32 :=
  View.canon (runMid2 c (grid2.coords t) (opA t) (opA_whole t) (opB t) (opB_whole t) (res t) (res_whole t) accM (Memref.isWhole_whole _)
    (fun h => h0 ((clears2_iff t).mp h)) (fun h => h1 ((emits2_iff t).mp h)) (blkA2 V c t) (blkB2 V c t) xs).1

/-- The accumulator after the last point, -/
def accLast2 (c : Dev nD) (t : Fin cfg2.N) (h0 : t.val ≠ 0) (h1 : t.val = 24) (xs : Vec F S1x1 .f32) : Vec F S1x1 .f32 :=
  View.canon (runLast2 c (grid2.coords t) (opA t) (opA_whole t) (opB t) (opB_whole t) (res t) (res_whole t) accM (Memref.isWhole_whole _)
    (fun h => h0 ((clears2_iff t).mp h)) ((emits2_iff t).mpr h1) (blkA2 V c t) (blkB2 V c t) xs).2.1

/-- and the result block after it. -/
def resLast2 (c : Dev nD) (t : Fin cfg2.N) (h0 : t.val ≠ 0) (h1 : t.val = 24) (xs : Vec F S1x1 .f32) : Vec F S1x1 .f32 :=
  View.canon (runLast2 c (grid2.coords t) (opA t) (opA_whole t) (opB t) (opB_whole t) (res t) (res_whole t) accM (Memref.isWhole_whole _)
    (fun h => h0 ((clears2_iff t).mp h)) ((emits2_iff t).mpr h1) (blkA2 V c t) (blkB2 V c t) xs).1

/-- What the accumulator holds after the body at position `n`: the first point's contents, then each
    later point's from the one before it. -/
def accAt2 (c : Dev nD) : (n : ℕ) → n < cfg2.N → Vec F S1x1 .f32
  | 0, hn => accFirst2 V c ⟨0, hn⟩ rfl
  | n + 1, hn =>
    if h1 : n + 1 = 24 then accLast2 V c ⟨n + 1, hn⟩ (Nat.succ_ne_zero n) h1 (accAt2 c n (Nat.lt_of_succ_lt hn))
    else accMid2 V c ⟨n + 1, hn⟩ (Nat.succ_ne_zero n) h1 (accAt2 c n (Nat.lt_of_succ_lt hn))

theorem accAt2_first (c : Dev nD) (t : Fin cfg2.N) (h0 : t.val = 0) :
    accAt2 V c t.val t.isLt = accFirst2 V c t h0 := by
  obtain ⟨n, hn⟩ := t
  cases n with
  | zero => rfl
  | succ n => exact absurd h0 (Nat.succ_ne_zero n)

theorem accAt2_mid (c : Dev nD) (t : Fin cfg2.N) (h0 : t.val ≠ 0) (h1 : t.val ≠ 24) :
    accAt2 V c t.val t.isLt
      = accMid2 V c t h0 h1 (accAt2 V c (t.val - 1) (Nat.lt_of_le_of_lt (Nat.sub_le _ _) t.isLt)) := by
  obtain ⟨n, hn⟩ := t
  cases n with
  | zero => exact absurd rfl h0
  | succ n => exact (dif_neg h1).trans rfl

theorem accAt2_last (c : Dev nD) (t : Fin cfg2.N) (h0 : t.val ≠ 0) (h1 : t.val = 24) :
    accAt2 V c t.val t.isLt
      = accLast2 V c t h0 h1 (accAt2 V c (t.val - 1) (Nat.lt_of_le_of_lt (Nat.sub_le _ _) t.isLt)) := by
  obtain ⟨n, hn⟩ := t
  cases n with
  | zero => exact absurd rfl h0
  | succ n => exact (dif_pos h1).trans rfl

/-- What the body leaves in each window's staging buffer at point `t`: an operand's block where it was;
    the result block as the last point stores it (before the last point the window is idle and this is
    not consulted). -/
def after2 (c : Dev nD) (w : Fin cfg2.W) (t : Fin cfg2.N) : (cfg2.win w).block.Idx → Elt F (cfg2.win w).elt :=
  match w with
  | ⟨0, _⟩ => blkA2 V c t
  | ⟨1, _⟩ => blkB2 V c t
  | ⟨2, _⟩ =>
    if h : t.val = 24 then
      resLast2 V c t (by omega) h (accAt2 V c (t.val - 1) (Nat.lt_of_le_of_lt (Nat.sub_le _ _) t.isLt))
    else fun _ => Classical.arbitrary _

/-- The region invariant before position `t`: the resting invariant before the first point; afterwards
    the accumulator at what the point before left in it, and the promise of the rest. -/
def inv2 (c : Dev nD) (t : Fin (cfg2.N + 1)) : sProp 𝕄 :=
  if h : t.val = 0 then Pipeline.ΦA spec2 c
  else iprop(owns (c : Thread nD τ) accM fullShare (accAt2 V c (t.val - 1) (by have := t.isLt; omega)) ∗ Keep2 (F := F) c)

def dat2 (c : Dev nD) : Dat τ (Elt F) Unit ℕ (UR sig nD τ) ℕ cfg2 c where
  A w := V c (Pipeline.arrRef spec2 w)
  after w t := after2 V c w t
  Φ t := inv2 V c t
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = blkA2 V c t := by dsimp only [dat2, after2]
theorem after2_1 (c : Dev nD) (t : Fin cfg2.N) : (dat2 V c).after 1 t = blkB2 V c t := by dsimp only [dat2, after2]
theorem after2_2 (c : Dev nD) (t : Fin cfg2.N) (h0 : t.val ≠ 0) (h1 : t.val = 24) :
    (dat2 V c).after 2 t = resLast2 V c t h0 h1 (accAt2 V c (t.val - 1) (Nat.lt_of_le_of_lt (Nat.sub_le _ _) t.isLt)) := by
  dsimp only [dat2, after2]; exact dif_pos h1

/-- The invariant before the first point, -/
theorem inv2_first (c : Dev nD) (t : Fin cfg2.N) (h0 : t.val = 0) :
    (dat2 V c).Φ t.castSucc = Pipeline.ΦA spec2 c := by
  dsimp only [dat2]; unfold inv2; exact dif_pos h0

/-- before a later point, -/
theorem inv2_later (c : Dev nD) (t : Fin cfg2.N) (h0 : t.val ≠ 0) :
    (dat2 V c).Φ t.castSucc
      = iprop(owns (c : Thread nD τ) accM fullShare (accAt2 V c (t.val - 1) (Nat.lt_of_le_of_lt (Nat.sub_le _ _) t.isLt)) ∗ Keep2 (F := F) c) := by
  dsimp only [dat2]; unfold inv2; exact dif_neg h0

/-- and after any point. -/
theorem inv2_next (c : Dev nD) (t : Fin cfg2.N) :
    (dat2 V c).Φ t.succ = iprop(owns (c : Thread nD τ) accM fullShare (accAt2 V c t.val t.isLt) ∗ Keep2 (F := F) c) := by
  dsimp only [dat2]; unfold inv2; exact dif_neg (Nat.succ_ne_zero t.val)

/-- An operand's current staging buffer holds its block at every point: it is fetched at every point. -/
theorem before2_0 (c : Dev nD) (t : Fin cfg2.N) (d) : (dat2 V c).before 0 t d = blkA2 V c t := by
  rw [(dat2 V c).before_fetched 0 t (fetch2_0 t)]; unfold Dat.fetched Dat.blockOf blkA2; rw [A_eq2]; try rfl
theorem before2_1 (c : Dev nD) (t : Fin cfg2.N) (d) : (dat2 V c).before 1 t d = blkB2 V c t := by
  rw [(dat2 V c).before_fetched 1 t (fetch2_1 t)]; unfold Dat.fetched Dat.blockOf blkB2; rw [A_eq2]; try rfl

/-! ## The body at a generic point -/

/-- What the body is called with at point `t`, the windows one by one, -/
def pre2 (c : Dev nD) (t : Fin cfg2.N) : sProp 𝕄 :=
  iprop((dat2 V c).Φ t.castSucc ∗ (dat2 V c).owesAt () t.castSucc
    ∗ (∃ d, owns (c : Thread nD τ) (opA t) fullShare ((dat2 V c).before 0 t d))
    ∗ (∃ d, owns (c : Thread nD τ) (opB t) fullShare ((dat2 V c).before 1 t d))
    ∗ (∃ d, owns (c : Thread nD τ) (res t) fullShare ((dat2 V c).before 2 t d)))

/-- and what it returns. -/
def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The operands' buffers hold their blocks; the point's position says which
    control case it is in. At the first point the resting invariant hands out the accumulator at anything
    and keeps the promise of the rest; later the invariant has the accumulator at what the point before
    left. The case's run applies, and the accumulator comes back at this point's contents. Before the last
    point the result buffer is handed back as found; at the last point it holds the copied accumulator. -/
theorem step2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1]
  rw [show (dat2 V c).owesAt () t.succ = (dat2 V c).owesAt () t.castSucc from rfl]
  rw [show (dat2 V c).leavesExact 0 t = owns (c : Thread nD τ) (opA t) fullShare ((dat2 V c).after 0 t) from by
    unfold Dat.leavesExact; rw [live2_0 t], after2_0]
  rw [show (dat2 V c).leavesExact 1 t = owns (c : Thread nD τ) (opB t) fullShare ((dat2 V c).after 1 t) from by
    unfold Dat.leavesExact; rw [live2_1 t], after2_1]
  rw [inv2_next]
  have hN : t.val < 25 := lt_of_lt_of_eq t.isLt N_2
  by_cases h0 : t.val = 0
  · have h1 : t.val ≠ 24 := by omega
    rw [Dat.leavesExact_idle (dat2 V c) 2 t (idle2_2 t h1) (keep2_2 t h1)]
    rw [inv2_first V c t h0, accAt2_first V c t h0]
    unfold accFirst2
    iintro ⟨Hphi, Ho, ⟨%da, Ha⟩, ⟨%db, Hb⟩, ⟨%dr, Hr⟩⟩
    ihave Hsp := (rest_split2 (F := F) c) $$ Hphi
    icases Hsp with ⟨Hs, Hkeep⟩
    iapply ((runFirst2 c (grid2.coords t) _ _ _ _ _ _ _ _ ((clears2_iff t).mpr h0) (fun h => h1 ((emits2_iff t).mp h)) (blkA2 V c t) (blkB2 V c t)).2 _ Set.univ _)
    isplitl [Ha]; · iexact Ha
    isplitl [Hb]; · iexact Hb
    isplitl [Hr]; · iexact Hr
    isplitl [Hs]; · iexact Hs
    iintro ⟨Ha, Hb, Hr, ⟨%es, Hs⟩⟩
    isplitl [Hs Hkeep]
    · isplitl [Hs]
      · unfold owns; iexists _; isplitr
        swap; · iexact Hs
        ipureintro; exact View.read_writes_eq_canon _ _ _ (coverFirst2 c _ _ _ _ _ _ _ _ _ _ _ _ _)
      iexact Hkeep
    isplitl [Ho]; · iexact Ho
    isplitl [Ha]; · iexact Ha
    isplitl [Hb]; · iexact Hb
    iexists _; iexact Hr
  · by_cases h1 : t.val = 24
    · rw [show (dat2 V c).leavesExact 2 t = owns (c : Thread nD τ) (res t) fullShare ((dat2 V c).after 2 t) from by
        unfold Dat.leavesExact; rw [live2_2 t h1], after2_2 V c t h0 h1]
      rw [inv2_later V c t h0, accAt2_last V c t h0 h1]
      unfold accLast2 resLast2
      iintro ⟨⟨Hs, Hkeep⟩, Ho, ⟨%da, Ha⟩, ⟨%db, Hb⟩, ⟨%dr, Hr⟩⟩
      iapply ((runLast2 c (grid2.coords t) _ _ _ _ _ _ _ _ (fun h => h0 ((clears2_iff t).mp h)) ((emits2_iff t).mpr h1) (blkA2 V c t) (blkB2 V c t) _).2.2 Set.univ _)
      isplitl [Ha]; · iexact Ha
      isplitl [Hb]; · iexact Hb
      isplitl [Hr]; · iexists _; iexact Hr
      isplitl [Hs]; · iexact Hs
      iintro ⟨Ha, Hb, ⟨%er, Hr⟩, ⟨%es, Hs⟩⟩
      isplitl [Hs Hkeep]
      · isplitl [Hs]
        · unfold owns; iexists _; isplitr
          swap; · iexact Hs
          ipureintro; exact View.read_writes_eq_canon _ _ _ (coverLastAcc2 c _ _ _ _ _ _ _ _ _ _ _ _ _ _)
        iexact Hkeep
      isplitl [Ho]; · iexact Ho
      isplitl [Ha]; · iexact Ha
      isplitl [Hb]; · iexact Hb
      unfold owns; iexists _; isplitr
      swap; · iexact Hr
      ipureintro; exact View.read_writes_eq_canon _ _ _ (coverLastRes2 c _ _ _ _ _ _ _ _ _ _ _ _ _ _)
    · rw [Dat.leavesExact_idle (dat2 V c) 2 t (idle2_2 t h1) (keep2_2 t h1)]
      rw [inv2_later V c t h0, accAt2_mid V c t h0 h1]
      unfold accMid2
      iintro ⟨⟨Hs, Hkeep⟩, Ho, ⟨%da, Ha⟩, ⟨%db, Hb⟩, ⟨%dr, Hr⟩⟩
      iapply ((runMid2 c (grid2.coords t) _ _ _ _ _ _ _ _ (fun h => h0 ((clears2_iff t).mp h)) (fun h => h1 ((emits2_iff t).mp h)) (blkA2 V c t) (blkB2 V c t) _).2 _ Set.univ _)
      isplitl [Ha]; · iexact Ha
      isplitl [Hb]; · iexact Hb
      isplitl [Hr]; · iexact Hr
      isplitl [Hs]; · iexact Hs
      iintro ⟨Ha, Hb, Hr, ⟨%es, Hs⟩⟩
      isplitl [Hs Hkeep]
      · isplitl [Hs]
        · unfold owns; iexists _; isplitr
          swap; · iexact Hs
          ipureintro; exact View.read_writes_eq_canon _ _ _ (coverMid2 c _ _ _ _ _ _ _ _ _ _ _ _ _ _)
        iexact Hkeep
      isplitl [Ho]; · iexact Ho
      isplitl [Ha]; · iexact Ha
      isplitl [Hb]; · iexact Hb
      iexists _; iexact Hr

/-- The library's body obligation, at every point. -/
theorem body_obligation2 (c : Dev nD) : BodyObligation (dat2 (F := F) V c) (defs₀ (F := F)) Variants.none () Set.univ := fun t => by
  rw [bigSep_W2, bigSep_W2]
  exact step2 V c t

/-- The launch hands the region the resting invariant, which is the invariant before the first point. -/
theorem hin2 (c : Dev nD) : Pipeline.ΦA spec2 c ⊢ (dat2 V c).Φ 0 := by
  rw [show (dat2 V c).Φ 0 = Pipeline.ΦA spec2 c from by dsimp only [dat2]; unfold inv2; exact dif_pos rfl]
  try exact Idealize.SL.BI.Entails.refl _

/-- After the last point the accumulator's contents are forgotten and the promise gives the resting
    invariant back. -/
theorem hout2 (c : Dev nD) : (dat2 V c).Φ (Fin.last cfg2.N) ⊢ Pipeline.ΦA spec2 c := by
  rw [show (dat2 V c).Φ (Fin.last cfg2.N)
      = iprop(owns (c : Thread nD τ) accM fullShare (accAt2 V c 24 (by decide)) ∗ Keep2 (F := F) c) from by
    dsimp only [dat2]; unfold inv2; exact dif_neg (by decide)]
  exact rest_join2 c _

end

end Cert.Kernel.Hand

end
-- ==== Proof.K.Run.lean ====
/-
  The run of @main at any float instance: four stretches of host operations around three kernel regions, composed by the
  several-regions launch of the pipeline library. Between two items every unscoped buffer of the core is held at
  contents named here (`B0` … `B7`): the launch memory, then each host stretch applied, then each region's arrays
  at what its write-backs leave. The result: every weakly fair execution terminates and every unscoped buffer ends at `B7`;
  the arguments are written by nothing, so they end as launched.
-/
import proofs.«111018_j28578712388223_1_alg».proof.Proof.K.Region0
import proofs.«111018_j28578712388223_1_alg».proof.Proof.K.Region1
import proofs.«111018_j28578712388223_1_alg».proof.Proof.K.Region2
import proofs.«111018_j28578712388223_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- At launch. -/
abbrev B0 (c : Dev nD) : Valuation τ sig (Elt F) := fun b => m (c, b)
/-- After the first host stretch (the reshape of the edge values to 25000 × 128). -/
abbrev B1 (c : Dev nD) : Valuation τ sig (Elt F) := StableHlo.after hostOps0 (B0 m c)
abbrev E1 (c : Dev nD) (b : Ref sig .tc) : Buf (Elt F) ((c : Thread nD τ).loc b) := B1 m c b

/-- After region 0: its arrays at what the write-backs leave, every other buffer as the region found it. -/
def B2 (c : Dev nD) : Valuation τ sig (Elt F) :=
  Pipeline.withArrays spec0 c (B1 m c) fun w => (dat0 (E1 m) c).arrAt w cfg0.N
theorem B2_at_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_at_other (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The same read at the TensorCore's references. -/
abbrev E2 (c : Dev nD) (b : Ref sig .tc) : Buf (Elt F) ((c : Thread nD τ).loc b) := B2 m c b
theorem B2_arr (c : Dev nD) (w : Fin cfg0.W) : (dat0 (E1 m) c).arrAt w cfg0.N = E2 m c (Pipeline.arrRef spec0 w) :=
  (B2_at_arr m c w).symm
theorem B2_rest (c : Dev nD) : ∀ b, b ∉ Finset.univ.image (Pipeline.arrRef spec0) → E2 m c b = E1 m c b :=
  fun b hb => B2_at_other m c b fun w e => hb (Finset.mem_image.mpr ⟨w, Finset.mem_univ _, e⟩)

/-- After the second host stretch. -/
abbrev B3 (c : Dev nD) : Valuation τ sig (Elt F) := StableHlo.after hostOps1 (B2 m c)
abbrev E3 (c : Dev nD) (b : Ref sig .tc) : Buf (Elt F) ((c : Thread nD τ).loc b) := B3 m c b

/-- After region 1: its arrays at what the write-backs leave, every other buffer as the region found it. -/
def B4 (c : Dev nD) : Valuation τ sig (Elt F) :=
  Pipeline.withArrays spec1 c (B3 m c) fun w => (dat1 (E3 m) c).arrAt w cfg1.N
theorem B4_at_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_at_other (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
/-- The same read at the TensorCore's references. -/
abbrev E4 (c : Dev nD) (b : Ref sig .tc) : Buf (Elt F) ((c : Thread nD τ).loc b) := B4 m c b
theorem B4_arr (c : Dev nD) (w : Fin cfg1.W) : (dat1 (E3 m) c).arrAt w cfg1.N = E4 m c (Pipeline.arrRef spec1 w) :=
  (B4_at_arr m c w).symm
theorem B4_rest (c : Dev nD) : ∀ b, b ∉ Finset.univ.image (Pipeline.arrRef spec1) → E4 m c b = E3 m c b :=
  fun b hb => B4_at_other m c b fun w e => hb (Finset.mem_image.mpr ⟨w, Finset.mem_univ _, e⟩)

/-- After the third host stretch (the balance term, the two row gathers and their reshapes). -/
abbrev B5 (c : Dev nD) : Valuation τ sig (Elt F) := StableHlo.after hostOps2 (B4 m c)
abbrev E5 (c : Dev nD) (b : Ref sig .tc) : Buf (Elt F) ((c : Thread nD τ).loc b) := B5 m c b

/-- After region 2: its arrays at what the write-backs leave, every other buffer as the region found it. -/
def B6 (c : Dev nD) : Valuation τ sig (Elt F) :=
  Pipeline.withArrays spec2 c (B5 m c) fun w => (dat2 (E5 m) c).arrAt w cfg2.N
theorem B6_at_arr (c : Dev nD) (w : Fin cfg2.W) :
    B6 m c (Proc.devRef .tc (Pipeline.arrRef spec2 w)) = (dat2 (E5 m) c).arrAt w cfg2.N := by
  unfold B6; exact Pipeline.withArrays_arr spec2 launch2.win.arr_inj c _ _ w
theorem B6_at_other (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
/-- The same read at the TensorCore's references. -/
abbrev E6 (c : Dev nD) (b : Ref sig .tc) : Buf (Elt F) ((c : Thread nD τ).loc b) := B6 m c b
theorem B6_arr (c : Dev nD) (w : Fin cfg2.W) : (dat2 (E5 m) c).arrAt w cfg2.N = E6 m c (Pipeline.arrRef spec2 w) :=
  (B6_at_arr m c w).symm
theorem B6_rest (c : Dev nD) : ∀ b, b ∉ Finset.univ.image (Pipeline.arrRef spec2) → E6 m c b = E5 m c b :=
  fun b hb => B6_at_other m c b fun w e => hb (Finset.mem_image.mpr ⟨w, Finset.mem_univ _, e⟩)

/-- After the last host stretch (the quotient and the total). -/
abbrev B7 (c : Dev nD) : Valuation τ sig (Elt F) := StableHlo.after hostOps3 (B6 m c)

/-! ## The proof data of the three pipelines, each at its region's entry contents -/

/-- No pipeline has a prefetched table. -/
abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and the core owing nothing. -/
abbrev Rest (c : Dev nD) : sProp 𝕄 := iprop((∃ r, prngReg c r) ∗ ∃ W, owes (c : Thread nD τ) (0 : CellTallies nD τ sig Unit) W)

/-- A host stretch as a segment from the contents `B`. -/
abbrev stretch (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B Rest

/-- The last thread state: every unscoped buffer at `B7`, the generator register at some state. -/
abbrev Tend (c : Dev nD) : sProp 𝕄 := iprop(StableHlo.held (c : Thread nD τ) (Pipeline.ucRefs τ sig) (B7 m c) ∗ ∃ r, prngReg c r)

/-! ## The regions as segments -/

set_option backward.isDefEq.respectTransparency.types false in
/-- Region 0 as a segment of @main: entered with every unscoped buffer at `B1`, left with them at `B2`. The region's
    arrays are taken out of the unscoped buffers and put back at what the write-backs leave; the generator register goes
    into the region invariant and comes back; nothing is owed; the kernel has no semaphore of its own. -/
def region0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ Rest c)
  post c := iprop(StableHlo.held (c : Thread nD τ) (Pipeline.ucRefs τ sig) (B2 m c) ∗ Rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    refine BIBase.Entails.trans ?_ (hin0 (E1 m) c)
    unfold Pipeline.ΦA
    iintro ⟨Hreg, -, Hscoped⟩
    isplitl [Hscoped]; · iexact Hscoped
    iexact Hreg
  hout c := by
    rw [Pipeline.ownSems0_none]
    refine BIBase.Entails.trans (hout0 (E1 m) c) ?_
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (B2_arr m c) (B2_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- Region 1 as a segment of @main: entered with every unscoped buffer at `B3`, left with them at `B4`. The region's
    arrays are taken out of the unscoped buffers and put back at what the write-backs leave; the generator register goes
    into the region invariant and comes back; nothing is owed; the kernel has no semaphore of its own. -/
def region1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ Rest c)
  post c := iprop(StableHlo.held (c : Thread nD τ) (Pipeline.ucRefs τ sig) (B4 m c) ∗ Rest c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    refine BIBase.Entails.trans ?_ (hin1 (E3 m) c)
    unfold Pipeline.ΦA
    iintro ⟨Hreg, -, Hscoped⟩
    isplitl [Hscoped]; · iexact Hscoped
    iexact Hreg
  hout c := by
    rw [Pipeline.ownSems0_none]
    refine BIBase.Entails.trans (hout1 (E3 m) c) ?_
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (B4_arr m c) (B4_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- Region 2 as a segment of @main: entered with every unscoped buffer at `B5`, left with them at `B6`. The region's
    arrays are taken out of the unscoped buffers and put back at what the write-backs leave; the generator register goes
    into the region invariant and comes back; nothing is owed; the kernel has no semaphore of its own. -/
def region2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (B5 m c) ∗ Rest c)
  post c := iprop(StableHlo.held (c : Thread nD τ) (Pipeline.ucRefs τ sig) (B6 m c) ∗ Rest c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    refine BIBase.Entails.trans ?_ (hin2 (E5 m) c)
    unfold Pipeline.ΦA
    iintro ⟨Hreg, -, Hscoped⟩
    isplitl [Hscoped]; · iexact Hscoped
    iexact Hreg
  hout c := by
    rw [Pipeline.ownSems0_none]
    refine BIBase.Entails.trans (hout2 (E5 m) c) ?_
    unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (B6_arr m c) (B6_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## @main as segments, and the launch -/

abbrev items : List (Pipeline.Seg (pcfgs (F := F)) adm (pdats m) () defs₀ 𝒱₀ L lv) :=
  [ .host (stretch hostOps0 hostOps0_sub hostOps0_fresh (B0 m)),
    .region (region0 m),
    .host (stretch hostOps1 hostOps1_sub hostOps1_fresh (B2 m)),
    .region (region1 m),
    .host (stretch hostOps2 hostOps2_sub hostOps2_fresh (B4 m)),
    .region (region2 m),
    .host (stretch hostOps3 hostOps3_sub hostOps3_fresh (B6 m)) ]

theorem main_items (c : Dev nD) : main (F := F) c = Pipeline.Seg.run (items m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and in
    every final state each unscoped buffer of each core holds `B7`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B7 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Tend m)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (B7 m c) ∗ Rest c) ⊢ _
        iintro ⟨Hh, Hreg, Howes⟩
        isplitl [Hh Hreg]
        · isplitl [Hh]; · iexact Hh
          iexact Hreg
        iexact Howes⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c => h c)

end Cert.Kernel.Hand

end
-- ==== Proof.K.Frame.lean ====
/-
  The frame of the kernel program at any float instance: no host operation and no region writes an argument array,
  so each argument's buffer, read back through the contents between the items, is the launch memory's.
-/
import proofs.«111018_j28578712388223_1_alg».proof.Proof.K.Run

set_option maxRecDepth 16384

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]
variable (m : (ℓ : Loc nD τ sig) → Buf (Elt F) ℓ) (ρ : Dev nD → PrngReg)

/-- The node matrix is the input window of the column-sum region and is written by nothing. -/
theorem B7_arg0 (c : Dev nD) : B7 m c main_arg0 = m ((c : Thread nD τ).loc main_arg0) :=
  (StableHlo.after_of_writes_sub hostOps3 _ hostOps3_writes (by decide)).trans <|
  (B6_at_other m c main_arg0 (by decide)).trans <|
  (StableHlo.after_of_writes_sub hostOps2 _ hostOps2_writes (by decide)).trans <|
  (B4_at_arr m c 0).trans <| ((dat1 (E3 m) c).arrAt_in 0 rfl _).trans <| (A_eq1 (E3 m) c 0).trans <|
  (StableHlo.after_of_writes_sub hostOps1 _ hostOps1_writes (by decide)).trans <|
  (B2_at_other m c main_arg0 (by decide)).trans <|
  (StableHlo.after_of_writes_sub hostOps0 _ hostOps0_writes (by decide)).trans rfl

/-- The edge values are read only by the first host stretch. -/
theorem B7_arg1 (c : Dev nD) : B7 m c main_arg1 = m ((c : Thread nD τ).loc main_arg1) :=
  (StableHlo.after_of_writes_sub hostOps3 _ hostOps3_writes (by decide)).trans <|
  (B6_at_other m c main_arg1 (by decide)).trans <|
  (StableHlo.after_of_writes_sub hostOps2 _ hostOps2_writes (by decide)).trans <|
  (B4_at_other m c main_arg1 (by decide)).trans <|
  (StableHlo.after_of_writes_sub hostOps1 _ hostOps1_writes (by decide)).trans <|
  (B2_at_other m c main_arg1 (by decide)).trans <|
  (StableHlo.after_of_writes_sub hostOps0 _ hostOps0_writes (by decide)).trans rfl

/-- The source indices are read only by the third host stretch. -/
theorem B7_arg2 (c : Dev nD) : B7 m c main_arg2 = m ((c : Thread nD τ).loc main_arg2) :=
  (StableHlo.after_of_writes_sub hostOps3 _ hostOps3_writes (by decide)).trans <|
  (B6_at_other m c main_arg2 (by decide)).trans <|
  (StableHlo.after_of_writes_sub hostOps2 _ hostOps2_writes (by decide)).trans <|
  (B4_at_other m c main_arg2 (by decide)).trans <|
  (StableHlo.after_of_writes_sub hostOps1 _ hostOps1_writes (by decide)).trans <|
  (B2_at_other m c main_arg2 (by decide)).trans <|
  (StableHlo.after_of_writes_sub hostOps0 _ hostOps0_writes (by decide)).trans rfl

/-- The destination indices likewise. -/
theorem B7_arg3 (c : Dev nD) : B7 m c main_arg3 = m ((c : Thread nD τ).loc main_arg3) :=
  (StableHlo.after_of_writes_sub hostOps3 _ hostOps3_writes (by decide)).trans <|
  (B6_at_other m c main_arg3 (by decide)).trans <|
  (StableHlo.after_of_writes_sub hostOps2 _ hostOps2_writes (by decide)).trans <|
  (B4_at_other m c main_arg3 (by decide)).trans <|
  (StableHlo.after_of_writes_sub hostOps1 _ hostOps1_writes (by decide)).trans <|
  (B2_at_other m c main_arg3 (by decide)).trans <|
  (StableHlo.after_of_writes_sub hostOps0 _ hostOps0_writes (by decide)).trans rfl

/-- Every weakly fair execution of @main terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (B7_arg0 m c),
     (h c _ (mem_uc main_arg1 (by decide))).trans (B7_arg1 m c),
     (h c _ (mem_uc main_arg2 (by decide))).trans (B7_arg2 m c),
     (h c _ (mem_uc main_arg3 (by decide))).trans (B7_arg3 m c)⟩) (run_all m ρ)

end Cert.Kernel.Hand

end
-- ==== Proof.KI.Region0.lean ====
/- Region 0 of @main: the blocked total sum. The kernel carries an accumulator between the 25 grid points:
   it is zeroed at the first point, every point adds its block's sum, and the last point copies the total
   into the one-block output. Stated at any entry contents `V` of the TensorCore's buffers: the proof data
   of the region, its body obligation, and the invariant's entry from and return to the class's invariant. -/
import proofs.«111018_j28578712388223_1_alg».proof.Proof.Gen.KernelIdeal.Launch
import proofs.«111018_j28578712388223_1_alg».proof.Proof.Gen.KernelIdeal.Skeleton
import proofs.«111018_j28578712388223_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, in closed form over the grid -/

/-- The reset condition (the first `scf.if`): the scalar chain of the body on the grid coordinate. -/
abbrev isReset (i : grid0.Coords) : Prop :=
  (Scalar.cmpi .ne (Scalar.extui (Scalar.cmpi .eq (BitVec.ofNat 32 (i 0).val) 0#32)) 0#32) = 1#1

/-- The emit condition (the second `scf.if`). -/
abbrev isEmit (i : grid0.Coords) : Prop := k0_cond2 i = 1#1

/-- The accumulator is reset at the first point and nowhere else. -/
theorem isReset_iff : ∀ t : Fin cfg0.N, isReset (grid0.coords t) ↔ t.val = 0 :=
  (by decide +kernel : ∀ t : Fin grid0.N, isReset (grid0.coords t) ↔ t.val = 0)

/-- The total is emitted at the last point and nowhere else. -/
theorem isEmit_iff : ∀ t : Fin cfg0.N, isEmit (grid0.coords t) ↔ t.val = 24 :=
  (by decide +kernel : ∀ t : Fin grid0.N, isEmit (grid0.coords t) ↔ t.val = 24)

/-- The input window is live at every point. -/
theorem in_live : ∀ t : Fin cfg0.N, cfg0.idle 0 (grid0.coords t) = false := by decide +kernel

/-- Away from the last point the output window is idle, -/
theorem out_idle : ∀ t : Fin cfg0.N, ¬isEmit (grid0.coords t) → cfg0.idle 1 (grid0.coords t) = true := by decide +kernel

/-- and its block is not written back there; -/
theorem out_noflush : ∀ t : Fin cfg0.N, ¬isEmit (grid0.coords t) → (cfg0.win 1).flush t = false := by decide +kernel

/-- at the last point it is live. -/
theorem out_live : ∀ t : Fin cfg0.N, isEmit (grid0.coords t) → cfg0.idle 1 (grid0.coords t) = false := by decide +kernel

/-! ## The body, case by case, on any whole memrefs -/

section Runs
variable (c : Dev nD) (i : grid0.Coords)
  (arg1 : Memref sig .tc .vmem S1000x128 .f32) (harg1 : arg1.IsWhole)
  (arg2 : Memref sig .tc .vmem S1x1 .f32) (harg2 : arg2.IsWhole)
  (arg3 : Memref sig .tc .vmem S1x1 .f32) (harg3 : arg3.IsWhole)

set_option maxHeartbeats 1000000 in
/-- FIRST point (reset, no emit). The accumulator, held at anything, is zeroed and then the block's sum is
    added: the stores it ends with are found by the run; the input block `x` and the output buffer (at `o`)
    come back untouched. -/
noncomputable def runFirst (x : Vec F S1000x128 .f32) :
    { LS : List (View.Piece (Elt F) S1x1 .f32) //
      ∀ (hr : isReset i) (he : ¬isEmit i) (o : Vec F S1x1 .f32) (E : Set ℕ) (K : PUnit → sProp 𝕄),
        iprop(owns (c : Thread nD τ) arg1 fullShare x ∗ owns (c : Thread nD τ) arg2 fullShare o
            ∗ (∃ d, owns (c : Thread nD τ) arg3 fullShare d)
            ∗ (iprop(owns (c : Thread nD τ) arg1 fullShare x ∗ owns (c : Thread nD τ) arg2 fullShare o
                ∗ owns (c : Thread nD τ) arg3 fullShare (View.canon LS)) -∗ K ⟨⟩))
          ⊢ wp frame (wpE (defs₀ (F := F)) Variants.none c none) E (cc0__sum_all_kernel i arg1 harg1 arg2 harg2 arg3 harg3) K } := by
  refine ⟨?_, fun hr he o E K => ?run⟩
  case run =>
    simp only [cc0__sum_all_kernel_eq_skeleton]; unfold cc0__sum_all_kernel_skel
    unfold owns
    iintro ⟨⟨%f1, %hf1, H1⟩, ⟨%f2, %hf2, H2⟩, ⟨%d3, %f3, -, H3⟩, Hk⟩
    obtain rfl := harg1.eq_unread hf1; obtain rfl := harg2.eq_unread hf2
    sl_exec (disch := first | exact hr | exact he)
    sl_step
    iapply Hk
    isplitl [H1]
    · iexists _; isplitr; · ipureintro; exact harg1.read_unread _
      iexact H1
    isplitl [H2]
    · iexists _; isplitr; · ipureintro; exact harg2.read_unread _
      iexact H2
    iexists _; isplitr
    swap; · iexact H3
    ipureintro
    exact View.read_writes_eq_canon (Val := Elt F) _ _ _ (View.cover_of_tiledL _ S1x1.size (by sl_kernel_rfl))

set_option maxHeartbeats 1000000 in
/-- MIDDLE points (no reset, no emit). The accumulator holds `a`; the block's sum is added to it. -/
noncomputable def runMid (x : Vec F S1000x128 .f32) (a : Vec F S1x1 .f32) :
    { LS : List (View.Piece (Elt F) S1x1 .f32) //
      ∀ (hr : ¬isReset i) (he : ¬isEmit i) (o : Vec F S1x1 .f32) (E : Set ℕ) (K : PUnit → sProp 𝕄),
        iprop(owns (c : Thread nD τ) arg1 fullShare x ∗ owns (c : Thread nD τ) arg2 fullShare o
            ∗ owns (c : Thread nD τ) arg3 fullShare a
            ∗ (iprop(owns (c : Thread nD τ) arg1 fullShare x ∗ owns (c : Thread nD τ) arg2 fullShare o
                ∗ owns (c : Thread nD τ) arg3 fullShare (View.canon LS)) -∗ K ⟨⟩))
          ⊢ wp frame (wpE (defs₀ (F := F)) Variants.none c none) E (cc0__sum_all_kernel i arg1 harg1 arg2 harg2 arg3 harg3) K } := by
  refine ⟨?_, fun hr he o E K => ?run⟩
  case run =>
    simp only [cc0__sum_all_kernel_eq_skeleton]; unfold cc0__sum_all_kernel_skel
    unfold owns
    iintro ⟨⟨%f1, %hf1, H1⟩, ⟨%f2, %hf2, H2⟩, ⟨%f3, %hf3, H3⟩, Hk⟩
    obtain rfl := harg1.eq_unread hf1; obtain rfl := harg2.eq_unread hf2; obtain rfl := harg3.eq_unread hf3
    sl_exec (disch := first | exact hr | exact he)
    sl_step
    iapply Hk
    isplitl [H1]
    · iexists _; isplitr; · ipureintro; exact harg1.read_unread _
      iexact H1
    isplitl [H2]
    · iexists _; isplitr; · ipureintro; exact harg2.read_unread _
      iexact H2
    iexists _; isplitr
    swap; · iexact H3
    ipureintro
    exact View.read_writes_eq_canon (Val := Elt F) _ _ _ (View.cover_of_tiledL _ S1x1.size (by sl_kernel_rfl))

set_option maxHeartbeats 1000000 in
/-- LAST point (no reset, emit). The accumulator holds `a`; the block's sum is added to it and the total is
    copied into the output buffer, held at anything. -/
noncomputable def runLast (x : Vec F S1000x128 .f32) (a : Vec F S1x1 .f32) :
    Σ' (LO : List (View.Piece (Elt F) S1x1 .f32)), { LS : List (View.Piece (Elt F) S1x1 .f32) //
      ∀ (hr : ¬isReset i) (he : isEmit i) (E : Set ℕ) (K : PUnit → sProp 𝕄),
        iprop(owns (c : Thread nD τ) arg1 fullShare x ∗ (∃ d, owns (c : Thread nD τ) arg2 fullShare d)
            ∗ owns (c : Thread nD τ) arg3 fullShare a
            ∗ (iprop(owns (c : Thread nD τ) arg1 fullShare x ∗ owns (c : Thread nD τ) arg2 fullShare (View.canon LO)
                ∗ owns (c : Thread nD τ) arg3 fullShare (View.canon LS)) -∗ K ⟨⟩))
          ⊢ wp frame (wpE (defs₀ (F := F)) Variants.none c none) E (cc0__sum_all_kernel i arg1 harg1 arg2 harg2 arg3 harg3) K } := by
  refine ⟨?_, ?_, fun hr he E K => ?run⟩
  case run =>
    simp only [cc0__sum_all_kernel_eq_skeleton]; unfold cc0__sum_all_kernel_skel
    unfold owns
    iintro ⟨⟨%f1, %hf1, H1⟩, ⟨%d2, %f2, -, H2⟩, ⟨%f3, %hf3, H3⟩, Hk⟩
    obtain rfl := harg1.eq_unread hf1; obtain rfl := harg3.eq_unread hf3
    sl_exec (disch := first | exact hr | exact he)
    sl_step
    iapply Hk
    isplitl [H1]
    · iexists _; isplitr; · ipureintro; exact harg1.read_unread _
      iexact H1
    isplitl [H2]
    · iexists _; isplitr
      swap; · iexact H2
      ipureintro
      exact View.read_writes_eq_canon (Val := Elt F) _ _ _ (View.cover_of_tiledL _ S1x1.size (by sl_kernel_rfl))
    iexists _; isplitr
    swap; · iexact H3
    ipureintro
    exact View.read_writes_eq_canon (Val := Elt F) _ _ _ (View.cover_of_tiledL _ S1x1.size (by sl_kernel_rfl))

end Runs

/-! ## The accumulator between points -/

/-- The kernel's accumulator: a whole scoped buffer of its own, passed beside the windows. -/
abbrev scM : Memref sig .tc .vmem S1x1 .f32 := Memref.whole cc0_scratch0

/-- The staging memrefs the body is called with at point `t`, and their wholeness. -/
abbrev mIn (t : Fin cfg0.N) : Memref sig .tc .vmem S1000x128 .f32 := win0_0.stage (cfg0.slots t 0)
abbrev hIn (t : Fin cfg0.N) : (mIn t).IsWhole := hstage0_0 ((cfg0.slots t 0).cast nbuf0_0)
abbrev mOut (t : Fin cfg0.N) : Memref sig .tc .vmem S1x1 .f32 := win0_1.stage (cfg0.slots t 1)
abbrev hOut (t : Fin cfg0.N) : (mOut t).IsWhole := hstage0_1 ((cfg0.slots t 1).cast nbuf0_1)

/-- All of the class's invariant but the accumulator: what returns the invariant once the accumulator, at
    whatever contents, is handed back. (The scoped rest holds ten more buffers, the other two kernels'; they
    stay inside this one hypothesis.) -/
def Keep (c : Dev nD) : sProp 𝕄 :=
  iprop((∃ d, owns (c : Thread nD τ) scM fullShare d) -∗ Pipeline.ΦA (U := UR sig nD τ) (Val := Elt F) spec0 c)

/-- The class's invariant gives up the accumulator at some contents and keeps the promise to take it back. -/
theorem ΦA_split (c : Dev nD) :
    (Pipeline.ΦA spec0 c : sProp 𝕄) ⊢ iprop((∃ d, owns (c : Thread nD τ) scM fullShare d) ∗ Keep (F := F) c) := by
  unfold Keep Pipeline.ΦA; rw [scopedRest0_eq]; simp only [scM, owns_whole]
  iintro ⟨⟨Hs, Hrest⟩, Hg⟩
  isplitl [Hs]; · iexact Hs
  iintro Hs
  isplitr [Hg]
  · isplitl [Hs]; · iexact Hs
    iexact Hrest
  iexact Hg

section Region
variable (V : (c : Dev nD) → (b : Ref sig .tc) → Buf (Elt F) ((c : Thread nD τ).loc b))

/-- The input window's block at point `t`, read off its array as the region finds it. -/
def xblk (c : Dev nD) (t : Fin cfg0.N) : ((cfg0.win 0).xblock (cfg0.grid.coords t)).Idx → Elt F (cfg0.win 0).elt :=
  ((cfg0.win 0).blk t).view.read (Elt F) (V c (Pipeline.arrRef spec0 0))

/-- What the accumulator holds after the body at point `n`: at the first point the reset case's stores over the
    block; at a later point that point's case over the block and what the point before left. -/
def accAfter (c : Dev nD) : (n : ℕ) → n < cfg0.N → Vec F S1x1 .f32
  | 0, h => View.canon (runFirst c (grid0.coords ⟨0, h⟩) (mIn ⟨0, h⟩) (hIn ⟨0, h⟩) (mOut ⟨0, h⟩) (hOut ⟨0, h⟩) scM (Memref.isWhole_whole _) (xblk V c ⟨0, h⟩)).1
  | n + 1, h =>
    if n + 1 = 24 then
      View.canon (runLast c (grid0.coords ⟨n + 1, h⟩) (mIn ⟨n + 1, h⟩) (hIn ⟨n + 1, h⟩) (mOut ⟨n + 1, h⟩) (hOut ⟨n + 1, h⟩) scM (Memref.isWhole_whole _) (xblk V c ⟨n + 1, h⟩) (accAfter c n (Nat.lt_of_succ_lt h))).2.1
    else
      View.canon (runMid c (grid0.coords ⟨n + 1, h⟩) (mIn ⟨n + 1, h⟩) (hIn ⟨n + 1, h⟩) (mOut ⟨n + 1, h⟩) (hOut ⟨n + 1, h⟩) scM (Memref.isWhole_whole _) (xblk V c ⟨n + 1, h⟩) (accAfter c n (Nat.lt_of_succ_lt h))).1

/-- What the accumulator holds when the body starts at a point `t` after the first: what the point before left. -/
abbrev accBefore (c : Dev nD) (t : Fin cfg0.N) : Vec F S1x1 .f32 :=
  accAfter V c (t.val - 1) (Nat.lt_of_le_of_lt (Nat.sub_le _ _) t.isLt)

theorem accAfter_first (c : Dev nD) (t : Fin cfg0.N) (h0 : t.val = 0) :
    accAfter V c t.val t.isLt = View.canon (runFirst c (grid0.coords t) (mIn t) (hIn t) (mOut t) (hOut t) scM (Memref.isWhole_whole _) (xblk V c t)).1 := by
  obtain ⟨n, hn⟩ := t
  cases n with
  | zero => rfl
  | succ n => exact absurd h0 (Nat.succ_ne_zero n)

theorem accAfter_mid (c : Dev nD) (t : Fin cfg0.N) (h0 : t.val ≠ 0) (h24 : t.val ≠ 24) :
    accAfter V c t.val t.isLt = View.canon (runMid c (grid0.coords t) (mIn t) (hIn t) (mOut t) (hOut t) scM (Memref.isWhole_whole _) (xblk V c t) (accBefore V c t)).1 := by
  obtain ⟨n, hn⟩ := t
  cases n with
  | zero => exact absurd rfl h0
  | succ n => exact (if_neg h24).trans rfl

theorem accAfter_last (c : Dev nD) (t : Fin cfg0.N) (h0 : t.val ≠ 0) (h24 : t.val = 24) :
    accAfter V c t.val t.isLt = View.canon (runLast c (grid0.coords t) (mIn t) (hIn t) (mOut t) (hOut t) scM (Memref.isWhole_whole _) (xblk V c t) (accBefore V c t)).2.1 := by
  obtain ⟨n, hn⟩ := t
  cases n with
  | zero => exact absurd rfl h0
  | succ n => exact (if_pos h24).trans rfl

/-- What the output window's buffer holds after the body at a point that emits: the emit case's store, over
    the block and what the point before left in the accumulator. (Consulted at the last point only: elsewhere
    the window is idle and its buffer is handed back as found.) -/
def outAfter (c : Dev nD) (t : Fin cfg0.N) : Vec F S1x1 .f32 :=
  View.canon (runLast c (grid0.coords t) (mIn t) (hIn t) (mOut t) (hOut t) scM (Memref.isWhole_whole _) (xblk V c t) (accBefore V c t)).1

/-! ## The invariant and the proof data -/

/-- Before the first point, the class's invariant; before a later point `n + 1`, the accumulator at what
    point `n` left in it, and the rest of the class's invariant kept aside. -/
def inv0 (c : Dev nD) : (n : ℕ) → n ≤ cfg0.N → sProp 𝕄
  | 0, _ => Pipeline.ΦA spec0 c
  | n + 1, h => iprop(owns (c : Thread nD τ) scM fullShare (accAfter V c n h) ∗ Keep (F := F) c)

theorem inv0_zero (c : Dev nD) (n : ℕ) (h : n ≤ cfg0.N) (hz : n = 0) : inv0 V c n h = Pipeline.ΦA spec0 c := by
  subst hz; rfl

theorem inv0_pos (c : Dev nD) (n : ℕ) (h : n ≤ cfg0.N) (hz : n ≠ 0) :
    inv0 V c n h = iprop(owns (c : Thread nD τ) scM fullShare (accAfter V c (n - 1) (by omega)) ∗ Keep (F := F) c) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => xblk V c t
    | ⟨1, _⟩ => outAfter V c t
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_in (c : Dev nD) (t : Fin cfg0.N) : (dat0 V c).after 0 t = xblk V c t := by dsimp only [dat0]
theorem after0_out (c : Dev nD) (t : Fin cfg0.N) : (dat0 V c).after 1 t = outAfter V c t := by dsimp only [dat0]

theorem Φ_castSucc (c : Dev nD) (t : Fin cfg0.N) :
    (dat0 V c).Φ t.castSucc = inv0 V c t.val (Nat.le_of_lt t.isLt) := by
  dsimp only [dat0]; simp only [Fin.coe_castSucc]

theorem Φ_succ (c : Dev nD) (t : Fin cfg0.N) :
    (dat0 V c).Φ t.succ = iprop(owns (c : Thread nD τ) scM fullShare (accAfter V c t.val t.isLt) ∗ Keep (F := F) c) := rfl

/-- The input window's buffer holds its block whenever the body runs: it is fetched at every point and the
    body leaves it in place. -/
theorem before0_in (c : Dev nD) (t : Fin cfg0.N) (d) : (dat0 V c).before 0 t d = xblk V c t :=
  ((dat0 V c).before_in_eq_fetched 0 rfl (fun _ => rfl) (fun _ _ _ => rfl)
      (fun t => by rw [after0_in]; unfold Dat.blockOf xblk; rw [A_eq0]; try rfl) t d).trans
    (by unfold Dat.fetched Dat.blockOf xblk; rw [A_eq0]; try rfl)

end Region

section Region
variable (V : (c : Dev nD) → (b : Ref sig .tc) → Buf (Elt F) ((c : Thread nD τ).loc b))

/-! ## The body obligation at a generic point -/

/-- What the body is called with at point `t`: the invariant, what the core owes, each window's buffer. -/
def bodyPre0 (c : Dev nD) (t : Fin cfg0.N) : sProp 𝕄 :=
  iprop((dat0 V c).Φ t.castSucc ∗ (dat0 V c).owesAt () t.castSucc
    ∗ (∃ d, owns (c : Thread nD τ) (mIn t) fullShare ((dat0 V c).before 0 t d))
    ∗ (∃ d, owns (c : Thread nD τ) (mOut t) fullShare ((dat0 V c).before 1 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4000000 in
/-- The body at any point. The input buffer holds its block. At the first point the class's invariant lends
    the accumulator at anything and the reset case runs; at a later point the invariant holds the accumulator at
    what the point before left and the middle or the emit case runs; either way the accumulator returns at this
    point's contents. Away from the last point the output buffer is handed back as found; at the last point it
    takes the total. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in]
  rw [show (dat0 V c).owesAt () t.succ = (dat0 V c).owesAt () t.castSucc from rfl, Φ_succ, Φ_castSucc]
  rw [show (dat0 V c).leavesExact 0 t = owns (c : Thread nD τ) (mIn t) fullShare ((dat0 V c).after 0 t) from by
    unfold Dat.leavesExact; rw [in_live t], after0_in]
  have hN : t.val < 25 := lt_of_lt_of_eq t.isLt (show cfg0.N = 25 from N_0)
  by_cases h0 : t.val = 0
  · have hr : isReset (grid0.coords t) := (isReset_iff t).mpr h0
    have he : ¬isEmit (grid0.coords t) := fun h => by have := (isEmit_iff t).mp h; omega
    rw [Dat.leavesExact_idle (dat0 V c) 1 t (out_idle t he) (out_noflush t he)]
    rw [accAfter_first V c t h0, inv0_zero V c _ _ h0]
    iintro ⟨HΦ, Ho, ⟨%d0, H0⟩, ⟨%d1, H1⟩⟩
    ihave Hsp := (ΦA_split c) $$ HΦ
    icases Hsp with ⟨HS, Hkeep⟩
    iapply ((runFirst c (grid0.coords t) _ _ _ _ _ _ (xblk V c t)).2 hr he _ Set.univ _)
    isplitl [H0]; · iexact H0
    isplitl [H1]; · iexact H1
    isplitl [HS]; · iexact HS
    iintro ⟨H0, H1, HS⟩
    isplitl [HS Hkeep]
    · isplitl [HS]; · iexact HS
      iexact Hkeep
    isplitl [Ho]; · iexact Ho
    isplitl [H0]; · iexact H0
    iexists _; iexact H1
  · have hr : ¬isReset (grid0.coords t) := fun h => h0 ((isReset_iff t).mp h)
    by_cases h24 : t.val = 24
    · have he : isEmit (grid0.coords t) := (isEmit_iff t).mpr h24
      rw [show (dat0 V c).leavesExact 1 t = owns (c : Thread nD τ) (mOut t) fullShare ((dat0 V c).after 1 t) from by
        unfold Dat.leavesExact; rw [out_live t he], after0_out]
      rw [accAfter_last V c t h0 h24, inv0_pos V c _ _ h0]
      unfold outAfter
      iintro ⟨⟨HS, Hkeep⟩, Ho, ⟨%d0, H0⟩, ⟨%d1, H1⟩⟩
      iapply ((runLast c (grid0.coords t) _ _ _ _ _ _ (xblk V c t) _).2.2 hr he Set.univ _)
      isplitl [H0]; · iexact H0
      isplitl [H1]; · iexists _; iexact H1
      isplitl [HS]; · iexact HS
      iintro ⟨H0, H1, HS⟩
      isplitl [HS Hkeep]
      · isplitl [HS]; · iexact HS
        iexact Hkeep
      isplitl [Ho]; · iexact Ho
      isplitl [H0]; · iexact H0
      iexact H1
    · have he : ¬isEmit (grid0.coords t) := fun h => h24 ((isEmit_iff t).mp h)
      rw [Dat.leavesExact_idle (dat0 V c) 1 t (out_idle t he) (out_noflush t he)]
      rw [accAfter_mid V c t h0 h24, inv0_pos V c _ _ h0]
      iintro ⟨⟨HS, Hkeep⟩, Ho, ⟨%d0, H0⟩, ⟨%d1, H1⟩⟩
      iapply ((runMid c (grid0.coords t) _ _ _ _ _ _ (xblk V c t) _).2 hr he _ Set.univ _)
      isplitl [H0]; · iexact H0
      isplitl [H1]; · iexact H1
      isplitl [HS]; · iexact HS
      iintro ⟨H0, H1, HS⟩
      isplitl [HS Hkeep]
      · isplitl [HS]; · iexact HS
        iexact Hkeep
      isplitl [Ho]; · iexact Ho
      isplitl [H0]; · iexact H0
      iexists _; iexact H1

/-! ## The interface of region 0 -/

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 25 := N_0; omega)]
  unfold Keep
  iintro ⟨HS, Hkeep⟩
  iapply Hkeep
  iexists _; iexact HS

end Region

end Cert.KernelIdeal.Hand

end
-- ==== Proof.KI.Region1.lean ====
/- Region 1 of @main: the column-sum kernel's region, its proof data at entry contents V. -/
import proofs.«111018_j28578712388223_1_alg».proof.Proof.Gen.KernelIdeal.Launch
import proofs.«111018_j28578712388223_1_alg».proof.Proof.Gen.KernelIdeal.Skeleton
import proofs.«111018_j28578712388223_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions of the body, in closed form over the grid -/

/-- The reset branch's condition: the scalar chain of the first conditional, from the grid coordinate. -/
abbrev cond1_0 (i : grid1.Coords) : Prop :=
  (Scalar.cmpi .ne (Scalar.extui (Scalar.cmpi .eq (BitVec.ofNat 32 (i 0).val) 0#32)) 0#32) = 1#1
/-- It holds exactly at the first point. -/
theorem hcond1_0 : ∀ t : Fin cfg1.N, cond1_0 (grid1.coords t) ↔ t.val = 0 :=
  (by decide +kernel : ∀ t : Fin grid1.N, cond1_0 (grid1.coords t) ↔ t.val = 0)

/-- The output branch's condition. -/
abbrev cond1_1 (i : grid1.Coords) : Prop := k1_cond2 i = 1#1
/-- It holds exactly at the last point. -/
theorem hcond1_1 : ∀ t : Fin cfg1.N, cond1_1 (grid1.coords t) ↔ t.val = 19 :=
  (by decide +kernel : ∀ t : Fin grid1.N, cond1_1 (grid1.coords t) ↔ t.val = 19)

/-! ## Where the windows are idle -/

/-- The input window is live at every point. -/
theorem live1_0 : ∀ t : Fin cfg1.N, cfg1.idle 0 (grid1.coords t) = false := by decide +kernel
/-- Off the last point the output window is idle, -/
theorem idle1_1 : ∀ t : Fin cfg1.N, ¬cond1_1 (grid1.coords t) → cfg1.idle 1 (grid1.coords t) = true := by decide +kernel
/-- and is not written back there; -/
theorem noFlush1_1 : ∀ t : Fin cfg1.N, ¬cond1_1 (grid1.coords t) → (cfg1.win 1).flush t = false := by decide +kernel
/-- at the last point it is live. -/
theorem live1_1 : ∀ t : Fin cfg1.N, cond1_1 (grid1.coords t) → cfg1.idle 1 (grid1.coords t) = false := by decide +kernel

/-! ## The memrefs the body is called with -/

abbrev ms1_0 (t : Fin cfg1.N) : Memref sig .tc .vmem S5000x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16 .f32 := win1_1.stage (cfg1.slots t 1)
abbrev hs1_1 (t : Fin cfg1.N) : (ms1_1 t).IsWhole := hstage1_1 ((cfg1.slots t 1).cast nbuf1_1)
/-- The accumulator: a whole scoped buffer of the kernel's own, carried from point to point. -/
abbrev scM1 : Memref sig .tc .vmem S1x16 .f32 := Memref.whole cc1_scratch0

/-- The zero offsets of every access of the body, however spelt. -/
theorem off2_zero : (![0, 0] : Fin 2 → ℕ) = fun _ => 0 := by
  funext a; fin_cases a <;> rfl

/-! ## The body's triple, one per control case

Every access of the body is through the whole-shape rectangle at zero offsets, so a load reads the buffer's
contents and a store leaves its payload: each case's post is stated in closed form over the payloads. -/

set_option maxHeartbeats 1000000 in
/-- The first point: the reset branch taken, the output branch not. Whatever the accumulator held, it ends at the
    payload of the zero vector and the block; the output's buffer is handed back untouched. -/
theorem run1_first (c : Dev nD) (i : grid1.Coords) (arg1 : Memref sig .tc .vmem S5000x16 .f32) (harg1 : arg1.IsWhole)
    (arg2 : Memref sig .tc .vmem S1x16 .f32) (harg2 : arg2.IsWhole) (arg3 : Memref sig .tc .vmem S1x16 .f32) (harg3 : arg3.IsWhole)
    (hc0 : cond1_0 i) (hc1 : ¬cond1_1 i) (x0 : Vec F S5000x16 .f32) (xi : Vec F S1x16 .f32)
    (E : Set ℕ) (K : PUnit → sProp 𝕄) :
    iprop(owns (c : Thread nD τ) arg1 fullShare x0 ∗ owns (c : Thread nD τ) arg2 fullShare xi ∗ (∃ d, owns (c : Thread nD τ) arg3 fullShare d)
        ∗ (iprop(owns (c : Thread nD τ) arg1 fullShare x0 ∗ owns (c : Thread nD τ) arg2 fullShare xi
            ∗ owns (c : Thread nD τ) arg3 fullShare (k1_pay2 (k1_pay1 (F := F)) x0)) -∗ K ⟨⟩))
      ⊢ wp frame (wpE (defs₀ (F := F)) Variants.none c none) E (cc1__colsum_kernel i arg1 harg1 arg2 harg2 arg3 harg3) K := by
  simp only [cc1__colsum_kernel_eq_skeleton]; unfold cc1__colsum_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  try sl_unfold_words
  rw [View.read_writes_eq_canon _ _ _ (fun y => ⟨_, List.mem_cons.mpr (Or.inl rfl), View.mem_set_unit_zero off2_zero inb_S1x16_S1x16_0_0 y⟩),
    View.canon_cons_unit_zero off2_zero]
  simp only [View.readAt_eq_ld, harg1.read_unread, View.readCov_unit_zero (S := S1x16) _ off2_zero, View.ld_unit_zero (S := S5000x16) off2_zero]

set_option maxHeartbeats 1000000 in
/-- A middle point: neither branch taken. The accumulator, found at xs, ends at the payload of xs and the block;
    the output's buffer is handed back untouched. -/
theorem run1_mid (c : Dev nD) (i : grid1.Coords) (arg1 : Memref sig .tc .vmem S5000x16 .f32) (harg1 : arg1.IsWhole)
    (arg2 : Memref sig .tc .vmem S1x16 .f32) (harg2 : arg2.IsWhole) (arg3 : Memref sig .tc .vmem S1x16 .f32) (harg3 : arg3.IsWhole)
    (hc0 : ¬cond1_0 i) (hc1 : ¬cond1_1 i) (x0 : Vec F S5000x16 .f32) (xi : Vec F S1x16 .f32) (xs : Vec F S1x16 .f32)
    (E : Set ℕ) (K : PUnit → sProp 𝕄) :
    iprop(owns (c : Thread nD τ) arg1 fullShare x0 ∗ owns (c : Thread nD τ) arg2 fullShare xi ∗ owns (c : Thread nD τ) arg3 fullShare xs
        ∗ (iprop(owns (c : Thread nD τ) arg1 fullShare x0 ∗ owns (c : Thread nD τ) arg2 fullShare xi
            ∗ owns (c : Thread nD τ) arg3 fullShare (k1_pay2 xs x0)) -∗ K ⟨⟩))
      ⊢ wp frame (wpE (defs₀ (F := F)) Variants.none c none) E (cc1__colsum_kernel i arg1 harg1 arg2 harg2 arg3 harg3) K := by
  simp only [cc1__colsum_kernel_eq_skeleton]; unfold cc1__colsum_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg3.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  try sl_unfold_words
  rw [View.read_writes_eq_canon _ _ _ (fun y => ⟨_, List.mem_singleton_self _, View.mem_set_unit_zero off2_zero inb_S1x16_S1x16_0_0 y⟩),
    View.canon_unit_zero off2_zero]
  simp only [View.readAt_eq_ld, harg1.read_unread, harg3.read_unread, View.ld_unit_zero (S := S1x16) off2_zero, View.ld_unit_zero (S := S5000x16) off2_zero]

set_option maxHeartbeats 1000000 in
/-- The last point: the output branch taken, the reset branch not. The accumulator, found at xs, ends at the
    payload of xs and the block, and so does the output's buffer, whatever it held. -/
theorem run1_last (c : Dev nD) (i : grid1.Coords) (arg1 : Memref sig .tc .vmem S5000x16 .f32) (harg1 : arg1.IsWhole)
    (arg2 : Memref sig .tc .vmem S1x16 .f32) (harg2 : arg2.IsWhole) (arg3 : Memref sig .tc .vmem S1x16 .f32) (harg3 : arg3.IsWhole)
    (hc0 : ¬cond1_0 i) (hc1 : cond1_1 i) (x0 : Vec F S5000x16 .f32) (xs : Vec F S1x16 .f32)
    (E : Set ℕ) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (k1_pay2 xs x0)
            ∗ owns (c : Thread nD τ) arg3 fullShare (k1_pay2 xs x0)) -∗ K ⟨⟩))
      ⊢ wp frame (wpE (defs₀ (F := F)) Variants.none c none) E (cc1__colsum_kernel i arg1 harg1 arg2 harg2 arg3 harg3) K := by
  simp only [cc1__colsum_kernel_eq_skeleton]; unfold cc1__colsum_kernel_skel
  unfold owns
  iintro ⟨⟨%f0, %hf0, H0⟩, ⟨%d1, %f1, -, H1⟩, ⟨%fs, %hfs, HS⟩, Hk⟩
  obtain rfl := harg1.eq_unread hf0; obtain rfl := harg3.eq_unread hfs
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    try sl_unfold_words
    rw [View.read_writes_eq_canon _ _ _ (fun y => ⟨_, List.mem_singleton_self _, View.mem_set_unit_zero off2_zero inb_S1x16_S1x16_0_0 y⟩),
      View.canon_unit_zero off2_zero]
    simp only [View.readAt_eq_ld, harg1.read_unread, harg3.read_unread, View.readCov_unit_zero (S := S1x16) _ off2_zero, View.ld_unit_zero (S := S1x16) off2_zero, View.ld_unit_zero (S := S5000x16) off2_zero]
  iexists _; isplitr
  swap; · iexact HS
  ipureintro
  try sl_unfold_words
  rw [View.read_writes_eq_canon _ _ _ (fun y => ⟨_, List.mem_singleton_self _, View.mem_set_unit_zero off2_zero inb_S1x16_S1x16_0_0 y⟩),
    View.canon_unit_zero off2_zero]
  simp only [View.readAt_eq_ld, harg1.read_unread, harg3.read_unread, View.ld_unit_zero (S := S1x16) off2_zero, View.ld_unit_zero (S := S5000x16) off2_zero]

section
variable (V : (c : Dev nD) → (b : Ref sig .tc) → Buf (Elt F) ((c : Thread nD τ).loc b))

/-! ## The input window's blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's block at point t, at its literal type: rows 5000·t … 5000·t + 4999 of the array. -/
abbrev xblk1 (c : Dev nD) (t : Fin cfg1.N) : Vec F S5000x16 .f32 := iblk1 V c 0 t

/-- The input's current staging buffer holds its block at every point, for any proof data whose array is the entry
    contents and whose body leaves the block in place: the window is uncut, never idle, and an unfetched point has
    not moved the block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator, point by point -/

/-- What the accumulator holds when the body at position n loads it: the zero vector at the first point (the
    reset has just stored it), afterwards the payload of what the point before loaded and that point's block. -/
def scr1 (c : Dev nD) : (n : ℕ) → n ≤ cfg1.N → Vec F S1x16 .f32
  | 0, _ => k1_pay1
  | n + 1, hn => k1_pay2 (scr1 c n (Nat.le_of_succ_le hn)) (xblk1 V c ⟨n, hn⟩)

theorem scr1_of_zero (c : Dev nD) (n : ℕ) (h : n ≤ cfg1.N) (hz : n = 0) : scr1 V c n h = k1_pay1 := by
  subst hz; rfl

/-- After the body at point t: one more step of the recursion. -/
theorem scr1_succ (c : Dev nD) (t : Fin cfg1.N) :
    scr1 V c (t.val + 1) t.isLt = k1_pay2 (scr1 V c t.val (Nat.le_of_lt t.isLt)) (xblk1 V c t) := rfl

/-! ## The region invariant -/

/-- Everything of the class invariant but the accumulator: it gives the class invariant back for the accumulator
    at any contents. -/
def Keep1 (c : Dev nD) : sProp 𝕄 :=
  iprop((∃ d, owns (c : Thread nD τ) scM1 fullShare d) -∗ (Pipeline.ΦA spec1 c : sProp 𝕄))

/-- The class invariant holds the accumulator at some contents, beside the rest. -/
theorem split1 (c : Dev nD) :
    (Pipeline.ΦA spec1 c : sProp 𝕄) ⊢ iprop((∃ d, owns (c : Thread nD τ) scM1 fullShare d) ∗ Keep1 (F := F) c) := by
  unfold Keep1 Pipeline.ΦA
  rw [scopedRest1_eq]
  simp only [scM1, owns_whole]
  iintro ⟨⟨H0, H1, H2, H3, HS, H5⟩, Hr⟩
  isplitl [HS]
  · iexact HS
  iintro HS
  isplitr [Hr]
  · isplitl [H0]; · iexact H0
    isplitl [H1]; · iexact H1
    isplitl [H2]; · iexact H2
    isplitl [H3]; · iexact H3
    isplitl [HS]; · iexact HS
    iexact H5
  iexact Hr

/-- The invariant before position n: before the first point the class's; afterwards the accumulator at what the
    point before left in it, beside the rest. -/
def inv1 (c : Dev nD) : (n : ℕ) → n ≤ cfg1.N → sProp 𝕄
  | 0, _ => Pipeline.ΦA spec1 c
  | n + 1, hn => iprop(owns (c : Thread nD τ) scM1 fullShare (scr1 V c (n + 1) hn) ∗ Keep1 c)

theorem inv1_zero (c : Dev nD) (n : ℕ) (h : n ≤ cfg1.N) (hz : n = 0) : inv1 V c n h = Pipeline.ΦA spec1 c := by
  subst hz; rfl

theorem inv1_succ (c : Dev nD) (n : ℕ) (hn : n < cfg1.N) :
    inv1 V c (n + 1) hn = iprop(owns (c : Thread nD τ) scM1 fullShare (scr1 V c (n + 1) hn) ∗ Keep1 c) := rfl

theorem inv1_pos (c : Dev nD) (n : ℕ) (h : n ≤ cfg1.N) (hz : n ≠ 0) :
    inv1 V c n h = iprop(owns (c : Thread nD τ) scM1 fullShare (scr1 V c n h) ∗ Keep1 c) := by
  cases n with
  | zero => exact absurd rfl hz
  | succ n => rfl

/-! ## The proof data -/

/-- The proof data of the region on core c: the arrays as the region finds them; after the body at point t the
    input's buffer at its block and the output's at what the accumulator then holds (read only at the last point,
    the one point that stores it); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => scr1 V c (t.val + 1) t.isLt
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = scr1 V c (t.val + 1) t.isLt := by dsimp only [dat1]

theorem before1_0 (c : Dev nD) (t : Fin cfg1.N) (d) : (dat1 V c).before 0 t d = iblk1 V c 0 t :=
  before1_0_of V (dat1 V c) (A_eq1 V c 0) (after1_0 V c) t d

theorem inv1_castSucc (c : Dev nD) (t : Fin cfg1.N) :
    (dat1 V c).Φ t.castSucc = inv1 V c t.val (Nat.le_of_lt t.isLt) := by
  dsimp only [dat1]; simp only [Fin.coe_castSucc]

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4000000 in
/-- The body at any point. The input's buffer holds its block; the closed forms say which of the three cases the
    point is in. At the first point the class invariant is split into the accumulator at anything and the rest;
    afterwards the invariant hands the accumulator over at what the point before left. The case's triple applies,
    and the accumulator comes back one step of the recursion further. Off the last point the output's buffer is
    handed back as found; at the last point it holds what the accumulator holds. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = inv1 V c (t.val + 1) t.isLt from rfl, inv1_succ, scr1_succ]
  rw [show (dat1 V c).leavesExact 0 t = owns (c : Thread nD τ) (ms1_0 t) fullShare ((dat1 V c).after 0 t) from by
    unfold Dat.leavesExact; rw [live1_0 t], after1_0]
  have hN : t.val < 20 := lt_of_lt_of_eq t.isLt (show cfg1.N = 20 from N_1)
  by_cases h0 : t.val = 0
  · have h1 : ¬t.val = 19 := by omega
    rw [Dat.leavesExact_idle (dat1 V c) 1 t (idle1_1 t (fun h => h1 ((hcond1_1 t).mp h))) (noFlush1_1 t (fun h => h1 ((hcond1_1 t).mp h)))]
    rw [scr1_of_zero V c _ _ h0, inv1_castSucc V c t, inv1_zero V c _ _ h0]
    iintro ⟨HΦ, Ho, ⟨%d0, H0⟩, ⟨%d1, H1⟩⟩
    ihave HΦ' := (split1 (F := F) c) $$ HΦ
    icases HΦ' with ⟨HS, HK⟩
    iapply (run1_first c (grid1.coords t) _ _ _ _ _ _ ((hcond1_0 t).mpr h0) (fun h => h1 ((hcond1_1 t).mp h)) (xblk1 V c t) _ Set.univ _)
    isplitl [H0]; · iexact H0
    isplitl [H1]; · iexact H1
    isplitl [HS]; · iexact HS
    iintro ⟨H0, H1, HS⟩
    isplitl [HS HK]
    · isplitl [HS]; · iexact HS
      iexact HK
    isplitl [Ho]; · iexact Ho
    isplitl [H0]; · iexact H0
    iexists _; iexact H1
  · by_cases h1 : t.val = 19
    · rw [show (dat1 V c).leavesExact 1 t = owns (c : Thread nD τ) (ms1_1 t) fullShare ((dat1 V c).after 1 t) from by
        unfold Dat.leavesExact; rw [live1_1 t ((hcond1_1 t).mpr h1)], after1_1, scr1_succ]
      rw [inv1_castSucc V c t, inv1_pos V c _ _ h0]
      iintro ⟨⟨HS, HK⟩, Ho, ⟨%d0, H0⟩, ⟨%d1, H1⟩⟩
      iapply (run1_last c (grid1.coords t) _ _ _ _ _ _ (fun h => h0 ((hcond1_0 t).mp h)) ((hcond1_1 t).mpr h1) (xblk1 V c t) (scr1 V c t.val (Nat.le_of_lt t.isLt)) Set.univ _)
      isplitl [H0]; · iexact H0
      isplitl [H1]; · iexists _; iexact H1
      isplitl [HS]; · iexact HS
      iintro ⟨H0, H1, HS⟩
      isplitl [HS HK]
      · isplitl [HS]; · iexact HS
        iexact HK
      isplitl [Ho]; · iexact Ho
      isplitl [H0]; · iexact H0
      iexact H1
    · rw [Dat.leavesExact_idle (dat1 V c) 1 t (idle1_1 t (fun h => h1 ((hcond1_1 t).mp h))) (noFlush1_1 t (fun h => h1 ((hcond1_1 t).mp h)))]
      rw [inv1_castSucc V c t, inv1_pos V c _ _ h0]
      iintro ⟨⟨HS, HK⟩, Ho, ⟨%d0, H0⟩, ⟨%d1, H1⟩⟩
      iapply (run1_mid c (grid1.coords t) _ _ _ _ _ _ (fun h => h0 ((hcond1_0 t).mp h)) (fun h => h1 ((hcond1_1 t).mp h)) (xblk1 V c t) _ (scr1 V c t.val (Nat.le_of_lt t.isLt)) Set.univ _)
      isplitl [H0]; · iexact H0
      isplitl [H1]; · iexact H1
      isplitl [HS]; · iexact HS
      iintro ⟨H0, H1, HS⟩
      isplitl [HS HK]
      · isplitl [HS]; · iexact HS
        iexact HK
      isplitl [Ho]; · iexact Ho
      isplitl [H0]; · iexact H0
      iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = inv1 V c 0 (Nat.zero_le _) from rfl, inv1_zero V c 0 _ rfl]

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 20 := N_1; omega)]
  unfold Keep1
  iintro ⟨HS, HK⟩
  iapply HK
  iexists _; iexact HS

end

end Cert.KernelIdeal.Hand

end
-- ==== Proof.KI.Region2.lean ====
/- Region 2 of @main: the blocked dot-reduce, at any contents of the core's buffers on entry. The
   accumulator it carries between grid points is followed point by point; everything else the resting
   invariant holds is kept aside, untouched, until the region ends. -/
import proofs.«111018_j28578712388223_1_alg».proof.Proof.Gen.KernelIdeal.Launch
import proofs.«111018_j28578712388223_1_alg».proof.Proof.Gen.KernelIdeal.Skeleton
import proofs.«111018_j28578712388223_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which branches a grid point takes -/

/-- The condition of the branch that clears the accumulator, as the body computes it from the grid
    coordinate. -/
abbrev clears2 (i : grid2.Coords) : Prop :=
  (Scalar.cmpi .ne (Scalar.extui (Scalar.cmpi .eq (BitVec.ofNat 32 (i 0).val) 0#32)) 0#32) = 1#1

/-- The condition of the branch that copies the accumulator to the result block. -/
abbrev emits2 (i : grid2.Coords) : Prop := k2_cond2 i = 1#1

/-- The accumulator is cleared at the first point and nowhere else. -/
theorem clears2_iff : ∀ t : Fin cfg2.N, clears2 (grid2.coords t) ↔ t.val = 0 :=
  (by decide +kernel : ∀ t : Fin grid2.N, clears2 (grid2.coords t) ↔ t.val = 0)

/-- The result block is stored at the last point and nowhere else. -/
theorem emits2_iff : ∀ t : Fin cfg2.N, emits2 (grid2.coords t) ↔ t.val = 24 :=
  (by decide +kernel : ∀ t : Fin grid2.N, emits2 (grid2.coords t) ↔ t.val = 24)

/-- The two operand windows are live at every point. -/
theorem live2_0 : ∀ t : Fin cfg2.N, cfg2.idle 0 (grid2.coords t) = false := by decide +kernel
theorem live2_1 : ∀ t : Fin cfg2.N, cfg2.idle 1 (grid2.coords t) = false := by decide +kernel
/-- Before the last point the result window is idle and is not written back. -/
theorem idle2_2 : ∀ t : Fin cfg2.N, t.val ≠ 24 → cfg2.idle 2 (grid2.coords t) = true := by decide +kernel
theorem keep2_2 : ∀ t : Fin cfg2.N, t.val ≠ 24 → (cfg2.win 2).flush t = false := by decide +kernel
/-- At the last point it is live. -/
theorem live2_2 : ∀ t : Fin cfg2.N, t.val = 24 → cfg2.idle 2 (grid2.coords t) = false := by decide +kernel

/-! ## The memrefs the body is called with -/

abbrev opA (t : Fin cfg2.N) : Memref sig .tc .vmem S16000x128 .f32 := win2_0.stage (cfg2.slots t 0)
abbrev opA_whole (t : Fin cfg2.N) : (opA t).IsWhole := hstage2_0 ((cfg2.slots t 0).cast nbuf2_0)
abbrev opB (t : Fin cfg2.N) : Memref sig .tc .vmem S16000x128 .f32 := win2_1.stage (cfg2.slots t 1)
abbrev opB_whole (t : Fin cfg2.N) : (opB t).IsWhole := hstage2_1 ((cfg2.slots t 1).cast nbuf2_1)
abbrev res (t : Fin cfg2.N) : Memref sig .tc .vmem S1x1 .f32 := win2_2.stage (cfg2.slots t 2)
abbrev res_whole (t : Fin cfg2.N) : (res t).IsWhole := hstage2_2 ((cfg2.slots t 2).cast nbuf2_2)
/-- The accumulator: a whole scoped buffer of the kernel's own. -/
abbrev accM : Memref sig .tc .vmem S1x1 .f32 := Memref.whole cc2_scratch0

/-! ## The accumulator apart from the rest of the resting invariant -/

/-- What the resting invariant holds besides the accumulator, as the promise to give the resting
    invariant back for the accumulator at any contents. -/
def Keep2 (c : Dev nD) : sProp 𝕄 :=
  iprop((∃ d, owns (c : Thread nD τ) accM fullShare d) -∗ Pipeline.ΦA spec2 c)

/-- The resting invariant hands out the accumulator and keeps the promise. -/
theorem rest_split2 (c : Dev nD) :
    (Pipeline.ΦA spec2 c : sProp 𝕄) ⊢ iprop((∃ d, owns (c : Thread nD τ) accM fullShare d) ∗ Keep2 (F := F) c) := by
  unfold Keep2 Pipeline.ΦA; rw [scopedRest2_eq]; simp only [accM, owns_whole]
  iintro ⟨⟨H0, H1, H2, H3, H4, H5, H6, H7, HS⟩, Hg⟩
  isplitl [HS]; · iexact HS
  iintro HS
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HS

/-- The accumulator at any contents, with the promise, is the resting invariant again. -/
theorem rest_join2 (c : Dev nD) (X : Vec F S1x1 .f32) :
    iprop(owns (c : Thread nD τ) accM fullShare X ∗ Keep2 (F := F) c) ⊢ (Pipeline.ΦA spec2 c : sProp 𝕄) := by
  unfold Keep2
  iintro ⟨HS, Hk⟩
  iapply Hk
  iexists _; iexact HS

/-! ## The body's run, in each of its three control cases

In every case the body is run on whole memrefs: the operands' at the blocks they hold, which it leaves
as they were; the accumulator, which it stores into, ends as a list of stored pieces over whatever it
held, and that list is what each run yields. -/

set_option maxHeartbeats 1000000 in
/-- The first point: the accumulator, at anything, is cleared and the block's sum of products added;
    the result block, at any contents `xr`, is not touched. -/
noncomputable def runFirst2 (c : Dev nD) (i : grid2.Coords)
    (arg1 : Memref sig .tc .vmem S16000x128 .f32) (harg1 : arg1.IsWhole) (arg2 : Memref sig .tc .vmem S16000x128 .f32) (harg2 : arg2.IsWhole)
    (arg3 : Memref sig .tc .vmem S1x1 .f32) (harg3 : arg3.IsWhole) (arg4 : Memref sig .tc .vmem S1x1 .f32) (harg4 : arg4.IsWhole)
    (hc0 : clears2 i) (hc1 : ¬emits2 i) (xa xb : Vec F S16000x128 .f32) :
    { LS : List (View.Piece (Elt F) S1x1 .f32) //
      ∀ (xr : Vec F S1x1 .f32) (E : Set ℕ) (K : PUnit → sProp 𝕄),
        iprop(owns (c : Thread nD τ) arg1 fullShare xa ∗ owns (c : Thread nD τ) arg2 fullShare xb ∗ owns (c : Thread nD τ) arg3 fullShare xr
            ∗ (∃ d, owns (c : Thread nD τ) arg4 fullShare d)
            ∗ (iprop(owns (c : Thread nD τ) arg1 fullShare xa ∗ owns (c : Thread nD τ) arg2 fullShare xb ∗ owns (c : Thread nD τ) arg3 fullShare xr
                ∗ (∃ f, arg4.view.loc (c : Thread nD τ) ↦[arg4.view.set]{fullShare} arg4.view.writes (Elt F) f LS)) -∗ K ⟨⟩))
          ⊢ wp frame (wpE (defs₀ (F := F)) Variants.none c none) E (cc2__dot_reduce_kernel i arg1 harg1 arg2 harg2 arg3 harg3 arg4 harg4) K } := by
  refine ⟨?_, fun xr E K => ?run⟩
  case run =>
    simp only [cc2__dot_reduce_kernel_eq_skeleton]; unfold cc2__dot_reduce_kernel_skel
    unfold owns
    iintro ⟨⟨%fa, %hfa, Ha⟩, ⟨%fb, %hfb, Hb⟩, ⟨%fr, %hfr, Hr⟩, ⟨%ds, %fs, -, Hs⟩, Hk⟩
    obtain rfl := harg1.eq_unread hfa; obtain rfl := harg2.eq_unread hfb; obtain rfl := harg3.eq_unread hfr
    sl_exec (disch := first | exact hc0 | exact hc1)
    sl_step
    iapply Hk
    isplitl [Ha]
    · iexists _; isplitr; · ipureintro; exact harg1.read_unread _
      iexact Ha
    isplitl [Hb]
    · iexists _; isplitr; · ipureintro; exact harg2.read_unread _
      iexact Hb
    isplitl [Hr]
    · iexists _; isplitr; · ipureintro; exact harg3.read_unread _
      iexact Hr
    iexists _; iexact Hs

set_option maxHeartbeats 1000000 in
/-- A point strictly between the first and the last: the block's sum of products is added to the
    accumulator's contents `xs`; the result block, at any contents `xr`, is not touched. -/
noncomputable def runMid2 (c : Dev nD) (i : grid2.Coords)
    (arg1 : Memref sig .tc .vmem S16000x128 .f32) (harg1 : arg1.IsWhole) (arg2 : Memref sig .tc .vmem S16000x128 .f32) (harg2 : arg2.IsWhole)
    (arg3 : Memref sig .tc .vmem S1x1 .f32) (harg3 : arg3.IsWhole) (arg4 : Memref sig .tc .vmem S1x1 .f32) (harg4 : arg4.IsWhole)
    (hc0 : ¬clears2 i) (hc1 : ¬emits2 i) (xa xb : Vec F S16000x128 .f32) (xs : Vec F S1x1 .f32) :
    { LS : List (View.Piece (Elt F) S1x1 .f32) //
      ∀ (xr : Vec F S1x1 .f32) (E : Set ℕ) (K : PUnit → sProp 𝕄),
        iprop(owns (c : Thread nD τ) arg1 fullShare xa ∗ owns (c : Thread nD τ) arg2 fullShare xb ∗ owns (c : Thread nD τ) arg3 fullShare xr
            ∗ owns (c : Thread nD τ) arg4 fullShare xs
            ∗ (iprop(owns (c : Thread nD τ) arg1 fullShare xa ∗ owns (c : Thread nD τ) arg2 fullShare xb ∗ owns (c : Thread nD τ) arg3 fullShare xr
                ∗ (∃ f, arg4.view.loc (c : Thread nD τ) ↦[arg4.view.set]{fullShare} arg4.view.writes (Elt F) f LS)) -∗ K ⟨⟩))
          ⊢ wp frame (wpE (defs₀ (F := F)) Variants.none c none) E (cc2__dot_reduce_kernel i arg1 harg1 arg2 harg2 arg3 harg3 arg4 harg4) K } := by
  refine ⟨?_, fun xr E K => ?run⟩
  case run =>
    simp only [cc2__dot_reduce_kernel_eq_skeleton]; unfold cc2__dot_reduce_kernel_skel
    unfold owns
    iintro ⟨⟨%fa, %hfa, Ha⟩, ⟨%fb, %hfb, Hb⟩, ⟨%fr, %hfr, Hr⟩, ⟨%fs, %hfs, Hs⟩, Hk⟩
    obtain rfl := harg1.eq_unread hfa; obtain rfl := harg2.eq_unread hfb; obtain rfl := harg3.eq_unread hfr
    obtain rfl := harg4.eq_unread hfs
    sl_exec (disch := first | exact hc0 | exact hc1)
    sl_step
    iapply Hk
    isplitl [Ha]
    · iexists _; isplitr; · ipureintro; exact harg1.read_unread _
      iexact Ha
    isplitl [Hb]
    · iexists _; isplitr; · ipureintro; exact harg2.read_unread _
      iexact Hb
    isplitl [Hr]
    · iexists _; isplitr; · ipureintro; exact harg3.read_unread _
      iexact Hr
    iexists _; iexact Hs

set_option maxHeartbeats 1000000 in
/-- The last point: the block's sum of products is added to the accumulator's contents `xs`, and the
    accumulator is copied over the result block, whatever that held: two lists of stored pieces. -/
noncomputable def runLast2 (c : Dev nD) (i : grid2.Coords)
    (arg1 : Memref sig .tc .vmem S16000x128 .f32) (harg1 : arg1.IsWhole) (arg2 : Memref sig .tc .vmem S16000x128 .f32) (harg2 : arg2.IsWhole)
    (arg3 : Memref sig .tc .vmem S1x1 .f32) (harg3 : arg3.IsWhole) (arg4 : Memref sig .tc .vmem S1x1 .f32) (harg4 : arg4.IsWhole)
    (hc0 : ¬clears2 i) (hc1 : emits2 i) (xa xb : Vec F S16000x128 .f32) (xs : Vec F S1x1 .f32) :
    Σ' (LR : List (View.Piece (Elt F) S1x1 .f32)), { LS : List (View.Piece (Elt F) S1x1 .f32) //
      ∀ (E : Set ℕ) (K : PUnit → sProp 𝕄),
        iprop(owns (c : Thread nD τ) arg1 fullShare xa ∗ owns (c : Thread nD τ) arg2 fullShare xb ∗ (∃ d, owns (c : Thread nD τ) arg3 fullShare d)
            ∗ owns (c : Thread nD τ) arg4 fullShare xs
            ∗ (iprop(owns (c : Thread nD τ) arg1 fullShare xa ∗ owns (c : Thread nD τ) arg2 fullShare xb
                ∗ (∃ f, arg3.view.loc (c : Thread nD τ) ↦[arg3.view.set]{fullShare} arg3.view.writes (Elt F) f LR)
                ∗ (∃ f, arg4.view.loc (c : Thread nD τ) ↦[arg4.view.set]{fullShare} arg4.view.writes (Elt F) f LS)) -∗ K ⟨⟩))
          ⊢ wp frame (wpE (defs₀ (F := F)) Variants.none c none) E (cc2__dot_reduce_kernel i arg1 harg1 arg2 harg2 arg3 harg3 arg4 harg4) K } := by
  refine ⟨?_, ?_, fun E K => ?run⟩
  case run =>
    simp only [cc2__dot_reduce_kernel_eq_skeleton]; unfold cc2__dot_reduce_kernel_skel
    unfold owns
    iintro ⟨⟨%fa, %hfa, Ha⟩, ⟨%fb, %hfb, Hb⟩, ⟨%dr, %fr, -, Hr⟩, ⟨%fs, %hfs, Hs⟩, Hk⟩
    obtain rfl := harg1.eq_unread hfa; obtain rfl := harg2.eq_unread hfb
    obtain rfl := harg4.eq_unread hfs
    sl_exec (disch := first | exact hc0 | exact hc1)
    sl_step
    iapply Hk
    isplitl [Ha]
    · iexists _; isplitr; · ipureintro; exact harg1.read_unread _
      iexact Ha
    isplitl [Hb]
    · iexists _; isplitr; · ipureintro; exact harg2.read_unread _
      iexact Hb
    isplitl [Hr]; · iexists _; iexact Hr
    iexists _; iexact Hs

/-! ## The stored pieces cover the one-element buffers -/

theorem coverFirst2 (c : Dev nD) (i : grid2.Coords)
    (arg1 : Memref sig .tc .vmem S16000x128 .f32) (harg1 : arg1.IsWhole) (arg2 : Memref sig .tc .vmem S16000x128 .f32) (harg2 : arg2.IsWhole)
    (arg3 : Memref sig .tc .vmem S1x1 .f32) (harg3 : arg3.IsWhole) (arg4 : Memref sig .tc .vmem S1x1 .f32) (harg4 : arg4.IsWhole)
    (hc0 : clears2 i) (hc1 : ¬emits2 i) (xa xb : Vec F S16000x128 .f32) (y : S1x1.Idx) :
    ∃ pc ∈ (runFirst2 c i arg1 harg1 arg2 harg2 arg3 harg3 arg4 harg4 hc0 hc1 xa xb).1, y ∈ pc.1.set :=
  View.cover_of_tiledL (runFirst2 c i arg1 harg1 arg2 harg2 arg3 harg3 arg4 harg4 hc0 hc1 xa xb).1 S1x1.size (by sl_kernel_rfl) y

theorem coverMid2 (c : Dev nD) (i : grid2.Coords)
    (arg1 : Memref sig .tc .vmem S16000x128 .f32) (harg1 : arg1.IsWhole) (arg2 : Memref sig .tc .vmem S16000x128 .f32) (harg2 : arg2.IsWhole)
    (arg3 : Memref sig .tc .vmem S1x1 .f32) (harg3 : arg3.IsWhole) (arg4 : Memref sig .tc .vmem S1x1 .f32) (harg4 : arg4.IsWhole)
    (hc0 : ¬clears2 i) (hc1 : ¬emits2 i) (xa xb : Vec F S16000x128 .f32) (xs : Vec F S1x1 .f32) (y : S1x1.Idx) :
    ∃ pc ∈ (runMid2 c i arg1 harg1 arg2 harg2 arg3 harg3 arg4 harg4 hc0 hc1 xa xb xs).1, y ∈ pc.1.set :=
  View.cover_of_tiledL (runMid2 c i arg1 harg1 arg2 harg2 arg3 harg3 arg4 harg4 hc0 hc1 xa xb xs).1 S1x1.size (by sl_kernel_rfl) y

theorem coverLastAcc2 (c : Dev nD) (i : grid2.Coords)
    (arg1 : Memref sig .tc .vmem S16000x128 .f32) (harg1 : arg1.IsWhole) (arg2 : Memref sig .tc .vmem S16000x128 .f32) (harg2 : arg2.IsWhole)
    (arg3 : Memref sig .tc .vmem S1x1 .f32) (harg3 : arg3.IsWhole) (arg4 : Memref sig .tc .vmem S1x1 .f32) (harg4 : arg4.IsWhole)
    (hc0 : ¬clears2 i) (hc1 : emits2 i) (xa xb : Vec F S16000x128 .f32) (xs : Vec F S1x1 .f32) (y : S1x1.Idx) :
    ∃ pc ∈ (runLast2 c i arg1 harg1 arg2 harg2 arg3 harg3 arg4 harg4 hc0 hc1 xa xb xs).2.1, y ∈ pc.1.set :=
  View.cover_of_tiledL (runLast2 c i arg1 harg1 arg2 harg2 arg3 harg3 arg4 harg4 hc0 hc1 xa xb xs).2.1 S1x1.size (by sl_kernel_rfl) y

theorem coverLastRes2 (c : Dev nD) (i : grid2.Coords)
    (arg1 : Memref sig .tc .vmem S16000x128 .f32) (harg1 : arg1.IsWhole) (arg2 : Memref sig .tc .vmem S16000x128 .f32) (harg2 : arg2.IsWhole)
    (arg3 : Memref sig .tc .vmem S1x1 .f32) (harg3 : arg3.IsWhole) (arg4 : Memref sig .tc .vmem S1x1 .f32) (harg4 : arg4.IsWhole)
    (hc0 : ¬clears2 i) (hc1 : emits2 i) (xa xb : Vec F S16000x128 .f32) (xs : Vec F S1x1 .f32) (y : S1x1.Idx) :
    ∃ pc ∈ (runLast2 c i arg1 harg1 arg2 harg2 arg3 harg3 arg4 harg4 hc0 hc1 xa xb xs).1, y ∈ pc.1.set :=
  View.cover_of_tiledL (runLast2 c i arg1 harg1 arg2 harg2 arg3 harg3 arg4 harg4 hc0 hc1 xa xb xs).1 S1x1.size (by sl_kernel_rfl) y

section
variable (V : (c : Dev nD) → (b : Ref sig .tc) → Buf (Elt F) ((c : Thread nD τ).loc b))

/-! ## The operand blocks and what each point leaves -/

/-- The two operands' blocks at point `t`, read off their arrays as the region finds them. -/
def blkA2 (c : Dev nD) (t : Fin cfg2.N) : Vec F S16000x128 .f32 :=
  ((cfg2.win 0).blk t).view.read (Elt F) (V c (Pipeline.arrRef spec2 0))
def blkB2 (c : Dev nD) (t : Fin cfg2.N) : Vec F S16000x128 .f32 :=
  ((cfg2.win 1).blk t).view.read (Elt F) (V c (Pipeline.arrRef spec2 1))

/-- The accumulator after the first point. -/
def accFirst2 (c : Dev nD) (t : Fin cfg2.N) (h0 : t.val = 0) : Vec F S1x1 .f32 :=
  View.canon (runFirst2 c (grid2.coords t) (opA t) (opA_whole t) (opB t) (opB_whole t) (res t) (res_whole t) accM (Memref.isWhole_whole _)
    ((clears2_iff t).mpr h0) (fun h => absurd ((emits2_iff t).mp h) (by omega)) (blkA2 V c t) (blkB2 V c t)).1

/-- The accumulator after a point strictly inside the grid, from what the point found in it. -/
def accMid2 (c : Dev nD) (t : Fin cfg2.N) (h0 : t.val ≠ 0) (h1 : t.val ≠ 24) (xs : Vec F S1x1 .f32) : Vec F S1x1 .f32 :=
  View.canon (runMid2 c (grid2.coords t) (opA t) (opA_whole t) (opB t) (opB_whole t) (res t) (res_whole t) accM (Memref.isWhole_whole _)
    (fun h => h0 ((clears2_iff t).mp h)) (fun h => h1 ((emits2_iff t).mp h)) (blkA2 V c t) (blkB2 V c t) xs).1

/-- The accumulator after the last point, -/
def accLast2 (c : Dev nD) (t : Fin cfg2.N) (h0 : t.val ≠ 0) (h1 : t.val = 24) (xs : Vec F S1x1 .f32) : Vec F S1x1 .f32 :=
  View.canon (runLast2 c (grid2.coords t) (opA t) (opA_whole t) (opB t) (opB_whole t) (res t) (res_whole t) accM (Memref.isWhole_whole _)
    (fun h => h0 ((clears2_iff t).mp h)) ((emits2_iff t).mpr h1) (blkA2 V c t) (blkB2 V c t) xs).2.1

/-- and the result block after it. -/
def resLast2 (c : Dev nD) (t : Fin cfg2.N) (h0 : t.val ≠ 0) (h1 : t.val = 24) (xs : Vec F S1x1 .f32) : Vec F S1x1 .f32 :=
  View.canon (runLast2 c (grid2.coords t) (opA t) (opA_whole t) (opB t) (opB_whole t) (res t) (res_whole t) accM (Memref.isWhole_whole _)
    (fun h => h0 ((clears2_iff t).mp h)) ((emits2_iff t).mpr h1) (blkA2 V c t) (blkB2 V c t) xs).1

/-- What the accumulator holds after the body at position `n`: the first point's contents, then each
    later point's from the one before it. -/
def accAt2 (c : Dev nD) : (n : ℕ) → n < cfg2.N → Vec F S1x1 .f32
  | 0, hn => accFirst2 V c ⟨0, hn⟩ rfl
  | n + 1, hn =>
    if h1 : n + 1 = 24 then accLast2 V c ⟨n + 1, hn⟩ (Nat.succ_ne_zero n) h1 (accAt2 c n (Nat.lt_of_succ_lt hn))
    else accMid2 V c ⟨n + 1, hn⟩ (Nat.succ_ne_zero n) h1 (accAt2 c n (Nat.lt_of_succ_lt hn))

theorem accAt2_first (c : Dev nD) (t : Fin cfg2.N) (h0 : t.val = 0) :
    accAt2 V c t.val t.isLt = accFirst2 V c t h0 := by
  obtain ⟨n, hn⟩ := t
  cases n with
  | zero => rfl
  | succ n => exact absurd h0 (Nat.succ_ne_zero n)

theorem accAt2_mid (c : Dev nD) (t : Fin cfg2.N) (h0 : t.val ≠ 0) (h1 : t.val ≠ 24) :
    accAt2 V c t.val t.isLt
      = accMid2 V c t h0 h1 (accAt2 V c (t.val - 1) (Nat.lt_of_le_of_lt (Nat.sub_le _ _) t.isLt)) := by
  obtain ⟨n, hn⟩ := t
  cases n with
  | zero => exact absurd rfl h0
  | succ n => exact (dif_neg h1).trans rfl

theorem accAt2_last (c : Dev nD) (t : Fin cfg2.N) (h0 : t.val ≠ 0) (h1 : t.val = 24) :
    accAt2 V c t.val t.isLt
      = accLast2 V c t h0 h1 (accAt2 V c (t.val - 1) (Nat.lt_of_le_of_lt (Nat.sub_le _ _) t.isLt)) := by
  obtain ⟨n, hn⟩ := t
  cases n with
  | zero => exact absurd rfl h0
  | succ n => exact (dif_pos h1).trans rfl

/-- What the body leaves in each window's staging buffer at point `t`: an operand's block where it was;
    the result block as the last point stores it (before the last point the window is idle and this is
    not consulted). -/
def after2 (c : Dev nD) (w : Fin cfg2.W) (t : Fin cfg2.N) : (cfg2.win w).block.Idx → Elt F (cfg2.win w).elt :=
  match w with
  | ⟨0, _⟩ => blkA2 V c t
  | ⟨1, _⟩ => blkB2 V c t
  | ⟨2, _⟩ =>
    if h : t.val = 24 then
      resLast2 V c t (by omega) h (accAt2 V c (t.val - 1) (Nat.lt_of_le_of_lt (Nat.sub_le _ _) t.isLt))
    else fun _ => Classical.arbitrary _

/-- The region invariant before position `t`: the resting invariant before the first point; afterwards
    the accumulator at what the point before left in it, and the promise of the rest. -/
def inv2 (c : Dev nD) (t : Fin (cfg2.N + 1)) : sProp 𝕄 :=
  if h : t.val = 0 then Pipeline.ΦA spec2 c
  else iprop(owns (c : Thread nD τ) accM fullShare (accAt2 V c (t.val - 1) (by have := t.isLt; omega)) ∗ Keep2 (F := F) c)

def dat2 (c : Dev nD) : Dat τ (Elt F) Unit ℕ (UR sig nD τ) ℕ cfg2 c where
  A w := V c (Pipeline.arrRef spec2 w)
  after w t := after2 V c w t
  Φ t := inv2 V c t
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = blkA2 V c t := by dsimp only [dat2, after2]
theorem after2_1 (c : Dev nD) (t : Fin cfg2.N) : (dat2 V c).after 1 t = blkB2 V c t := by dsimp only [dat2, after2]
theorem after2_2 (c : Dev nD) (t : Fin cfg2.N) (h0 : t.val ≠ 0) (h1 : t.val = 24) :
    (dat2 V c).after 2 t = resLast2 V c t h0 h1 (accAt2 V c (t.val - 1) (Nat.lt_of_le_of_lt (Nat.sub_le _ _) t.isLt)) := by
  dsimp only [dat2, after2]; exact dif_pos h1

/-- The invariant before the first point, -/
theorem inv2_first (c : Dev nD) (t : Fin cfg2.N) (h0 : t.val = 0) :
    (dat2 V c).Φ t.castSucc = Pipeline.ΦA spec2 c := by
  dsimp only [dat2]; unfold inv2; exact dif_pos h0

/-- before a later point, -/
theorem inv2_later (c : Dev nD) (t : Fin cfg2.N) (h0 : t.val ≠ 0) :
    (dat2 V c).Φ t.castSucc
      = iprop(owns (c : Thread nD τ) accM fullShare (accAt2 V c (t.val - 1) (Nat.lt_of_le_of_lt (Nat.sub_le _ _) t.isLt)) ∗ Keep2 (F := F) c) := by
  dsimp only [dat2]; unfold inv2; exact dif_neg h0

/-- and after any point. -/
theorem inv2_next (c : Dev nD) (t : Fin cfg2.N) :
    (dat2 V c).Φ t.succ = iprop(owns (c : Thread nD τ) accM fullShare (accAt2 V c t.val t.isLt) ∗ Keep2 (F := F) c) := by
  dsimp only [dat2]; unfold inv2; exact dif_neg (Nat.succ_ne_zero t.val)

/-- An operand's current staging buffer holds its block at every point: it is fetched at every point. -/
theorem before2_0 (c : Dev nD) (t : Fin cfg2.N) (d) : (dat2 V c).before 0 t d = blkA2 V c t := by
  rw [(dat2 V c).before_fetched 0 t (fetch2_0 t)]; unfold Dat.fetched Dat.blockOf blkA2; rw [A_eq2]; try rfl
theorem before2_1 (c : Dev nD) (t : Fin cfg2.N) (d) : (dat2 V c).before 1 t d = blkB2 V c t := by
  rw [(dat2 V c).before_fetched 1 t (fetch2_1 t)]; unfold Dat.fetched Dat.blockOf blkB2; rw [A_eq2]; try rfl

/-! ## The body at a generic point -/

/-- What the body is called with at point `t`, the windows one by one, -/
def pre2 (c : Dev nD) (t : Fin cfg2.N) : sProp 𝕄 :=
  iprop((dat2 V c).Φ t.castSucc ∗ (dat2 V c).owesAt () t.castSucc
    ∗ (∃ d, owns (c : Thread nD τ) (opA t) fullShare ((dat2 V c).before 0 t d))
    ∗ (∃ d, owns (c : Thread nD τ) (opB t) fullShare ((dat2 V c).before 1 t d))
    ∗ (∃ d, owns (c : Thread nD τ) (res t) fullShare ((dat2 V c).before 2 t d)))

/-- and what it returns. -/
def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The operands' buffers hold their blocks; the point's position says which
    control case it is in. At the first point the resting invariant hands out the accumulator at anything
    and keeps the promise of the rest; later the invariant has the accumulator at what the point before
    left. The case's run applies, and the accumulator comes back at this point's contents. Before the last
    point the result buffer is handed back as found; at the last point it holds the copied accumulator. -/
theorem step2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1]
  rw [show (dat2 V c).owesAt () t.succ = (dat2 V c).owesAt () t.castSucc from rfl]
  rw [show (dat2 V c).leavesExact 0 t = owns (c : Thread nD τ) (opA t) fullShare ((dat2 V c).after 0 t) from by
    unfold Dat.leavesExact; rw [live2_0 t], after2_0]
  rw [show (dat2 V c).leavesExact 1 t = owns (c : Thread nD τ) (opB t) fullShare ((dat2 V c).after 1 t) from by
    unfold Dat.leavesExact; rw [live2_1 t], after2_1]
  rw [inv2_next]
  have hN : t.val < 25 := lt_of_lt_of_eq t.isLt N_2
  by_cases h0 : t.val = 0
  · have h1 : t.val ≠ 24 := by omega
    rw [Dat.leavesExact_idle (dat2 V c) 2 t (idle2_2 t h1) (keep2_2 t h1)]
    rw [inv2_first V c t h0, accAt2_first V c t h0]
    unfold accFirst2
    iintro ⟨Hphi, Ho, ⟨%da, Ha⟩, ⟨%db, Hb⟩, ⟨%dr, Hr⟩⟩
    ihave Hsp := (rest_split2 (F := F) c) $$ Hphi
    icases Hsp with ⟨Hs, Hkeep⟩
    iapply ((runFirst2 c (grid2.coords t) _ _ _ _ _ _ _ _ ((clears2_iff t).mpr h0) (fun h => h1 ((emits2_iff t).mp h)) (blkA2 V c t) (blkB2 V c t)).2 _ Set.univ _)
    isplitl [Ha]; · iexact Ha
    isplitl [Hb]; · iexact Hb
    isplitl [Hr]; · iexact Hr
    isplitl [Hs]; · iexact Hs
    iintro ⟨Ha, Hb, Hr, ⟨%es, Hs⟩⟩
    isplitl [Hs Hkeep]
    · isplitl [Hs]
      · unfold owns; iexists _; isplitr
        swap; · iexact Hs
        ipureintro; exact View.read_writes_eq_canon _ _ _ (coverFirst2 c _ _ _ _ _ _ _ _ _ _ _ _ _)
      iexact Hkeep
    isplitl [Ho]; · iexact Ho
    isplitl [Ha]; · iexact Ha
    isplitl [Hb]; · iexact Hb
    iexists _; iexact Hr
  · by_cases h1 : t.val = 24
    · rw [show (dat2 V c).leavesExact 2 t = owns (c : Thread nD τ) (res t) fullShare ((dat2 V c).after 2 t) from by
        unfold Dat.leavesExact; rw [live2_2 t h1], after2_2 V c t h0 h1]
      rw [inv2_later V c t h0, accAt2_last V c t h0 h1]
      unfold accLast2 resLast2
      iintro ⟨⟨Hs, Hkeep⟩, Ho, ⟨%da, Ha⟩, ⟨%db, Hb⟩, ⟨%dr, Hr⟩⟩
      iapply ((runLast2 c (grid2.coords t) _ _ _ _ _ _ _ _ (fun h => h0 ((clears2_iff t).mp h)) ((emits2_iff t).mpr h1) (blkA2 V c t) (blkB2 V c t) _).2.2 Set.univ _)
      isplitl [Ha]; · iexact Ha
      isplitl [Hb]; · iexact Hb
      isplitl [Hr]; · iexists _; iexact Hr
      isplitl [Hs]; · iexact Hs
      iintro ⟨Ha, Hb, ⟨%er, Hr⟩, ⟨%es, Hs⟩⟩
      isplitl [Hs Hkeep]
      · isplitl [Hs]
        · unfold owns; iexists _; isplitr
          swap; · iexact Hs
          ipureintro; exact View.read_writes_eq_canon _ _ _ (coverLastAcc2 c _ _ _ _ _ _ _ _ _ _ _ _ _ _)
        iexact Hkeep
      isplitl [Ho]; · iexact Ho
      isplitl [Ha]; · iexact Ha
      isplitl [Hb]; · iexact Hb
      unfold owns; iexists _; isplitr
      swap; · iexact Hr
      ipureintro; exact View.read_writes_eq_canon _ _ _ (coverLastRes2 c _ _ _ _ _ _ _ _ _ _ _ _ _ _)
    · rw [Dat.leavesExact_idle (dat2 V c) 2 t (idle2_2 t h1) (keep2_2 t h1)]
      rw [inv2_later V c t h0, accAt2_mid V c t h0 h1]
      unfold accMid2
      iintro ⟨⟨Hs, Hkeep⟩, Ho, ⟨%da, Ha⟩, ⟨%db, Hb⟩, ⟨%dr, Hr⟩⟩
      iapply ((runMid2 c (grid2.coords t) _ _ _ _ _ _ _ _ (fun h => h0 ((clears2_iff t).mp h)) (fun h => h1 ((emits2_iff t).mp h)) (blkA2 V c t) (blkB2 V c t) _).2 _ Set.univ _)
      isplitl [Ha]; · iexact Ha
      isplitl [Hb]; · iexact Hb
      isplitl [Hr]; · iexact Hr
      isplitl [Hs]; · iexact Hs
      iintro ⟨Ha, Hb, Hr, ⟨%es, Hs⟩⟩
      isplitl [Hs Hkeep]
      · isplitl [Hs]
        · unfold owns; iexists _; isplitr
          swap; · iexact Hs
          ipureintro; exact View.read_writes_eq_canon _ _ _ (coverMid2 c _ _ _ _ _ _ _ _ _ _ _ _ _ _)
        iexact Hkeep
      isplitl [Ho]; · iexact Ho
      isplitl [Ha]; · iexact Ha
      isplitl [Hb]; · iexact Hb
      iexists _; iexact Hr

/-- The library's body obligation, at every point. -/
theorem body_obligation2 (c : Dev nD) : BodyObligation (dat2 (F := F) V c) (defs₀ (F := F)) Variants.none () Set.univ := fun t => by
  rw [bigSep_W2, bigSep_W2]
  exact step2 V c t

/-- The launch hands the region the resting invariant, which is the invariant before the first point. -/
theorem hin2 (c : Dev nD) : Pipeline.ΦA spec2 c ⊢ (dat2 V c).Φ 0 := by
  rw [show (dat2 V c).Φ 0 = Pipeline.ΦA spec2 c from by dsimp only [dat2]; unfold inv2; exact dif_pos rfl]
  try exact Idealize.SL.BI.Entails.refl _

/-- After the last point the accumulator's contents are forgotten and the promise gives the resting
    invariant back. -/
theorem hout2 (c : Dev nD) : (dat2 V c).Φ (Fin.last cfg2.N) ⊢ Pipeline.ΦA spec2 c := by
  rw [show (dat2 V c).Φ (Fin.last cfg2.N)
      = iprop(owns (c : Thread nD τ) accM fullShare (accAt2 V c 24 (by decide)) ∗ Keep2 (F := F) c) from by
    dsimp only [dat2]; unfold inv2; exact dif_neg (by decide)]
  exact rest_join2 c _

end

end Cert.KernelIdeal.Hand

end
-- ==== Proof.KI.Run.lean ====
/-
  The run of @main at any float instance: four stretches of host operations around three kernel regions, composed by the
  several-regions launch of the pipeline library. Between two items every unscoped buffer of the core is held at
  contents named here (`B0` … `B7`): the launch memory, then each host stretch applied, then each region's arrays
  at what its write-backs leave. The result: every weakly fair execution terminates and every unscoped buffer ends at `B7`;
  the arguments are written by nothing, so they end as launched.
-/
import proofs.«111018_j28578712388223_1_alg».proof.Proof.KI.Region0
import proofs.«111018_j28578712388223_1_alg».proof.Proof.KI.Region1
import proofs.«111018_j28578712388223_1_alg».proof.Proof.KI.Region2
import proofs.«111018_j28578712388223_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- At launch. -/
abbrev B0 (c : Dev nD) : Valuation τ sig (Elt F) := fun b => m (c, b)
/-- After the first host stretch (the reshape of the edge values to 25000 × 128). -/
abbrev B1 (c : Dev nD) : Valuation τ sig (Elt F) := StableHlo.after hostOps0 (B0 m c)
abbrev E1 (c : Dev nD) (b : Ref sig .tc) : Buf (Elt F) ((c : Thread nD τ).loc b) := B1 m c b

/-- After region 0: its arrays at what the write-backs leave, every other buffer as the region found it. -/
def B2 (c : Dev nD) : Valuation τ sig (Elt F) :=
  Pipeline.withArrays spec0 c (B1 m c) fun w => (dat0 (E1 m) c).arrAt w cfg0.N
theorem B2_at_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_at_other (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The same read at the TensorCore's references. -/
abbrev E2 (c : Dev nD) (b : Ref sig .tc) : Buf (Elt F) ((c : Thread nD τ).loc b) := B2 m c b
theorem B2_arr (c : Dev nD) (w : Fin cfg0.W) : (dat0 (E1 m) c).arrAt w cfg0.N = E2 m c (Pipeline.arrRef spec0 w) :=
  (B2_at_arr m c w).symm
theorem B2_rest (c : Dev nD) : ∀ b, b ∉ Finset.univ.image (Pipeline.arrRef spec0) → E2 m c b = E1 m c b :=
  fun b hb => B2_at_other m c b fun w e => hb (Finset.mem_image.mpr ⟨w, Finset.mem_univ _, e⟩)

/-- After the second host stretch. -/
abbrev B3 (c : Dev nD) : Valuation τ sig (Elt F) := StableHlo.after hostOps1 (B2 m c)
abbrev E3 (c : Dev nD) (b : Ref sig .tc) : Buf (Elt F) ((c : Thread nD τ).loc b) := B3 m c b

/-- After region 1: its arrays at what the write-backs leave, every other buffer as the region found it. -/
def B4 (c : Dev nD) : Valuation τ sig (Elt F) :=
  Pipeline.withArrays spec1 c (B3 m c) fun w => (dat1 (E3 m) c).arrAt w cfg1.N
theorem B4_at_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_at_other (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
/-- The same read at the TensorCore's references. -/
abbrev E4 (c : Dev nD) (b : Ref sig .tc) : Buf (Elt F) ((c : Thread nD τ).loc b) := B4 m c b
theorem B4_arr (c : Dev nD) (w : Fin cfg1.W) : (dat1 (E3 m) c).arrAt w cfg1.N = E4 m c (Pipeline.arrRef spec1 w) :=
  (B4_at_arr m c w).symm
theorem B4_rest (c : Dev nD) : ∀ b, b ∉ Finset.univ.image (Pipeline.arrRef spec1) → E4 m c b = E3 m c b :=
  fun b hb => B4_at_other m c b fun w e => hb (Finset.mem_image.mpr ⟨w, Finset.mem_univ _, e⟩)

/-- After the third host stretch (the balance term, the two row gathers and their reshapes). -/
abbrev B5 (c : Dev nD) : Valuation τ sig (Elt F) := StableHlo.after hostOps2 (B4 m c)
abbrev E5 (c : Dev nD) (b : Ref sig .tc) : Buf (Elt F) ((c : Thread nD τ).loc b) := B5 m c b

/-- After region 2: its arrays at what the write-backs leave, every other buffer as the region found it. -/
def B6 (c : Dev nD) : Valuation τ sig (Elt F) :=
  Pipeline.withArrays spec2 c (B5 m c) fun w => (dat2 (E5 m) c).arrAt w cfg2.N
theorem B6_at_arr (c : Dev nD) (w : Fin cfg2.W) :
    B6 m c (Proc.devRef .tc (Pipeline.arrRef spec2 w)) = (dat2 (E5 m) c).arrAt w cfg2.N := by
  unfold B6; exact Pipeline.withArrays_arr spec2 launch2.win.arr_inj c _ _ w
theorem B6_at_other (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
/-- The same read at the TensorCore's references. -/
abbrev E6 (c : Dev nD) (b : Ref sig .tc) : Buf (Elt F) ((c : Thread nD τ).loc b) := B6 m c b
theorem B6_arr (c : Dev nD) (w : Fin cfg2.W) : (dat2 (E5 m) c).arrAt w cfg2.N = E6 m c (Pipeline.arrRef spec2 w) :=
  (B6_at_arr m c w).symm
theorem B6_rest (c : Dev nD) : ∀ b, b ∉ Finset.univ.image (Pipeline.arrRef spec2) → E6 m c b = E5 m c b :=
  fun b hb => B6_at_other m c b fun w e => hb (Finset.mem_image.mpr ⟨w, Finset.mem_univ _, e⟩)

/-- After the last host stretch (the quotient and the total). -/
abbrev B7 (c : Dev nD) : Valuation τ sig (Elt F) := StableHlo.after hostOps3 (B6 m c)

/-! ## The proof data of the three pipelines, each at its region's entry contents -/

/-- No pipeline has a prefetched table. -/
abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and the core owing nothing. -/
abbrev Rest (c : Dev nD) : sProp 𝕄 := iprop((∃ r, prngReg c r) ∗ ∃ W, owes (c : Thread nD τ) (0 : CellTallies nD τ sig Unit) W)

/-- A host stretch as a segment from the contents `B`. -/
abbrev stretch (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B Rest

/-- The last thread state: every unscoped buffer at `B7`, the generator register at some state. -/
abbrev Tend (c : Dev nD) : sProp 𝕄 := iprop(StableHlo.held (c : Thread nD τ) (Pipeline.ucRefs τ sig) (B7 m c) ∗ ∃ r, prngReg c r)

/-! ## The regions as segments -/

set_option backward.isDefEq.respectTransparency.types false in
/-- Region 0 as a segment of @main: entered with every unscoped buffer at `B1`, left with them at `B2`. The region's
    arrays are taken out of the unscoped buffers and put back at what the write-backs leave; the generator register goes
    into the region invariant and comes back; nothing is owed; the kernel has no semaphore of its own. -/
def region0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ Rest c)
  post c := iprop(StableHlo.held (c : Thread nD τ) (Pipeline.ucRefs τ sig) (B2 m c) ∗ Rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    refine BIBase.Entails.trans ?_ (hin0 (E1 m) c)
    unfold Pipeline.ΦA
    iintro ⟨Hreg, -, Hscoped⟩
    isplitl [Hscoped]; · iexact Hscoped
    iexact Hreg
  hout c := by
    rw [Pipeline.ownSems0_none]
    refine BIBase.Entails.trans (hout0 (E1 m) c) ?_
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (B2_arr m c) (B2_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- Region 1 as a segment of @main: entered with every unscoped buffer at `B3`, left with them at `B4`. The region's
    arrays are taken out of the unscoped buffers and put back at what the write-backs leave; the generator register goes
    into the region invariant and comes back; nothing is owed; the kernel has no semaphore of its own. -/
def region1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ Rest c)
  post c := iprop(StableHlo.held (c : Thread nD τ) (Pipeline.ucRefs τ sig) (B4 m c) ∗ Rest c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    refine BIBase.Entails.trans ?_ (hin1 (E3 m) c)
    unfold Pipeline.ΦA
    iintro ⟨Hreg, -, Hscoped⟩
    isplitl [Hscoped]; · iexact Hscoped
    iexact Hreg
  hout c := by
    rw [Pipeline.ownSems0_none]
    refine BIBase.Entails.trans (hout1 (E3 m) c) ?_
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (B4_arr m c) (B4_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- Region 2 as a segment of @main: entered with every unscoped buffer at `B5`, left with them at `B6`. The region's
    arrays are taken out of the unscoped buffers and put back at what the write-backs leave; the generator register goes
    into the region invariant and comes back; nothing is owed; the kernel has no semaphore of its own. -/
def region2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (B5 m c) ∗ Rest c)
  post c := iprop(StableHlo.held (c : Thread nD τ) (Pipeline.ucRefs τ sig) (B6 m c) ∗ Rest c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    refine BIBase.Entails.trans ?_ (hin2 (E5 m) c)
    unfold Pipeline.ΦA
    iintro ⟨Hreg, -, Hscoped⟩
    isplitl [Hscoped]; · iexact Hscoped
    iexact Hreg
  hout c := by
    rw [Pipeline.ownSems0_none]
    refine BIBase.Entails.trans (hout2 (E5 m) c) ?_
    unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (B6_arr m c) (B6_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## @main as segments, and the launch -/

abbrev items : List (Pipeline.Seg (pcfgs (F := F)) adm (pdats m) () defs₀ 𝒱₀ L lv) :=
  [ .host (stretch hostOps0 hostOps0_sub hostOps0_fresh (B0 m)),
    .region (region0 m),
    .host (stretch hostOps1 hostOps1_sub hostOps1_fresh (B2 m)),
    .region (region1 m),
    .host (stretch hostOps2 hostOps2_sub hostOps2_fresh (B4 m)),
    .region (region2 m),
    .host (stretch hostOps3 hostOps3_sub hostOps3_fresh (B6 m)) ]

theorem main_items (c : Dev nD) : main (F := F) c = Pipeline.Seg.run (items m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and in
    every final state each unscoped buffer of each core holds `B7`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B7 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Tend m)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (B7 m c) ∗ Rest c) ⊢ _
        iintro ⟨Hh, Hreg, Howes⟩
        isplitl [Hh Hreg]
        · isplitl [Hh]; · iexact Hh
          iexact Hreg
        iexact Howes⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c => h c)

end Cert.KernelIdeal.Hand

end
-- ==== Proof.KI.Frame.lean ====
/-
  The frame of the kernel program at any float instance: no host operation and no region writes an argument array,
  so each argument's buffer, read back through the contents between the items, is the launch memory's.
-/
import proofs.«111018_j28578712388223_1_alg».proof.Proof.KI.Run

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The node matrix is the input window of the column-sum region and is written by nothing. -/
theorem B7_arg0 (c : Dev nD) : B7 m c main_arg0 = m ((c : Thread nD τ).loc main_arg0) :=
  (StableHlo.after_of_writes_sub hostOps3 _ hostOps3_writes (by decide)).trans <|
  (B6_at_other m c main_arg0 (by decide)).trans <|
  (StableHlo.after_of_writes_sub hostOps2 _ hostOps2_writes (by decide)).trans <|
  (B4_at_arr m c 0).trans <| ((dat1 (E3 m) c).arrAt_in 0 rfl _).trans <| (A_eq1 (E3 m) c 0).trans <|
  (StableHlo.after_of_writes_sub hostOps1 _ hostOps1_writes (by decide)).trans <|
  (B2_at_other m c main_arg0 (by decide)).trans <|
  (StableHlo.after_of_writes_sub hostOps0 _ hostOps0_writes (by decide)).trans rfl

/-- The edge values are read only by the first host stretch. -/
theorem B7_arg1 (c : Dev nD) : B7 m c main_arg1 = m ((c : Thread nD τ).loc main_arg1) :=
  (StableHlo.after_of_writes_sub hostOps3 _ hostOps3_writes (by decide)).trans <|
  (B6_at_other m c main_arg1 (by decide)).trans <|
  (StableHlo.after_of_writes_sub hostOps2 _ hostOps2_writes (by decide)).trans <|
  (B4_at_other m c main_arg1 (by decide)).trans <|
  (StableHlo.after_of_writes_sub hostOps1 _ hostOps1_writes (by decide)).trans <|
  (B2_at_other m c main_arg1 (by decide)).trans <|
  (StableHlo.after_of_writes_sub hostOps0 _ hostOps0_writes (by decide)).trans rfl

/-- The source indices are read only by the third host stretch. -/
theorem B7_arg2 (c : Dev nD) : B7 m c main_arg2 = m ((c : Thread nD τ).loc main_arg2) :=
  (StableHlo.after_of_writes_sub hostOps3 _ hostOps3_writes (by decide)).trans <|
  (B6_at_other m c main_arg2 (by decide)).trans <|
  (StableHlo.after_of_writes_sub hostOps2 _ hostOps2_writes (by decide)).trans <|
  (B4_at_other m c main_arg2 (by decide)).trans <|
  (StableHlo.after_of_writes_sub hostOps1 _ hostOps1_writes (by decide)).trans <|
  (B2_at_other m c main_arg2 (by decide)).trans <|
  (StableHlo.after_of_writes_sub hostOps0 _ hostOps0_writes (by decide)).trans rfl

/-- The destination indices likewise. -/
theorem B7_arg3 (c : Dev nD) : B7 m c main_arg3 = m ((c : Thread nD τ).loc main_arg3) :=
  (StableHlo.after_of_writes_sub hostOps3 _ hostOps3_writes (by decide)).trans <|
  (B6_at_other m c main_arg3 (by decide)).trans <|
  (StableHlo.after_of_writes_sub hostOps2 _ hostOps2_writes (by decide)).trans <|
  (B4_at_other m c main_arg3 (by decide)).trans <|
  (StableHlo.after_of_writes_sub hostOps1 _ hostOps1_writes (by decide)).trans <|
  (B2_at_other m c main_arg3 (by decide)).trans <|
  (StableHlo.after_of_writes_sub hostOps0 _ hostOps0_writes (by decide)).trans rfl

/-- Every weakly fair execution of @main terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (B7_arg0 m c),
     (h c _ (mem_uc main_arg1 (by decide))).trans (B7_arg1 m c),
     (h c _ (mem_uc main_arg2 (by decide))).trans (B7_arg2 m c),
     (h c _ (mem_uc main_arg3 (by decide))).trans (B7_arg3 m c)⟩) (run_all m ρ)

end Cert.KernelIdeal.Hand

end
-- ==== Proof.LibReshapeSum.lean ====
/-
  Sums over a reshaped array, a reshape that drops a leading axis of size one, and a gather of a pointwise image.

  A reshape matches the index sets of two shapes one to one (by row-major position), so any sum over the indices of the
  reshaped array is the same sum over the indices of its source; a gather only chooses which elements of its operand
  are read, so it commutes with any function applied element by element.
-/
import Idealize.ShloMosaic.PureOps.ShapeOps
import Idealize.ShloMosaic.PureOps.Dims
import Mathlib.Algebra.BigOperators.Group.Finset.Basic

namespace Cert.Lib.ReshapeSum

open Idealize.ShloMosaic

/-- A sum, over the indices of one shape, of a function of the index a reshape matches each with, is the sum of that
    function over the indices of the other shape: the matching is a bijection. -/
theorem sum_reshapeEquiv {M : Type} [AddCommMonoid M] {s t : Shape} (h : t.numel = s.numel) (f : s.Idx → M) :
    ∑ j : t.Idx, f (Shape.reshapeEquiv h j) = ∑ i : s.Idx, f i :=
  Equiv.sum_comp (Shape.reshapeEquiv h) f

/-- The total of a reshaped array is the total of the array. -/
theorem sum_shapeCast {M : Type} [AddCommMonoid M] {s t : Shape} (x : s.Idx → M) (h : s.ShapeCasts t) :
    ∑ j : t.Idx, shapeCast t x h j = ∑ i : s.Idx, x i :=
  sum_reshapeEquiv h x

/-- The sum of the elementwise products of two arrays reshaped alike is the sum of the elementwise products of the
    arrays themselves. -/
theorem sum_shapeCast_mul {M : Type} [AddCommMonoid M] [Mul M] {s t : Shape} (x y : s.Idx → M) (h : s.ShapeCasts t) :
    ∑ j : t.Idx, shapeCast t x h j * shapeCast t y h j = ∑ i : s.Idx, x i * y i :=
  sum_reshapeEquiv h fun i => x i * y i

/-- Reshaping away a leading axis of size one: the result at an index is the source at that index behind the one
    coordinate `0`. -/
theorem shapeCast_drop_one {α : Type} {n : Nat} {d : Fin n → Nat}
    (x : (⟨n + 1, Matrix.vecCons 1 d⟩ : Shape).Idx → α) (h : (⟨n + 1, Matrix.vecCons 1 d⟩ : Shape).ShapeCasts ⟨n, d⟩)
    (j : (⟨n, d⟩ : Shape).Idx) :
    shapeCast ⟨n, d⟩ x h j = x (Fin.cons ⟨0, Nat.one_pos⟩ j) :=
  congrArg x (Shape.reshapeEquiv_cons_one h j)

/-- A gather of an array's image under a function applied element by element is the image of the gather. -/
theorem gather_map {α β : Type} {s si t : Shape} {w : Nat} (g : α → β) (d : GatherDims s si t) (x : s.Idx → α)
    (idx : IVec si w) :
    Host.gather d (fun i => g (x i)) idx = fun j => g (Host.gather d x idx j) :=
  rfl

end Cert.Lib.ReshapeSum
-- ==== Proof.KI.Unfold.lean ====
/-
  What @main's result buffers hold at the end, read back item by item, and the reference's stages they are compared with.

  Between two items of @main every unscoped buffer of a core is held at named contents (`B0` … `B7`). Here each buffer
  the three results depend on is read down that chain: a host stretch gives the buffer its operation's function of the
  operands' contents, a region gives its output array what the write-backs leave and leaves every other buffer alone
  (an input array is left as the region found it). What remains are the three regions' output arrays and the arguments.

  Then the two programs' terms are compared at the extended reals. The edge-weight total: a sum over a reshape is the
  sum over the array. The column sums: a 1 × 16 array reshaped to 16 is read behind the coordinate 0. The cut
  numerator: a sum of products over two reshapes is the sum of products over the arrays, and a gather of `1 - Y`
  reads `1 - Y` where the gather of `Y` reads `Y`. The index arrays and the balance term's tail are the same functions
  in both programs.
-/
import proofs.«111018_j28578712388223_1_alg».proof.Proof.KI.Run
import proofs.«111018_j28578712388223_1_alg».proof.Proof.Gen.ReferenceIdeal.Read
import proofs.«111018_j28578712388223_1_alg».proof.Proof.LibReshapeSum
import Idealize.ShloMosaic.Lib.StableHlo.Run
import Idealize.ShloMosaic.PureOps.Ideal.Laws
import Idealize.ShloMosaic.Lib.ValueIdx

set_option maxRecDepth 16384

noncomputable section

namespace Cert.KernelIdeal.Hand

open Idealize.ShloMosaic Idealize.ShloMosaic.TcCoe
open Idealize.SL Idealize.SL.Sem
open Cert.KernelIdeal Cert.KernelIdeal.Gen
open Cert.Lib.ReshapeSum

/-! ## Two functions both programs apply -/
section Terms
variable {F : FTy → Type} [FloatOps F]

/-- The row indices a gather reads, from the edge endpoints: a negative endpoint wrapped around by the number of
    rows, then given a trailing unit axis. -/
def wrapIdx (e : (⟨S3200000, .i32⟩ : BufTy).Contents (Elt F)) : (⟨S3200000x1, .i32⟩ : BufTy).Contents (Elt F) :=
  broadcastInDim S3200000x1 ![0] bcast_S3200000_S3200000x1_0
    (select (cmpi .slt e (broadcastInDim S3200000 ![] bcast_S_S3200000 (constantI S_ 32 0#32)))
      (addi e (broadcastInDim S3200000 ![] bcast_S_S3200000 (constantI S_ 32 100000#32))) e)

/-- The balance term as a function of the sixteen column sums: subtract 6250, square, sum. -/
def balanceOf (s : (⟨S16, .f32⟩ : BufTy).Contents (Elt F)) : (⟨S_, .f32⟩ : BufTy).Contents (Elt F) :=
  Host.reduceAdd
    (mulf (subf s (broadcastInDim S16 ![] bcast_S_S16 (constant S_ .f32 0x45C35000#32)))
      (subf s (broadcastInDim S16 ![] bcast_S_S16 (constant S_ .f32 0x45C35000#32))))
    (constant S_ .f32 0x00000000#32) reducesTo_S16_S_d0 h_S_
end Terms

/-! ## Reading the buffers down the chain of @main's items -/
section Chain
variable {F : FTy → Type} [FloatOps F]
variable (m : (ℓ : Loc nD τ sig) → Buf (Elt F) ℓ) (c : Dev nD)
open Idealize.ShloMosaic.StableHlo

/-! ### The first stretch -/
theorem B1_v0 : B1 m c (Proc.devRef .tc main_v0)
    = shapeCast S25000x128 (m (c, Proc.devRef .tc main_arg1)) shapeCasts_S3200000_S25000x128 := by
  show StableHlo.after hostOps0 (B0 m c) (Proc.devRef .tc main_v0) = _
  after_results
  rfl
theorem B1_arg0 : B1 m c (Proc.devRef .tc main_arg0) = m (c, Proc.devRef .tc main_arg0) := by
  show StableHlo.after hostOps0 (B0 m c) (Proc.devRef .tc main_arg0) = _
  after_results
theorem B1_arg2 : B1 m c (Proc.devRef .tc main_arg2) = m (c, Proc.devRef .tc main_arg2) := by
  show StableHlo.after hostOps0 (B0 m c) (Proc.devRef .tc main_arg2) = _
  after_results
theorem B1_arg3 : B1 m c (Proc.devRef .tc main_arg3) = m (c, Proc.devRef .tc main_arg3) := by
  show StableHlo.after hostOps0 (B0 m c) (Proc.devRef .tc main_arg3) = _
  after_results

/-! ### Region 0 -/
theorem B2_v1 : B2 m c (Proc.devRef .tc main_v1) = (dat0 (E1 m) c).arrAt 1 cfg0.N := B2_at_arr m c 1
theorem B2_arg0 : B2 m c (Proc.devRef .tc main_arg0) = m (c, Proc.devRef .tc main_arg0) :=
  (B2_at_other m c main_arg0 (by decide)).trans (B1_arg0 m c)
theorem B2_arg2 : B2 m c (Proc.devRef .tc main_arg2) = m (c, Proc.devRef .tc main_arg2) :=
  (B2_at_other m c main_arg2 (by decide)).trans (B1_arg2 m c)
theorem B2_arg3 : B2 m c (Proc.devRef .tc main_arg3) = m (c, Proc.devRef .tc main_arg3) :=
  (B2_at_other m c main_arg3 (by decide)).trans (B1_arg3 m c)

/-! ### The second stretch -/
theorem B3_v2 : B3 m c (Proc.devRef .tc main_v2)
    = shapeCast S_ ((dat0 (E1 m) c).arrAt 1 cfg0.N) shapeCasts_S1x1_S_ := by
  show StableHlo.after hostOps1 (B2 m c) (Proc.devRef .tc main_v2) = _
  after_results
  rw [B2_v1]
  rfl
theorem B3_arg0 : B3 m c (Proc.devRef .tc main_arg0) = m (c, Proc.devRef .tc main_arg0) := by
  show StableHlo.after hostOps1 (B2 m c) (Proc.devRef .tc main_arg0) = _
  after_results
  exact B2_arg0 m c
theorem B3_arg2 : B3 m c (Proc.devRef .tc main_arg2) = m (c, Proc.devRef .tc main_arg2) := by
  show StableHlo.after hostOps1 (B2 m c) (Proc.devRef .tc main_arg2) = _
  after_results
  exact B2_arg2 m c
theorem B3_arg3 : B3 m c (Proc.devRef .tc main_arg3) = m (c, Proc.devRef .tc main_arg3) := by
  show StableHlo.after hostOps1 (B2 m c) (Proc.devRef .tc main_arg3) = _
  after_results
  exact B2_arg3 m c

/-! ### Region 1 -/
theorem B4_v3 : B4 m c (Proc.devRef .tc main_v3) = (dat1 (E3 m) c).arrAt 1 cfg1.N := B4_at_arr m c 1
theorem B4_v2 : B4 m c (Proc.devRef .tc main_v2)
    = shapeCast S_ ((dat0 (E1 m) c).arrAt 1 cfg0.N) shapeCasts_S1x1_S_ :=
  (B4_at_other m c main_v2 (by decide)).trans (B3_v2 m c)
theorem B4_arg0 : B4 m c (Proc.devRef .tc main_arg0) = m (c, Proc.devRef .tc main_arg0) :=
  (B4_at_arr m c 0).trans <| ((dat1 (E3 m) c).arrAt_in 0 rfl _).trans <| (A_eq1 (E3 m) c 0).trans (B3_arg0 m c)
theorem B4_arg2 : B4 m c (Proc.devRef .tc main_arg2) = m (c, Proc.devRef .tc main_arg2) :=
  (B4_at_other m c main_arg2 (by decide)).trans (B3_arg2 m c)
theorem B4_arg3 : B4 m c (Proc.devRef .tc main_arg3) = m (c, Proc.devRef .tc main_arg3) :=
  (B4_at_other m c main_arg3 (by decide)).trans (B3_arg3 m c)

/-! ### The third stretch -/
theorem B5_v8 : B5 m c (Proc.devRef .tc main_v8)
    = balanceOf (shapeCast S16 ((dat1 (E3 m) c).arrAt 1 cfg1.N) shapeCasts_S1x16_S16) := by
  show StableHlo.after hostOps2 (B4 m c) (Proc.devRef .tc main_v8) = _
  after_results
  rw [B4_v3]
  rfl
theorem B5_v2 : B5 m c (Proc.devRef .tc main_v2)
    = shapeCast S_ ((dat0 (E1 m) c).arrAt 1 cfg0.N) shapeCasts_S1x1_S_ := by
  show StableHlo.after hostOps2 (B4 m c) (Proc.devRef .tc main_v2) = _
  after_results
  exact B4_v2 m c
theorem B5_v25 : B5 m c (Proc.devRef .tc main_v25)
    = shapeCast S400000x128
        (Host.gather gather_S100000x16_S3200000x1_S3200000x16_1_0_n_n_0_1_116 (m (c, Proc.devRef .tc main_arg0))
          (wrapIdx (m (c, Proc.devRef .tc main_arg2))))
        shapeCasts_S3200000x16_S400000x128 := by
  show StableHlo.after hostOps2 (B4 m c) (Proc.devRef .tc main_v25) = _
  after_results_simp
  rw [B4_arg0, B4_arg2]
  rfl
theorem B5_v26 : B5 m c (Proc.devRef .tc main_v26)
    = shapeCast S400000x128
        (subf (broadcastInDim S3200000x16 ![] bcast_S_S3200000x16 (constant S_ .f32 0x3F800000#32))
          (Host.gather gather_S100000x16_S3200000x1_S3200000x16_1_0_n_n_0_1_116 (m (c, Proc.devRef .tc main_arg0))
            (wrapIdx (m (c, Proc.devRef .tc main_arg3)))))
        shapeCasts_S3200000x16_S400000x128 := by
  show StableHlo.after hostOps2 (B4 m c) (Proc.devRef .tc main_v26) = _
  after_results_simp
  rw [B4_arg0, B4_arg3]
  rfl

/-! ### Region 2 -/
theorem B6_v27 : B6 m c (Proc.devRef .tc main_v27) = (dat2 (E5 m) c).arrAt 2 cfg2.N := B6_at_arr m c 2
theorem B6_v2 : B6 m c (Proc.devRef .tc main_v2)
    = shapeCast S_ ((dat0 (E1 m) c).arrAt 1 cfg0.N) shapeCasts_S1x1_S_ :=
  (B6_at_other m c main_v2 (by decide)).trans (B5_v2 m c)
theorem B6_v8 : B6 m c (Proc.devRef .tc main_v8)
    = balanceOf (shapeCast S16 ((dat1 (E3 m) c).arrAt 1 cfg1.N) shapeCasts_S1x16_S16) :=
  (B6_at_other m c main_v8 (by decide)).trans (B5_v8 m c)

/-! ### The last stretch -/
theorem B7_v8 : B7 m c (Proc.devRef .tc main_v8)
    = balanceOf (shapeCast S16 ((dat1 (E3 m) c).arrAt 1 cfg1.N) shapeCasts_S1x16_S16) := by
  show StableHlo.after hostOps3 (B6 m c) (Proc.devRef .tc main_v8) = _
  after_results
  exact B6_v8 m c
theorem B7_v29 : B7 m c (Proc.devRef .tc main_v29)
    = Host.divf (shapeCast S_ ((dat2 (E5 m) c).arrAt 2 cfg2.N) shapeCasts_S1x1_S_)
        (shapeCast S_ ((dat0 (E1 m) c).arrAt 1 cfg0.N) shapeCasts_S1x1_S_) := by
  show StableHlo.after hostOps3 (B6 m c) (Proc.devRef .tc main_v29) = _
  after_results
  rw [B6_v27, B6_v2]
  rfl
theorem B7_v30 : B7 m c (Proc.devRef .tc main_v30)
    = addf (B7 m c (Proc.devRef .tc main_v29)) (B7 m c (Proc.devRef .tc main_v8)) := by
  rw [B7_v29, B7_v8]
  show StableHlo.after hostOps3 (B6 m c) (Proc.devRef .tc main_v30) = _
  after_results
  rw [B6_v27, B6_v2, B6_v8]
  rfl
end Chain

/-! ## The two programs' terms compared (at the extended reals) -/
section Compare

/-- Both programs wrap the edge endpoints into row indices by the same integer operations. -/
theorem wrapIdx_src (e : (⟨S3200000, .i32⟩ : BufTy).Contents (Elt Ideal)) :
    wrapIdx (F := Ideal) e = Cert.ReferenceIdeal.Read.val_main_v8 (F := Ideal) e := rfl
theorem wrapIdx_dst (e : (⟨S3200000, .i32⟩ : BufTy).Contents (Elt Ideal)) :
    wrapIdx (F := Ideal) e = Cert.ReferenceIdeal.Read.val_main_v15 (F := Ideal) e := rfl

/-- The balance term is the same function of the column sums in both programs. -/
theorem balanceOf_colsums (x0 : (⟨S100000x16, .f32⟩ : BufTy).Contents (Elt Ideal)) :
    balanceOf (F := Ideal) (Cert.ReferenceIdeal.Read.val_main_v20 (F := Ideal) x0)
      = Cert.ReferenceIdeal.Read.val_main_v24 (F := Ideal) x0 := rfl

/-- The edge-weight total: the sum over the 25000 × 128 reshape of the weights is the sum over the weights, which is
    what the reference's sum from zero gives. -/
theorem den_eq (x1 : (⟨S3200000, .f32⟩ : BufTy).Contents (Elt Ideal)) :
    shapeCast S_ (fun _ : S1x1.Idx => ∑ i : S25000x128.Idx, shapeCast S25000x128 x1 shapeCasts_S3200000_S25000x128 i)
        shapeCasts_S1x1_S_
      = Cert.ReferenceIdeal.Read.val_main_v0 (F := Ideal) x1 := by
  funext i
  rw [Cert.ReferenceIdeal.Read.val_main_v0_apply]
  show (∑ j : S25000x128.Idx, shapeCast S25000x128 x1 shapeCasts_S3200000_S25000x128 j) = _
  rw [sum_shapeCast]
  rw [show (Cert.ReferenceIdeal.Read.val_main_cst (F := Ideal)) (Shape.Idx.first Cert.ReferenceIdeal.Gen.h_S_) = 0
    from Ideal.ofBits_zero_f32, zero_add]
end Compare

section Compare2

/-- The column sums: the 1 × 16 array of column sums reshaped to 16 holds, at each column, the sum over the rows,
    which is what the reference's sum from zero along the rows gives. -/
theorem colsums_eq (x0 : (⟨S100000x16, .f32⟩ : BufTy).Contents (Elt Ideal)) :
    shapeCast S16 (fun j : S1x16.Idx => ∑ r : Fin 100000, x0 (ValueIdx.ix2 r (j 1))) shapeCasts_S1x16_S16
      = Cert.ReferenceIdeal.Read.val_main_v20 (F := Ideal) x0 := by
  funext i
  rw [Cert.ReferenceIdeal.Read.val_main_v20_apply]
  rw [show (Cert.ReferenceIdeal.Read.val_main_cst_5 (F := Ideal)) (Shape.Idx.first Cert.ReferenceIdeal.Gen.h_S_) = 0
    from Ideal.ofBits_zero_f32, zero_add]
  rw [show shapeCast S16 (fun j : S1x16.Idx => ∑ r : Fin 100000, x0 (ValueIdx.ix2 r (j 1))) shapeCasts_S1x16_S16 i
      = (fun j : S1x16.Idx => ∑ r : Fin 100000, x0 (ValueIdx.ix2 r (j 1))) (Fin.cons ⟨0, Nat.one_pos⟩ i)
    from shapeCast_drop_one (n := 1) (d := ![16]) _ shapeCasts_S1x16_S16 i]
  refine Finset.sum_congr rfl fun k _ => congrArg x0 (funext fun a => ?_)
  match a with
  | ⟨0, _⟩ => rfl
  | ⟨1, _⟩ => rfl

/-- The gather dimension numbers are the same in both programs. -/
theorem gatherDims_eq :
    gather_S100000x16_S3200000x1_S3200000x16_1_0_n_n_0_1_116
      = Cert.ReferenceIdeal.gather_S100000x16_S3200000x1_S3200000x16_1_0_n_n_0_1_116 := rfl

/-- One element of the reference's edge products: the gathered source row's entry times one minus the gathered
    destination row's entry (a gather of `1 - Y` reads `1 - Y` where the gather of `Y` reads `Y`). -/
theorem prod_eq (x0 : (⟨S100000x16, .f32⟩ : BufTy).Contents (Elt Ideal))
    (x2 x3 : (⟨S3200000, .i32⟩ : BufTy).Contents (Elt Ideal)) (j : S3200000x16.Idx) :
    Host.gather gather_S100000x16_S3200000x1_S3200000x16_1_0_n_n_0_1_116 x0 (wrapIdx (F := Ideal) x2) j
      * subf (broadcastInDim S3200000x16 ![] bcast_S_S3200000x16 (constant (F := Ideal) S_ .f32 0x3F800000#32))
          (Host.gather gather_S100000x16_S3200000x1_S3200000x16_1_0_n_n_0_1_116 x0 (wrapIdx (F := Ideal) x3)) j
      = Cert.ReferenceIdeal.Read.val_main_v17 (F := Ideal) x0 x2 x3 j := rfl

/-- The cut numerator: the sum over the 400000 × 128 reshapes of the elementwise product is the sum over the
    3200000 × 16 arrays of the elementwise product, which is what the reference's sum from zero gives. -/
theorem num_eq (x0 : (⟨S100000x16, .f32⟩ : BufTy).Contents (Elt Ideal))
    (x2 x3 : (⟨S3200000, .i32⟩ : BufTy).Contents (Elt Ideal)) :
    shapeCast S_ (fun _ : S1x1.Idx => ∑ i : S400000x128.Idx,
        shapeCast S400000x128
            (Host.gather gather_S100000x16_S3200000x1_S3200000x16_1_0_n_n_0_1_116 x0 (wrapIdx (F := Ideal) x2))
            shapeCasts_S3200000x16_S400000x128 i
          * shapeCast S400000x128
              (subf (broadcastInDim S3200000x16 ![] bcast_S_S3200000x16 (constant (F := Ideal) S_ .f32 0x3F800000#32))
                (Host.gather gather_S100000x16_S3200000x1_S3200000x16_1_0_n_n_0_1_116 x0 (wrapIdx (F := Ideal) x3)))
              shapeCasts_S3200000x16_S400000x128 i)
        shapeCasts_S1x1_S_
      = Cert.ReferenceIdeal.Read.val_main_v18 (F := Ideal) x0 x2 x3 := by
  funext i
  rw [Cert.ReferenceIdeal.Read.val_main_v18_apply]
  rw [show (Cert.ReferenceIdeal.Read.val_main_cst_4 (F := Ideal)) (Shape.Idx.first Cert.ReferenceIdeal.Gen.h_S_) = 0
    from Ideal.ofBits_zero_f32, zero_add]
  show (∑ j : S400000x128.Idx, _ * _) = _
  rw [sum_shapeCast_mul]
  exact Finset.sum_congr rfl fun j _ => prod_eq x0 x2 x3 j
end Compare2

end Cert.KernelIdeal.Hand

end
-- ==== Proof.LibKeepdims.lean ====
/- Reading a keepdims row reduction at coordinates: a sum along the rows of an [a, b] array as a sum over the
   column coordinate, the [a] result cast to a column [a, 1], and that column broadcast back over [a, b]. These are
   the three layout steps of every `jnp.sum(x, axis=-1, keepdims=True)` followed by a broadcast against x. -/
import Idealize.ShloMosaic.Lib.ValueIdx
import Idealize.ShloMosaic.Lib.Pipeline.Value
import Idealize.ShloMosaic.PureOps.Ideal.Laws

noncomputable section

open scoped BigOperators

namespace Cert.Keepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- On the extended reals a float sum along the rows of an `[a, b]` array, read at row `p`, is the sum over the
    column coordinate of the row's entries. The accumulator's two side conditions are taken as the printed programs
    carry them (any proofs of those two propositions). -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.Keepdims

end
-- ==== Proof.KI.Payloads.lean ====
/-
  The three kernels' stored values read on the extended reals. Each kernel's reset stores zeros; each update stores the
  scratch's previous contents plus the sum of the point's block (for the dot-reduce kernel: of the entrywise products
  of its two blocks; for the column-sum kernel: column by column). The keepdims sums are read through: a sum along
  the lanes, the result laid out as a column, a sum down the column.
-/
import proofs.«111018_j28578712388223_1_alg».proof.Proof.Gen.KernelIdeal.Skeleton
import proofs.«111018_j28578712388223_1_alg».proof.Proof.LibKeepdims
import Idealize.ShloMosaic.Lib.ValueIdx
import Idealize.ShloMosaic.Lib.Pipeline.Value
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen

/-- The total-sum kernel's reset value is zero. -/
theorem pay1_zero0 (y : S1x1.Idx) : k0_pay1 (F := Ideal) y = 0 := by
  unfold k0_pay1
  rw [shapeCast_self]
  exact Ideal.ofBits_zero_f32

/-- The total-sum kernel's update: the previous scratch plus the sum of the block's entries. -/
theorem pay2_sum0 (x : Vec Ideal S1000x128 .f32) (s : Vec Ideal S1x1 .f32) (y : S1x1.Idx) :
    k0_pay2 (F := Ideal) x s y = s y + ∑ i : S1000x128.Idx, x i := by
  unfold k0_pay2
  dsimp only
  rw [shapeCast_self, shapeCast_self]
  show s y + _ = _
  refine congrArg (s y + ·) ?_
  have h0 : (y 0).val = 0 := by have := idx2_lt0 (n0 := 1) (n1 := 1) y; omega
  have h1 : (y 1).val = 0 := by have := idx2_lt1 (n0 := 1) (n1 := 1) y; omega
  refine (shapeCast_apply _ _ y (ix1 (0 : Fin 1)) (by
    rw [Shape.rowMajor_val_one, Shape.rowMajor_val_two]
    show 0 = (y 0).val * 1 + (y 1).val
    rw [h0, h1])).trans ?_
  refine (Ideal.multiReduction_add_single _ _ reduces_S1000x1_S1 _ _ (ix1 (0 : Fin 1))).trans ?_
  show ∑ k : Fin 1000, _ = _
  rw [sum_idx2 x]
  refine Finset.sum_congr rfl fun k _ => ?_
  have hl : reduces_S1000x1_S1.lift (ix1 (0 : Fin 1)) k = ix2 k (0 : Fin 1) := by
    funext a; match a with | ⟨0, _⟩ => rfl | ⟨1, _⟩ => rfl
  rw [hl]
  refine (Cert.Keepdims.shapeCast_a_a1_apply _ shapeCasts_S1000_S1000x1 k 0).trans ?_
  exact Cert.Keepdims.rowSum_apply x _ reduces_S1000x128_S1000 _ _ k

/-- The column-sum kernel's reset value is zero. -/
theorem pay1_zero1 (y : S1x16.Idx) : k1_pay1 (F := Ideal) y = 0 := by
  unfold k1_pay1
  rw [shapeCast_self]
  exact Ideal.ofBits_zero_f32

/-- The column-sum kernel's update, at column `q`: the previous scratch plus the sum down the block's column `q`. -/
theorem pay2_sum1 (s : Vec Ideal S1x16 .f32) (x : Vec Ideal S5000x16 .f32) (p : Fin 1) (q : Fin 16) :
    k1_pay2 (F := Ideal) s x (ix2 p q) = s (ix2 p q) + ∑ r : Fin 5000, x (ix2 r q) := by
  unfold k1_pay2
  dsimp only
  rw [shapeCast_self]
  show s (ix2 p q) + _ = _
  refine congrArg (s (ix2 p q) + ·) ?_
  have hp : p.val = 0 := by omega
  refine (shapeCast_apply _ _ (ix2 p q) (ix1 q) (by
    rw [Shape.rowMajor_val_one, Shape.rowMajor_val_two]
    show q.val = p.val * 16 + q.val
    rw [hp]; omega)).trans ?_
  refine (Ideal.multiReduction_add_single _ _ reduces_S5000x16_S16 _ _ (ix1 q)).trans ?_
  show ∑ k : Fin 5000, _ = _
  refine Finset.sum_congr rfl fun k _ => congrArg x ?_
  funext a; match a with | ⟨0, _⟩ => rfl | ⟨1, _⟩ => rfl

/-- The dot-reduce kernel's reset value is zero. -/
theorem pay1_zero2 (y : S1x1.Idx) : k2_pay1 (F := Ideal) y = 0 := by
  unfold k2_pay1
  rw [shapeCast_self]
  exact Ideal.ofBits_zero_f32

/-- The dot-reduce kernel's update: the previous scratch plus the sum of the entrywise products of its two blocks. -/
theorem pay2_sum2 (a b : Vec Ideal S16000x128 .f32) (s : Vec Ideal S1x1 .f32) (y : S1x1.Idx) :
    k2_pay2 (F := Ideal) a b s y = s y + ∑ i : S16000x128.Idx, a i * b i := by
  unfold k2_pay2
  dsimp only
  rw [shapeCast_self, shapeCast_self, shapeCast_self]
  show s y + _ = _
  refine congrArg (s y + ·) ?_
  have h0 : (y 0).val = 0 := by have := idx2_lt0 (n0 := 1) (n1 := 1) y; omega
  have h1 : (y 1).val = 0 := by have := idx2_lt1 (n0 := 1) (n1 := 1) y; omega
  refine (shapeCast_apply _ _ y (ix1 (0 : Fin 1)) (by
    rw [Shape.rowMajor_val_one, Shape.rowMajor_val_two]
    show 0 = (y 0).val * 1 + (y 1).val
    rw [h0, h1])).trans ?_
  refine (Ideal.multiReduction_add_single _ _ reduces_S16000x1_S1 _ _ (ix1 (0 : Fin 1))).trans ?_
  show ∑ k : Fin 16000, _ = _
  rw [sum_idx2 (fun i : S16000x128.Idx => a i * b i)]
  refine Finset.sum_congr rfl fun k _ => ?_
  have hl : reduces_S16000x1_S1.lift (ix1 (0 : Fin 1)) k = ix2 k (0 : Fin 1) := by
    funext a; match a with | ⟨0, _⟩ => rfl | ⟨1, _⟩ => rfl
  rw [hl]
  refine (Cert.Keepdims.shapeCast_a_a1_apply _ shapeCasts_S16000_S16000x1 k 0).trans ?_
  exact Cert.Keepdims.rowSum_apply (mulf a b) _ reduces_S16000x128_S16000 _ _ k

end Cert.KernelIdeal.Hand

end
-- ==== Proof.LibBlockedSum.lean ====
/- A sum over a range of naturals cut into consecutive blocks of equal length: summing block by block, each block
   over its places, is summing over the whole range. Stated for a function of the naturals with values in a
   commutative additive monoid, so that the blocks' terms are named by arithmetic on positions alone. -/
import Mathlib.Algebra.BigOperators.Fin
import Mathlib.Algebra.BigOperators.Intervals

open scoped BigOperators

namespace Cert.BlockedSum

variable {M : Type*} [AddCommMonoid M]

/-- Over ranges: the sum over `nb` blocks of the sum over the `bs` places of block `s`, which are the positions
    `bs * s + r`, is the sum over the first `nb * bs` positions. By induction on the number of blocks: the last
    block is the tail of the longer range. -/
theorem sum_range_blocks (f : ℕ → M) (bs : ℕ) : ∀ nb : ℕ,
    ∑ s ∈ Finset.range nb, ∑ r ∈ Finset.range bs, f (bs * s + r) = ∑ k ∈ Finset.range (nb * bs), f k
  | 0 => by simp
  | nb + 1 => by
    rw [Finset.sum_range_succ, sum_range_blocks f bs nb, Nat.succ_mul, Finset.sum_range_add, Nat.mul_comm bs nb]

/-- The same with the places of a block and the positions of the whole range as bounded naturals. -/
theorem sum_blocks_fin (f : ℕ → M) (nb bs : ℕ) :
    ∑ s ∈ Finset.range nb, ∑ r : Fin bs, f (bs * s + r.val) = ∑ k : Fin (nb * bs), f k.val := by
  rw [Fin.sum_univ_eq_sum_range f (nb * bs), ← sum_range_blocks f bs nb]
  exact Finset.sum_congr rfl fun s _ => Fin.sum_univ_eq_sum_range (fun r => f (bs * s + r)) bs

end Cert.BlockedSum
-- ==== Proof.KI.Region0Value.lean ====
/- What region 0 leaves in its output array at the ideal values: the total of the region's input array.
   The accumulator after point `n` is the sum of the blocks' sums up to `n`; the last point copies it out;
   the 25 blocks of 1000 rows are the array's 25000 rows in order. -/
import proofs.«111018_j28578712388223_1_alg».proof.Proof.KI.Region0
import proofs.«111018_j28578712388223_1_alg».proof.Proof.KI.Payloads
import proofs.«111018_j28578712388223_1_alg».proof.Proof.LibBlockedSum
import Idealize.ShloMosaic.PureOps.Ideal.Laws
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

/-! ## What the stores of each case leave: the accumulating payload of the block and the accumulator -/

section Pieces
variable {F : FTy → Type} [FloatOps F]
variable (c : Dev nD) (i : grid0.Coords)
  (arg1 : Memref sig .tc .vmem S1000x128 .f32) (harg1 : arg1.IsWhole)
  (arg2 : Memref sig .tc .vmem S1x1 .f32) (harg2 : arg2.IsWhole)
  (arg3 : Memref sig .tc .vmem S1x1 .f32) (harg3 : arg3.IsWhole)

theorem zeros2 : (![0, 0] : Fin 2 → ℕ) = fun _ => 0 := by
  funext a; match a with | ⟨0, _⟩ => rfl | ⟨1, _⟩ => rfl

/-- At the first point the accumulator ends at the payload over the block and the reset value. -/
theorem first_leaves (x : Vec F S1000x128 .f32) :
    View.canon (runFirst c i arg1 harg1 arg2 harg2 arg3 harg3 x).1 = k0_pay2 x (k0_pay1 (F := F)) := by
  unfold runFirst
  dsimp only
  sl_unfold_words
  rw [View.canon_cons_unit_zero (S := S1x1) zeros2, View.readCov_unit_zero (S := S1x1) _ zeros2]
  simp only [View.readAt_eq_ld, harg1.read_unread, View.ld_unit_zero (S := S1000x128) zeros2]

/-- At a middle point it ends at the payload over the block and what it held. -/
theorem mid_leaves (x : Vec F S1000x128 .f32) (a : Vec F S1x1 .f32) :
    View.canon (runMid c i arg1 harg1 arg2 harg2 arg3 harg3 x a).1 = k0_pay2 x a := by
  unfold runMid
  dsimp only
  sl_unfold_words
  rw [View.canon_unit_zero (S := S1x1) zeros2]
  simp only [View.readAt_eq_ld, harg1.read_unread, harg3.read_unread, View.ld_unit_zero (S := S1000x128) zeros2,
    View.ld_unit_zero (S := S1x1) zeros2]

/-- At the last point likewise, -/
theorem last_leaves (x : Vec F S1000x128 .f32) (a : Vec F S1x1 .f32) :
    View.canon (runLast c i arg1 harg1 arg2 harg2 arg3 harg3 x a).2.1 = k0_pay2 x a := by
  unfold runLast
  dsimp only
  sl_unfold_words
  rw [View.canon_unit_zero (S := S1x1) zeros2]
  simp only [View.readAt_eq_ld, harg1.read_unread, harg3.read_unread, View.ld_unit_zero (S := S1000x128) zeros2,
    View.ld_unit_zero (S := S1x1) zeros2]

/-- and the output buffer takes the same value: the accumulator read back after its store. -/
theorem last_emits (x : Vec F S1000x128 .f32) (a : Vec F S1x1 .f32) :
    View.canon (runLast c i arg1 harg1 arg2 harg2 arg3 harg3 x a).1 = k0_pay2 x a := by
  unfold runLast
  dsimp only
  sl_unfold_words
  rw [View.canon_unit_zero (S := S1x1) zeros2, View.readCov_unit_zero (S := S1x1) _ zeros2]
  simp only [View.readAt_eq_ld, harg1.read_unread, harg3.read_unread, View.ld_unit_zero (S := S1000x128) zeros2,
    View.ld_unit_zero (S := S1x1) zeros2]

end Pieces

/-! ## The blocks in the array -/

/-- The input window's block index at a point: the point itself on the rows, zero on the lanes. -/
theorem in_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The output window's one block sits at the origin and is the whole array, at every point. -/
theorem out_index : ∀ t : Fin cfg0.N, ∀ a : Fin 2,
    win0_1.index t a * win0_1.size a = 0 ∧ win0_1.xsize (grid0.coords t) a = 1 :=
  (by decide +kernel : ∀ t : Fin grid0.N, ∀ a : Fin 2,
    win0_1.index t a * win0_1.size a = 0 ∧ win0_1.xsize (grid0.coords t) a = 1)

section Total
variable (V : (c : Dev nD) → (b : Ref sig .tc) → Buf (Elt Ideal) ((c : Thread nD τ).loc b))

/-- The region's input array as it finds it, at its literal type. -/
abbrev xarr (c : Dev nD) : Vec Ideal S25000x128 .f32 := V c main_v0

/-- The input block at a point, at its literal type. -/
abbrev xb (c : Dev nD) (t : Fin cfg0.N) : Vec Ideal S1000x128 .f32 := xblk V c t

/-- Row `r`, lane `l` of the block at point `t` is row `1000 t + r`, lane `l` of the array. -/
theorem xb_apply (c : Dev nD) (t : Fin cfg0.N) (r : Fin 1000) (l : Fin 128) (h : 1000 * t.val + r.val < 25000) :
    xb V c t (ix2 r l) = xarr V c (ix2 ⟨1000 * t.val + r.val, h⟩ l) := by
  show V c main_v0 (((cfg0.win 0).blk t).view.emb (ix2 r l)) = V c main_v0 (ix2 ⟨1000 * t.val + r.val, h⟩ l)
  refine congrArg (V c main_v0) ?_
  funext a; apply Fin.ext
  match a with
  | ⟨0, _⟩ =>
    show win0_0.index t (0 : Fin 2) * 1000 + 1 * r.val = 1000 * t.val + r.val
    rw [(in_index t).1]; omega
  | ⟨1, _⟩ =>
    show win0_0.index t (1 : Fin 2) * 128 + 1 * l.val = l.val
    rw [(in_index t).2]; omega

/-- Every index of the output array lies in the block of any point. -/
theorem mem_out (t : Fin cfg0.N) (i : S1x1.Idx) : i ∈ ((cfg0.win 1).blk t).view.set := by
  show i ∈ ((View.whole main_v1).slice (win0_1.rect t)).set
  rw [View.set_slice_whole, Rect.mem_set_unit]
  intro a
  have hs : S1x1.size a = 1 := by match a with | ⟨0, _⟩ => rfl | ⟨1, _⟩ => rfl
  have hi : (i a : ℕ) < 1 := lt_of_lt_of_eq (i a).isLt hs
  show win0_1.index t a * win0_1.size a ≤ (i a : ℕ) ∧ (i a : ℕ) < win0_1.index t a * win0_1.size a + win0_1.xsize (grid0.coords t) a
  rw [(out_index t a).1, (out_index t a).2]; omega

end Total

section Total
variable (V : (c : Dev nD) → (b : Ref sig .tc) → Buf (Elt Ideal) ((c : Thread nD τ).loc b))

/-! ## The accumulator is the running sum of the blocks' sums -/

/-- The sum of the block at point `t`. -/
def bsum (c : Dev nD) (t : Fin cfg0.N) : EReal := ∑ y : S1000x128.Idx, xb V c t y

/-- After the first point: zero plus the first block's sum. -/
theorem acc_zero (c : Dev nD) (h : 0 < cfg0.N) (j : S1x1.Idx) : accAfter V c 0 h j = bsum V c ⟨0, h⟩ := by
  show View.canon (runFirst c (grid0.coords ⟨0, h⟩) (mIn ⟨0, h⟩) (hIn ⟨0, h⟩) (mOut ⟨0, h⟩) (hOut ⟨0, h⟩) scM (Memref.isWhole_whole _) (xblk V c ⟨0, h⟩)).1 j = _
  refine (congrFun (first_leaves (F := Ideal) c (grid0.coords ⟨0, h⟩) (mIn ⟨0, h⟩) (hIn ⟨0, h⟩) (mOut ⟨0, h⟩) (hOut ⟨0, h⟩) scM (Memref.isWhole_whole _) (xblk V c ⟨0, h⟩)) j).trans ?_
  refine (pay2_sum0 (xb V c ⟨0, h⟩) (k0_pay1 (F := Ideal)) j).trans ?_
  refine (congrArg (fun z => z + ∑ y : S1000x128.Idx, xb V c ⟨0, h⟩ y) (pay1_zero0 j)).trans ?_
  exact zero_add _

/-- After a later point: what the point before left plus this block's sum, whichever case the point is in. -/
theorem acc_succ (c : Dev nD) (n : ℕ) (h : n + 1 < cfg0.N) (j : S1x1.Idx) :
    accAfter V c (n + 1) h j = accAfter V c n (Nat.lt_of_succ_lt h) j + bsum V c ⟨n + 1, h⟩ := by
  by_cases h24 : n + 1 = 24
  · have e : accAfter V c (n + 1) h
        = View.canon (runLast c (grid0.coords ⟨n + 1, h⟩) (mIn ⟨n + 1, h⟩) (hIn ⟨n + 1, h⟩) (mOut ⟨n + 1, h⟩) (hOut ⟨n + 1, h⟩) scM (Memref.isWhole_whole _) (xblk V c ⟨n + 1, h⟩) (accAfter V c n (Nat.lt_of_succ_lt h))).2.1 := if_pos h24
    rw [e]
    refine (congrFun (last_leaves (F := Ideal) c (grid0.coords ⟨n + 1, h⟩) (mIn ⟨n + 1, h⟩) (hIn ⟨n + 1, h⟩) (mOut ⟨n + 1, h⟩) (hOut ⟨n + 1, h⟩) scM (Memref.isWhole_whole _) (xblk V c ⟨n + 1, h⟩) (accAfter V c n (Nat.lt_of_succ_lt h))) j).trans ?_
    exact pay2_sum0 (xb V c ⟨n + 1, h⟩) (accAfter V c n (Nat.lt_of_succ_lt h)) j
  · have e : accAfter V c (n + 1) h
        = View.canon (runMid c (grid0.coords ⟨n + 1, h⟩) (mIn ⟨n + 1, h⟩) (hIn ⟨n + 1, h⟩) (mOut ⟨n + 1, h⟩) (hOut ⟨n + 1, h⟩) scM (Memref.isWhole_whole _) (xblk V c ⟨n + 1, h⟩) (accAfter V c n (Nat.lt_of_succ_lt h))).1 := if_neg h24
    rw [e]
    refine (congrFun (mid_leaves (F := Ideal) c (grid0.coords ⟨n + 1, h⟩) (mIn ⟨n + 1, h⟩) (hIn ⟨n + 1, h⟩) (mOut ⟨n + 1, h⟩) (hOut ⟨n + 1, h⟩) scM (Memref.isWhole_whole _) (xblk V c ⟨n + 1, h⟩) (accAfter V c n (Nat.lt_of_succ_lt h))) j).trans ?_
    exact pay2_sum0 (xb V c ⟨n + 1, h⟩) (accAfter V c n (Nat.lt_of_succ_lt h)) j

/-- The blocks' sums as a function of the naturals, zero past the grid. -/
def bsumN (c : Dev nD) (t : ℕ) : EReal := if h : t < cfg0.N then bsum V c ⟨t, h⟩ else 0

/-- So after point `n` the accumulator holds the sum of the blocks' sums up to `n`. -/
theorem acc_eq_sum (c : Dev nD) : ∀ (n : ℕ) (h : n < cfg0.N) (j : S1x1.Idx),
    accAfter V c n h j = ∑ t ∈ Finset.range (n + 1), bsumN V c t
  | 0, h, j => by
    rw [acc_zero V c h j, Finset.sum_range_one]
    unfold bsumN; rw [dif_pos h]
  | n + 1, h, j => by
    rw [acc_succ V c n h j, acc_eq_sum c n (Nat.lt_of_succ_lt h) j, Finset.sum_range_succ _ (n + 1)]
    refine congrArg _ ?_
    unfold bsumN; rw [dif_pos h]

/-! ## The blocks' sums are the array's rows' sums, in order -/

/-- The sum of row `a` of the array, zero past its rows. -/
def rowN (c : Dev nD) (a : ℕ) : EReal := if h : a < 25000 then ∑ l : Fin 128, xarr V c (ix2 ⟨a, h⟩ l) else 0

/-- Block `t`'s sum is the sum of the rows `1000 t … 1000 t + 999`. -/
theorem bsumN_eq (c : Dev nD) (t : ℕ) (ht : t < 25) : bsumN V c t = ∑ r : Fin 1000, rowN V c (1000 * t + r.val) := by
  have hN : t < cfg0.N := lt_of_lt_of_eq ht N_0.symm
  unfold bsumN; rw [dif_pos hN]; unfold bsum
  refine (sum_idx2 (n0 := 1000) (n1 := 128) (fun y => xb V c ⟨t, hN⟩ y)).trans ?_
  refine Finset.sum_congr rfl fun r _ => ?_
  have hr : 1000 * t + r.val < 25000 := by have := r.isLt; omega
  unfold rowN; rw [dif_pos hr]
  exact Finset.sum_congr rfl fun l _ => xb_apply V c ⟨t, hN⟩ r l hr

/-- The 25 blocks of 1000 rows are the 25000 rows: the blocks' sums add up to the array's total. -/
theorem total_eq (c : Dev nD) : ∑ t ∈ Finset.range 25, bsumN V c t = ∑ i : S25000x128.Idx, xarr V c i := by
  rw [Finset.sum_congr rfl (fun t ht => bsumN_eq V c t (Finset.mem_range.mp ht))]
  rw [Cert.BlockedSum.sum_blocks_fin (rowN V c) 25 1000]
  refine Eq.trans ?_ (sum_idx2 (n0 := 25000) (n1 := 128) (fun i => xarr V c i)).symm
  show ∑ k : Fin 25000, rowN V c k.val = _
  refine Finset.sum_congr rfl fun k _ => ?_
  unfold rowN; rw [dif_pos k.isLt]

end Total

/-! ## The output array after the region -/

/-- At the last point the output buffer takes the array's total. -/
theorem outAfter_last (V : (c : Dev nD) → (b : Ref sig .tc) → Buf (Elt Ideal) ((c : Thread nD τ).loc b)) (c : Dev nD)
    (t : Fin cfg0.N) (ht : t.val = 24) (y : S1x1.Idx) :
    outAfter V c t y = ∑ i : S25000x128.Idx, xarr V c i := by
  unfold outAfter
  refine (congrFun (last_emits (F := Ideal) c (grid0.coords t) (mIn t) (hIn t) (mOut t) (hOut t) scM (Memref.isWhole_whole _) (xblk V c t) (accBefore V c t)) y).trans ?_
  refine (pay2_sum0 (xb V c t) (accBefore V c t) y).trans ?_
  obtain ⟨n, hn⟩ := t
  change n = 24 at ht
  subst ht
  rw [← total_eq V c, Finset.sum_range_succ _ 24]
  refine congrArg₂ (· + ·) ?_ ?_
  · exact acc_eq_sum V c 23 (Nat.lt_of_succ_lt hn) y
  · unfold bsumN; rw [dif_pos hn]; rfl

/-- Region 0 leaves in its output array the total of its input array (the array named at its literal type). -/
theorem out0_total_xarr (V : (c : Dev nD) → (b : Ref sig .tc) → Buf (Elt Ideal) ((c : Thread nD τ).loc b)) (c : Dev nD) :
    (dat0 (F := Ideal) V c).arrAt 1 cfg0.N = fun _ => ∑ i : S25000x128.Idx, xarr V c i := by
  have h24 : 24 < cfg0.N := lt_of_lt_of_eq (show 24 < 25 by norm_num) N_0.symm
  refine (dat0 V c).arrAt_eq_of_cover 1 _ (fun t hf => ?_) (fun i => ⟨⟨24, h24⟩, (flush0_1 _).mpr rfl, mem_out _ i⟩)
  have ht : t.val = 24 := by
    have h1 := (flush0_1 t).mp hf
    have h2 : t.val < 25 := lt_of_lt_of_eq t.isLt N_0
    omega
  refine Eq.trans (congrArg ((cfg0.win 1).cut (grid0.coords t))
    ((after0_out V c t).trans (funext (outAfter_last V c t ht)))) ?_
  funext y
  exact (cast_eq _ _).symm

/-- The same with the array spelt as the entry contents read at its buffer type, the sum taken in the extended reals. -/
theorem out0_total (V : (c : Dev nD) → (b : Ref sig .tc) → Buf (Elt Ideal) ((c : Thread nD τ).loc b)) (c : Dev nD) :
    (dat0 (F := Ideal) V c).arrAt 1 cfg0.N
      = fun _ => (∑ i : S25000x128.Idx, ((V c main_v0 : (⟨S25000x128, .f32⟩ : BufTy).Contents (Elt Ideal)) i : EReal) : EReal) :=
  out0_total_xarr V c

end Cert.KernelIdeal.Hand

end
-- ==== Proof.KI.Region1Value.lean ====
/- Region 1 of @main at the ideal values: what the column-sum region leaves in its output array, as a plain sum over the
   rows of its input array. The accumulator after n points holds, column by column, the sum of the first n blocks; the
   blocks are consecutive runs of 5000 rows, so after all 20 points it holds each column's sum over all 100000 rows; the
   one write-back, at the last point, writes it over the whole 1 × 16 output array. -/
import proofs.«111018_j28578712388223_1_alg».proof.Proof.KI.Region1
import proofs.«111018_j28578712388223_1_alg».proof.Proof.KI.Payloads
import proofs.«111018_j28578712388223_1_alg».proof.Proof.LibBlockedSum
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The input's blocks as rows of the array (at any values) -/

section
variable {F : FTy → Type} [FloatOps F]
variable (V : (c : Dev nD) → (b : Ref sig .tc) → Buf (Elt F) ((c : Thread nD τ).loc b))

/-- The input window's block index at point t: t along the rows, 0 along the columns. -/
theorem index1_0 : ∀ t : Fin cfg1.N, win1_0.index t 0 = t.val ∧ win1_0.index t 1 = 0 :=
  (by decide +kernel : ∀ t : Fin grid1.N, win1_0.index t 0 = t.val ∧ win1_0.index t 1 = 0)

/-- The block at point t is rows 5000·t … 5000·t + 4999 of the array: entry (r, q) of the block is entry
    (5000·t + r, q) of the array. -/
theorem xblk1_apply (c : Dev nD) (t : Fin cfg1.N) (r : Fin 5000) (q : Fin 16) (h : 5000 * t.val + r.val < 100000) :
    xblk1 V c t (ix2 r q) = (V c main_arg0 : S100000x16.Idx → Elt F .f32) (ix2 ⟨5000 * t.val + r.val, h⟩ q) := by
  have hi := index1_0 t
  unfold xblk1 iblk1
  rw [View.read_apply]
  show (V c main_arg0 : S100000x16.Idx → Elt F .f32) _ = (V c main_arg0 : S100000x16.Idx → Elt F .f32) _
  congr 1
  funext a
  apply Fin.ext
  match a with
  | ⟨0, _⟩ => show win1_0.index t 0 * 5000 + 1 * r.val = 5000 * t.val + r.val; rw [hi.1]; omega
  | ⟨1, _⟩ => show win1_0.index t 1 * 16 + 1 * q.val = q.val; rw [hi.2]; omega

/-- The last point of the grid. -/
abbrev t19 : Fin cfg1.N := ⟨19, by rw [show cfg1.N = 20 from N_1]; decide⟩

/-- What the region leaves in its output array: the accumulator after the last point. -/
abbrev res1 (c : Dev nD) : Buf (Elt F) ((c : Thread nD τ).loc main_v3) := scr1 V c 20 (le_of_eq N_1.symm)

/-- The one write-back, at the last point, writes it: the output's one block, read through zero offsets, is the array. -/
theorem flushed1_eq (c : Dev nD) (t : Fin cfg1.N) (hf : (cfg1.win 1).flush t = true) :
    (dat1 V c).flushed 1 t = ((cfg1.win 1).blk t).view.read (Elt F) (res1 V c) := by
  have hN : cfg1.N = 20 := N_1
  have h19 : t.val = 19 := by have := (flush1_1 t).mp hf; have := t.isLt; omega
  obtain rfl : t = t19 := Fin.ext h19
  show (cfg1.win 1).cut (grid1.coords t19) ((dat1 V c).after 1 t19) = _
  rw [after1_1]
  have hz' : (fun a => win1_1.index t19 a * main_v3.ty.shape.size a) = fun _ => 0 :=
    funext fun a => by fin_cases a <;> decide
  exact (Memref.read_access_unit_zero (Elt F) main_v3 hz' (fun a => by rw [congrFun hz' a]; simp) (res1 V c)).symm

/-- So the output array ends holding the accumulator's last contents: the last point's block covers the array. -/
theorem final1 (c : Dev nD) : (dat1 V c).arrAt 1 cfg1.N = res1 V c :=
  (dat1 V c).arrAt_eq_of_cover 1 (res1 V c) (flushed1_eq V c) fun i =>
    ⟨t19, (flush1_1 t19).mpr rfl, by
      show i ∈ ((View.whole main_v3).slice (win1_1.rect t19)).set
      rw [View.set_slice_whole, Rect.mem_set_unit]
      intro a
      have h0 : (i 0 : Nat) < 1 := (i 0).isLt
      have h1 : (i 1 : Nat) < 16 := (i 1).isLt
      match a with
      | ⟨0, _⟩ => exact ⟨Nat.zero_le _, by show (i 0 : Nat) < 0 + 1; omega⟩
      | ⟨1, _⟩ => exact ⟨Nat.zero_le _, by show (i 1 : Nat) < 0 + 16; omega⟩⟩

end

/-! ## At the ideal values: the accumulator is a sum -/

section
variable (V : (c : Dev nD) → (b : Ref sig .tc) → Buf (Elt Ideal) ((c : Thread nD τ).loc b))

/-- Column q of the input array as a function of the row's position, zero past the last row: the blocks' entries
    are named by arithmetic on positions alone. -/
def colf (c : Dev nD) (q : Fin 16) : ℕ → EReal :=
  fun k => if h : k < 100000 then (V c main_arg0 : S100000x16.Idx → EReal) (ix2 ⟨k, h⟩ q) else 0

/-- The accumulator when the body at position n loads it holds, in column q, the sum of the first n blocks' columns q. -/
theorem scr1_sum (c : Dev nD) : ∀ (n : ℕ) (h : n ≤ cfg1.N) (q : Fin 16),
    (scr1 (F := Ideal) V c n h : S1x16.Idx → EReal) (ix2 (0 : Fin 1) q)
      = ∑ s ∈ Finset.range n, ∑ r : Fin 5000, colf V c q (5000 * s + r.val)
  | 0, h, q => by
    rw [Finset.sum_range_zero]
    exact pay1_zero1 (ix2 (0 : Fin 1) q)
  | n + 1, h, q => by
    have hN : cfg1.N = 20 := N_1
    rw [Finset.sum_range_succ, ← scr1_sum c n (Nat.le_of_succ_le h) q]
    refine (pay2_sum1 (scr1 (F := Ideal) V c n (Nat.le_of_succ_le h)) (xblk1 V c ⟨n, h⟩) (0 : Fin 1) q).trans ?_
    refine congrArg (_ + ·) (Finset.sum_congr rfl fun r _ => ?_)
    have hb : 5000 * n + r.val < 100000 := by have := r.isLt; omega
    refine (xblk1_apply V c ⟨n, h⟩ r q hb).trans ?_
    unfold colf
    rw [dif_pos hb]

/-- WHAT REGION 1 LEAVES IN ITS OUTPUT ARRAY: in column q, the sum of column q of the input array over all its rows. -/
theorem out1_colsums (c : Dev nD) :
    (dat1 (F := Ideal) V c).arrAt 1 cfg1.N
      = (fun j => ∑ r : Fin 100000, (V c main_arg0 : S100000x16.Idx → EReal) (ix2 r (j 1)) : S1x16.Idx → EReal) := by
  rw [final1 V c]
  funext j
  obtain ⟨p, q, rfl⟩ : ∃ (p : Fin 1) (q : Fin 16), j = ix2 p q := ⟨j 0, j 1, eq_ix2 j⟩
  obtain rfl : p = 0 := Subsingleton.elim _ _
  show (scr1 (F := Ideal) V c 20 (le_of_eq N_1.symm) : S1x16.Idx → EReal) (ix2 (0 : Fin 1) q)
    = (∑ r : Fin 100000, (V c main_arg0 : S100000x16.Idx → EReal) (ix2 r q) : EReal)
  rw [scr1_sum V c 20 _ q, Cert.BlockedSum.sum_blocks_fin (colf V c q) 20 5000, Fin.sum_univ_eq_sum_range (colf V c q) (20 * 5000),
    show (20 * 5000 : ℕ) = 100000 from rfl, ← Fin.sum_univ_eq_sum_range (colf V c q) 100000]
  refine Finset.sum_congr rfl fun r _ => ?_
  unfold colf
  rw [dif_pos r.isLt]

end

end Cert.KernelIdeal.Hand

end
-- ==== Proof.KI.Region2Value.lean ====
/- What region 2 leaves in its result array: the sum over the whole of the two operand arrays of their
   entries' products. -/
import proofs.«111018_j28578712388223_1_alg».proof.Proof.KI.Region2
import proofs.«111018_j28578712388223_1_alg».proof.Proof.KI.Payloads
import proofs.«111018_j28578712388223_1_alg».proof.Proof.LibBlockedSum
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Pieces
variable {F : FTy → Type} [FloatOps F]
variable (V : (c : Dev nD) → (b : Ref sig .tc) → Buf (Elt F) ((c : Thread nD τ).loc b))

/-- The zero offsets of a whole-buffer access, however they are spelt. -/
theorem off00 : (![0, 0] : Fin 2 → ℕ) = fun _ => 0 := by
  funext a; fin_cases a <;> rfl

/-! ## Each point's stored pieces read as the kernel's arithmetic -/

/-- The first point leaves the update of the cleared accumulator by the first blocks. -/
theorem accFirst2_eq (c : Dev nD) (t : Fin cfg2.N) (h0 : t.val = 0) :
    accFirst2 V c t h0 = k2_pay2 (blkA2 V c t) (blkB2 V c t) (k2_pay1 (F := F)) := by
  unfold accFirst2 runFirst2
  dsimp only
  sl_unfold_words
  rw [View.canon_cons_unit_zero (S := S1x1) off00, View.readCov_unit_zero (S := S1x1) _ off00]
  simp only [View.readAt_eq_ld, Memref.IsWhole.read_unread, View.ld_unit_zero (S := S16000x128) off00]

/-- A point strictly inside the grid leaves the update of what it found by its blocks. -/
theorem accMid2_eq (c : Dev nD) (t : Fin cfg2.N) (h0 : t.val ≠ 0) (h1 : t.val ≠ 24) (xs : Vec F S1x1 .f32) :
    accMid2 V c t h0 h1 xs = k2_pay2 (blkA2 V c t) (blkB2 V c t) xs := by
  unfold accMid2 runMid2
  dsimp only
  sl_unfold_words
  rw [View.canon_unit_zero (S := S1x1) off00]
  simp only [View.readAt_eq_ld, Memref.IsWhole.read_unread, View.ld_unit_zero (S := S16000x128) off00, View.ld_unit_zero (S := S1x1) off00]
  exact congrArg (k2_pay2 (blkA2 V c t) (blkB2 V c t)) ((Memref.isWhole_whole cc2_scratch0).read_unread xs)

/-- So does the last point, -/
theorem accLast2_eq (c : Dev nD) (t : Fin cfg2.N) (h0 : t.val ≠ 0) (h1 : t.val = 24) (xs : Vec F S1x1 .f32) :
    accLast2 V c t h0 h1 xs = k2_pay2 (blkA2 V c t) (blkB2 V c t) xs := by
  unfold accLast2 runLast2
  dsimp only
  sl_unfold_words
  rw [View.canon_unit_zero (S := S1x1) off00]
  simp only [View.readAt_eq_ld, Memref.IsWhole.read_unread, View.ld_unit_zero (S := S16000x128) off00, View.ld_unit_zero (S := S1x1) off00]
  exact congrArg (k2_pay2 (blkA2 V c t) (blkB2 V c t)) ((Memref.isWhole_whole cc2_scratch0).read_unread xs)

/-- and the result block it stores is a copy of that. -/
theorem resLast2_eq (c : Dev nD) (t : Fin cfg2.N) (h0 : t.val ≠ 0) (h1 : t.val = 24) (xs : Vec F S1x1 .f32) :
    resLast2 V c t h0 h1 xs = k2_pay2 (blkA2 V c t) (blkB2 V c t) xs := by
  unfold resLast2 runLast2
  dsimp only
  sl_unfold_words
  rw [View.canon_unit_zero (S := S1x1) off00, View.readCov_unit_zero (S := S1x1) _ off00]
  simp only [View.readAt_eq_ld, Memref.IsWhole.read_unread, View.ld_unit_zero (S := S16000x128) off00, View.ld_unit_zero (S := S1x1) off00]
  exact congrArg (k2_pay2 (blkA2 V c t) (blkB2 V c t)) ((Memref.isWhole_whole cc2_scratch0).read_unread xs)

end Pieces

section Value
variable (V : (c : Dev nD) → (b : Ref sig .tc) → Buf (Elt Ideal) ((c : Thread nD τ).loc b))

/-! ## The operand blocks inside the operand arrays -/

/-- The two operand arrays as the region finds them. -/
abbrev arrA2 (c : Dev nD) : S400000x128.Idx → EReal := V c main_v25
abbrev arrB2 (c : Dev nD) : S400000x128.Idx → EReal := V c main_v26

/-- Both operands' block at point `t` is block `t` down the rows, the whole width. -/
theorem idx2_0 : ∀ t : Fin cfg2.N, win2_0.index t 0 = t.val ∧ win2_0.index t 1 = 0 := by decide +kernel
theorem idx2_1 : ∀ t : Fin cfg2.N, win2_1.index t 0 = t.val ∧ win2_1.index t 1 = 0 := by decide +kernel

/-- So its entry `(r, q)` is the array's entry `(16000 t + r, q)`. -/
theorem blkA2_apply (c : Dev nD) (t : Fin cfg2.N) (r : Fin 16000) (q : Fin 128) (h : 16000 * t.val + r.val < 400000) :
    (blkA2 V c t (ix2 r q) : EReal) = arrA2 V c (ix2 ⟨16000 * t.val + r.val, h⟩ q) := by
  unfold blkA2
  rw [View.read_apply]
  show V c main_v25 _ = V c main_v25 _
  congr 1
  funext a
  apply Fin.ext
  match a with
  | ⟨0, _⟩ => show win2_0.index t 0 * 16000 + 1 * r.val = 16000 * t.val + r.val; rw [(idx2_0 t).1]; omega
  | ⟨1, _⟩ => show win2_0.index t 1 * 128 + 1 * q.val = q.val; rw [(idx2_0 t).2]; omega

theorem blkB2_apply (c : Dev nD) (t : Fin cfg2.N) (r : Fin 16000) (q : Fin 128) (h : 16000 * t.val + r.val < 400000) :
    (blkB2 V c t (ix2 r q) : EReal) = arrB2 V c (ix2 ⟨16000 * t.val + r.val, h⟩ q) := by
  unfold blkB2
  rw [View.read_apply]
  show V c main_v26 _ = V c main_v26 _
  congr 1
  funext a
  apply Fin.ext
  match a with
  | ⟨0, _⟩ => show win2_1.index t 0 * 16000 + 1 * r.val = 16000 * t.val + r.val; rw [(idx2_1 t).1]; omega
  | ⟨1, _⟩ => show win2_1.index t 1 * 128 + 1 * q.val = q.val; rw [(idx2_1 t).2]; omega

/-! ## The accumulator after each point: the blocks' sums so far -/

/-- The sum of the two operands' products over the block at position `s` (zero past the grid). -/
def bsum2 (c : Dev nD) (s : ℕ) : EReal :=
  if h : s < cfg2.N then ∑ i : S16000x128.Idx, (blkA2 V c ⟨s, h⟩ i : EReal) * (blkB2 V c ⟨s, h⟩ i : EReal) else 0

/-- After point `n` the accumulator's one entry is the sum of the blocks' sums up to `n`: the first point
    starts it from zero, every later point adds its block's. -/
theorem accAt2_sum (c : Dev nD) : ∀ (n : ℕ) (hn : n < cfg2.N) (j : S1x1.Idx),
    (accAt2 V c n hn j : EReal) = ∑ s ∈ Finset.range (n + 1), bsum2 V c s
  | 0, hn, j => by
    refine (congrFun (accFirst2_eq V c ⟨0, hn⟩ rfl) j).trans ?_
    refine (pay2_sum2 (blkA2 V c ⟨0, hn⟩) (blkB2 V c ⟨0, hn⟩) (k2_pay1 (F := Ideal)) j).trans ?_
    rw [pay1_zero2 j, zero_add, Finset.sum_range_one]
    exact (show bsum2 V c 0 = ∑ i : S16000x128.Idx, (blkA2 V c ⟨0, hn⟩ i : EReal) * (blkB2 V c ⟨0, hn⟩ i : EReal) from dif_pos hn).symm
  | n + 1, hn, j => by
    have ih := accAt2_sum c n (Nat.lt_of_succ_lt hn) j
    have hb : bsum2 V c (n + 1)
        = ∑ i : S16000x128.Idx, (blkA2 V c ⟨n + 1, hn⟩ i : EReal) * (blkB2 V c ⟨n + 1, hn⟩ i : EReal) := dif_pos hn
    rw [Finset.sum_range_succ, ← ih, hb]
    by_cases h1 : n + 1 = 24
    · refine (congrFun ((show accAt2 V c (n + 1) hn
          = accLast2 V c ⟨n + 1, hn⟩ (Nat.succ_ne_zero n) h1 (accAt2 V c n (Nat.lt_of_succ_lt hn)) from dif_pos h1).trans
        (accLast2_eq V c ⟨n + 1, hn⟩ (Nat.succ_ne_zero n) h1 (accAt2 V c n (Nat.lt_of_succ_lt hn)))) j).trans ?_
      exact pay2_sum2 (blkA2 V c ⟨n + 1, hn⟩) (blkB2 V c ⟨n + 1, hn⟩) (accAt2 V c n (Nat.lt_of_succ_lt hn)) j
    · refine (congrFun ((show accAt2 V c (n + 1) hn
          = accMid2 V c ⟨n + 1, hn⟩ (Nat.succ_ne_zero n) h1 (accAt2 V c n (Nat.lt_of_succ_lt hn)) from dif_neg h1).trans
        (accMid2_eq V c ⟨n + 1, hn⟩ (Nat.succ_ne_zero n) h1 (accAt2 V c n (Nat.lt_of_succ_lt hn)))) j).trans ?_
      exact pay2_sum2 (blkA2 V c ⟨n + 1, hn⟩) (blkB2 V c ⟨n + 1, hn⟩) (accAt2 V c n (Nat.lt_of_succ_lt hn)) j

/-! ## The blocks' sums together: one sum over the arrays -/

/-- One row's sum of products in the whole arrays (zero past the last row). -/
def rowDot2 (c : Dev nD) (k : ℕ) : EReal :=
  if h : k < 400000 then ∑ q : Fin 128, arrA2 V c (ix2 ⟨k, h⟩ q) * arrB2 V c (ix2 ⟨k, h⟩ q) else 0

/-- A block's sum is the sum of its 16000 rows' sums. -/
theorem bsum2_rows (c : Dev nD) (s : ℕ) (hs : s < 25) :
    bsum2 V c s = ∑ r : Fin 16000, rowDot2 V c (16000 * s + r.val) := by
  have hN : s < cfg2.N := lt_of_lt_of_eq hs N_2.symm
  rw [show bsum2 V c s = ∑ i : S16000x128.Idx, (blkA2 V c ⟨s, hN⟩ i : EReal) * (blkB2 V c ⟨s, hN⟩ i : EReal) from dif_pos hN]
  rw [sum_idx2]
  refine Finset.sum_congr rfl fun r _ => ?_
  have hk : 16000 * s + r.val < 400000 := by have := r.isLt; omega
  rw [show rowDot2 V c (16000 * s + r.val)
      = ∑ q : Fin 128, arrA2 V c (ix2 ⟨16000 * s + r.val, hk⟩ q) * arrB2 V c (ix2 ⟨16000 * s + r.val, hk⟩ q) from dif_pos hk]
  refine Finset.sum_congr rfl fun q _ => ?_
  rw [blkA2_apply V c ⟨s, hN⟩ r q hk, blkB2_apply V c ⟨s, hN⟩ r q hk]

/-- The 25 blocks' sums together are the sum over the whole arrays. -/
theorem total2 (c : Dev nD) :
    ∑ s ∈ Finset.range 25, bsum2 V c s = ∑ i : S400000x128.Idx, arrA2 V c i * arrB2 V c i := by
  rw [Finset.sum_congr rfl (fun s hs => bsum2_rows V c s (Finset.mem_range.mp hs))]
  rw [Cert.BlockedSum.sum_blocks_fin (rowDot2 V c) 25 16000, sum_idx2]
  show ∑ k : Fin 400000, rowDot2 V c k.val = _
  refine Finset.sum_congr rfl fun k _ => ?_
  exact dif_pos k.isLt

end Value

section Final
variable (V : (c : Dev nD) → (b : Ref sig .tc) → Buf (Elt Ideal) ((c : Thread nD τ).loc b))

/-! ## The result array after the region -/

/-- The sum over the whole operand arrays of their entries' products. -/
def dot2 (c : Dev nD) : EReal := ∑ i : S400000x128.Idx, arrA2 V c i * arrB2 V c i

/-- The result array holding that sum at its one place. -/
def dotArr2 (c : Dev nD) : Buf (Elt Ideal) ((cfg2.win 2).arr.view.loc (c.tc : Thread nD τ)) := fun _ => dot2 V c

/-- The last point. -/
abbrev tLast2 : Fin cfg2.N := ⟨24, by decide⟩

/-- The result window's one block is its whole one-place array. -/
theorem idx2_2 : ∀ t : Fin cfg2.N, ∀ a, win2_2.index t a * win2_2.size a = 0 := by decide +kernel
theorem xsize2_2 : ∀ t : Fin cfg2.N, ∀ a, win2_2.xsize (grid2.coords t) a = 1 := by decide +kernel

/-- What a point after the first found in the accumulator, with its own block's sum, is the sum of the
    blocks' sums up to it. -/
theorem acc_step2 (c : Dev nD) (t : Fin cfg2.N) (h0 : t.val ≠ 0) (y : S1x1.Idx) :
    (accAt2 V c (t.val - 1) (Nat.lt_of_le_of_lt (Nat.sub_le _ _) t.isLt) y : EReal)
        + ∑ i : S16000x128.Idx, (blkA2 V c t i : EReal) * (blkB2 V c t i : EReal)
      = ∑ s ∈ Finset.range (t.val + 1), bsum2 V c s := by
  have e : t.val - 1 + 1 = t.val := by omega
  rw [accAt2_sum V c (t.val - 1) (Nat.lt_of_le_of_lt (Nat.sub_le _ _) t.isLt) y, e, Finset.sum_range_succ]
  exact congrArg (fun z : EReal => (∑ s ∈ Finset.range t.val, bsum2 V c s) + z)
    (show bsum2 V c t.val = ∑ i : S16000x128.Idx, (blkA2 V c t i : EReal) * (blkB2 V c t i : EReal) from dif_pos t.isLt).symm

/-- The last point, the only one that writes back, writes back the whole sum. -/
theorem flushed2_eq (c : Dev nD) (t : Fin cfg2.N) (hf : (cfg2.win 2).flush t = true) :
    (dat2 V c).flushed 2 t = ((cfg2.win 2).blk t).view.read (Elt Ideal) (dotArr2 V c) := by
  have hN : t.val < 25 := lt_of_lt_of_eq t.isLt N_2
  have h24 : t.val = 24 := by have := (flush2_2 t).mp hf; omega
  have h0 : t.val ≠ 0 := by omega
  obtain rfl : t = tLast2 := Fin.ext h24
  have hz : (fun a => win2_2.index tLast2 a * main_v27.ty.shape.size a) = fun _ => 0 :=
    funext fun a => by fin_cases a <;> decide
  refine Eq.trans ?_ (Memref.read_access_unit_zero (Elt Ideal) main_v27 hz (fun a => by rw [congrFun hz a]; simp) (dotArr2 V c)).symm
  funext y
  have e1 : (dat2 V c).flushed 2 tLast2 y = (dat2 V c).after 2 tLast2 ((cfg2.win 2).xinj (grid2.coords tLast2) y) := rfl
  rw [e1, after2_2 V c tLast2 h0 h24]
  show _ = dot2 V c
  refine (congrFun (resLast2_eq V c tLast2 h0 h24 (accAt2 V c (tLast2.val - 1) (Nat.lt_of_le_of_lt (Nat.sub_le _ _) tLast2.isLt)))
    ((cfg2.win 2).xinj (grid2.coords tLast2) y)).trans ?_
  refine (pay2_sum2 (blkA2 V c tLast2) (blkB2 V c tLast2) (accAt2 V c (tLast2.val - 1) (Nat.lt_of_le_of_lt (Nat.sub_le _ _) tLast2.isLt))
    ((cfg2.win 2).xinj (grid2.coords tLast2) y)).trans ?_
  refine (acc_step2 V c tLast2 h0 ((cfg2.win 2).xinj (grid2.coords tLast2) y)).trans ?_
  exact total2 V c

/-- The result array ends holding the whole sum. -/
theorem out2_dot_abbrev (c : Dev nD) :
    (dat2 (F := Ideal) V c).arrAt 2 cfg2.N
      = fun _ => ((∑ i : S400000x128.Idx, arrA2 V c i * arrB2 V c i : EReal)) := by
  show (dat2 (F := Ideal) V c).arrAt 2 cfg2.N = dotArr2 V c
  refine (dat2 V c).arrAt_eq_of_cover 2 (dotArr2 V c) (flushed2_eq V c) fun i => ⟨tLast2, (flush2_2 tLast2).mpr rfl, ?_⟩
  show i ∈ ((View.whole main_v27).slice (win2_2.rect tLast2)).set
  rw [View.set_slice_whole, Rect.mem_set_unit]
  intro a
  have hi0 : (i 0 : ℕ) < 1 := (i 0).isLt
  have hi1 : (i 1 : ℕ) < 1 := (i 1).isLt
  match a with
  | ⟨0, _⟩ =>
    show win2_2.index tLast2 0 * win2_2.size 0 ≤ (i 0 : ℕ)
      ∧ (i 0 : ℕ) < win2_2.index tLast2 0 * win2_2.size 0 + win2_2.xsize (grid2.coords tLast2) 0
    rw [idx2_2 tLast2 0, xsize2_2 tLast2 0]; omega
  | ⟨1, _⟩ =>
    show win2_2.index tLast2 1 * win2_2.size 1 ≤ (i 1 : ℕ)
      ∧ (i 1 : ℕ) < win2_2.index tLast2 1 * win2_2.size 1 + win2_2.xsize (grid2.coords tLast2) 1
    rw [idx2_2 tLast2 1, xsize2_2 tLast2 1]; omega

/-- The same, with the operand arrays spelt as the core's buffers at their printed types. -/
theorem out2_dot (c : Dev nD) :
    (dat2 (F := Ideal) V c).arrAt 2 cfg2.N
      = fun _ => (∑ i : S400000x128.Idx,
          HMul.hMul (α := EReal) (β := EReal) (γ := EReal)
            ((V c main_v25 : (⟨S400000x128, .f32⟩ : BufTy).Contents (Elt Ideal)) i)
            ((V c main_v26 : (⟨S400000x128, .f32⟩ : BufTy).Contents (Elt Ideal)) i) : EReal) :=
  out2_dot_abbrev V c

end Final

end Cert.KernelIdeal.Hand

end
-- ==== Proof.KI.Final.lean ====
/-
  The three results of @main at the extended reals are the reference's: the total, the cut term and the balance term.

  Each result buffer is read down the chain of @main's items to the three regions' output arrays; each array holds a
  sum (the edge-weight total, the column sums, the sum of the edge products); each sum is the one the reference's
  stage takes from zero. The cut term is then a quotient of equal numerators by equal denominators, the total a sum
  of equal terms.
-/
import proofs.«111018_j28578712388223_1_alg».proof.Proof.KI.Unfold
import proofs.«111018_j28578712388223_1_alg».proof.Proof.KI.Region0Value
import proofs.«111018_j28578712388223_1_alg».proof.Proof.KI.Region1Value
import proofs.«111018_j28578712388223_1_alg».proof.Proof.KI.Region2Value

set_option maxRecDepth 16384

noncomputable section

namespace Cert.KernelIdeal.Hand

open Idealize.ShloMosaic Idealize.ShloMosaic.TcCoe
open Idealize.SL Idealize.SL.Sem
open Cert.KernelIdeal Cert.KernelIdeal.Gen

/-! ## What the three regions' output arrays hold, as functions of typed operands -/

/-- The 1 × 1 array holding the total of a 25000 × 128 array. -/
def totalOf (x : Vec Ideal S25000x128 .f32) : Vec Ideal S1x1 .f32 := fun _ => ∑ i, x i

/-- The 1 × 16 array holding the column sums of a 100000 × 16 array. -/
def colsOf (y : Vec Ideal S100000x16 .f32) : Vec Ideal S1x16 .f32 :=
  fun j => ∑ r : Fin 100000, y (ValueIdx.ix2 r (j 1))

/-- The 1 × 1 array holding the sum of the elementwise products of two 400000 × 128 arrays. -/
def dotOf (a b : Vec Ideal S400000x128 .f32) : Vec Ideal S1x1 .f32 := fun _ => ∑ i, a i * b i

section Results
variable (m : (ℓ : Loc nD τ sig) → Buf (Elt Ideal) ℓ) (c : Dev nD)

/-- Region 0 leaves the total of the reshaped edge weights. -/
theorem region0_out : (dat0 (E1 m) c).arrAt 1 cfg0.N = totalOf (B1 m c (Proc.devRef .tc main_v0)) :=
  (out0_total (E1 m) c).trans rfl

/-- Region 1 leaves the column sums of the first argument. -/
theorem region1_out : (dat1 (E3 m) c).arrAt 1 cfg1.N = colsOf (B3 m c (Proc.devRef .tc main_arg0)) :=
  (out1_colsums (E3 m) c).trans rfl

/-- Region 2 leaves the sum of the products of its two operands. -/
theorem region2_out : (dat2 (E5 m) c).arrAt 2 cfg2.N
    = dotOf (B5 m c (Proc.devRef .tc main_v25)) (B5 m c (Proc.devRef .tc main_v26)) :=
  (out2_dot (E5 m) c).trans rfl

/-! ## The three results -/

/-- The balance term: the kernel's column sums are the reference's, and both programs apply the same function to them. -/
theorem final_balance : B7 (F := Ideal) m c main_v8
    = Cert.ReferenceIdeal.Read.val_main_v24 (F := Ideal) (m ((c.tc : Thread nD τ).loc main_arg0)) := by
  rw [B7_v8 m c, region1_out m c, B3_arg0 m c]
  exact (congrArg balanceOf (colsums_eq _)).trans (balanceOf_colsums _)

/-- The cut term: equal numerators over equal denominators. -/
theorem final_cut : B7 (F := Ideal) m c main_v29
    = Cert.ReferenceIdeal.Read.val_main_v19 (F := Ideal) (m ((c.tc : Thread nD τ).loc main_arg0))
        (m ((c.tc : Thread nD τ).loc main_arg1)) (m ((c.tc : Thread nD τ).loc main_arg2))
        (m ((c.tc : Thread nD τ).loc main_arg3)) := by
  rw [B7_v29 m c, region2_out m c, region0_out m c, B5_v25 m c, B5_v26 m c, B1_v0 m c]
  exact congrArg₂ Host.divf (num_eq _ _ _) (den_eq _)

/-- The total: the sum of the two terms. -/
theorem final_total : B7 (F := Ideal) m c main_v30
    = Cert.ReferenceIdeal.Read.val_main_v25 (F := Ideal) (m ((c.tc : Thread nD τ).loc main_arg0))
        (m ((c.tc : Thread nD τ).loc main_arg1)) (m ((c.tc : Thread nD τ).loc main_arg2))
        (m ((c.tc : Thread nD τ).loc main_arg3)) := by
  rw [B7_v30 m c, final_cut m c, final_balance m c]
  rfl
end Results

end Cert.KernelIdeal.Hand

end
-- ==== Proof.lean ====
/-
  The certificate: a graph-partition loss computed by three blocked-reduction kernels (the total of the edge values, the
  column sums of the node matrix, the sum of the entrywise products of two gathered edge-feature arrays) against its
  plain reference, equal over the extended reals.

  Frames. Each kernel keeps a running sum in a scratch buffer: zero at the first grid point, the block's sum added at every
  point, the total copied to the one-block output at the last point. The region invariant names the scratch's contents
  point by point, so every region runs from the buffers' contents at its entry to its output array at the total; @main is
  four stretches of host operations around the three regions, and no item writes an argument. The word-level program and
  the idealized one are the same text, so one argument, generic in the float instance, serves both. The reference has no
  kernel: its frame is its run.

  Values. On the extended reals addition is commutative and associative without side conditions, so a sum taken block by
  block, lanes first and rows second, is the sum over the array; a reshape permutes the indices of a sum; a gather is a
  re-indexing, so gathering rows of 1 − Y is 1 − (the gathered rows of Y). With these the kernel program's edge total,
  column sums and cut numerator are the reference's, and the two programs finish with the same operations on them.
-/
import proofs.«111018_j28578712388223_1_alg».proof.Defs
import proofs.«111018_j28578712388223_1_alg».proof.Proof.Gen.Kernel
import proofs.«111018_j28578712388223_1_alg».proof.Proof.Gen.KernelIdeal
import proofs.«111018_j28578712388223_1_alg».proof.Proof.Gen.ReferenceIdeal
import proofs.«111018_j28578712388223_1_alg».proof.Proof.Gen.Pre_finite_inputs
import proofs.«111018_j28578712388223_1_alg».proof.Proof.Gen.ReferenceIdeal.Run
import proofs.«111018_j28578712388223_1_alg».proof.Proof.Gen.ReferenceIdeal.Read
import proofs.«111018_j28578712388223_1_alg».proof.Proof.K.Frame
import proofs.«111018_j28578712388223_1_alg».proof.Proof.KI.Frame
import proofs.«111018_j28578712388223_1_alg».proof.Proof.KI.Final

noncomputable section

namespace Cert.Proof

open Idealize.ShloMosaic Idealize.ShloMosaic.TcCoe Idealize.SL.Sem
open Cert.KernelIdeal Cert.KernelIdeal.Hand

/-- The reference has no kernel: its frame is its run with the results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- Over the extended reals the kernel program's three results — the loss, the normalised cut and the balance term —
    are the reference's: the kernel run leaves each result buffer at the contents after the last host stretch, which
    are the reference's stages of the same arguments; the node matrix is returned as it came. -/
theorem algebraic : Cert.algebraic_KernelIdeal_ReferenceIdeal := by
  intro m ρ m' ρ' _ hagree
  refine ⟨fun c => B7 (F := Ideal) m c main_v30, fun c => B7 (F := Ideal) m c main_v29, fun c => B7 (F := Ideal) m c main_v8,
    fun c => m ((c.tc : Thread nD τ).loc main_arg0), ?_, ?_⟩
  · exact (θ_run Cert.KernelIdeal.defs _ _).mono (fun r h c =>
      ⟨h c _ (mem_uc main_v30 (by decide)), h c _ (mem_uc main_v29 (by decide)), h c _ (mem_uc main_v8 (by decide)),
       (h c _ (mem_uc main_arg0 (by decide))).trans (B7_arg0 m c),
       (h c _ (mem_uc main_arg0 (by decide))).trans (B7_arg0 m c),
       (h c _ (mem_uc main_arg1 (by decide))).trans (B7_arg1 m c),
       (h c _ (mem_uc main_arg2 (by decide))).trans (B7_arg2 m c),
       (h c _ (mem_uc main_arg3 (by decide))).trans (B7_arg3 m c)⟩) (run_all (F := Ideal) m ρ)
  · refine (θ_run Cert.ReferenceIdeal.defs _ _).mono (fun r h c => ⟨?_, ?_, ?_, ?_, (h c).2.2.2.2⟩)
      (Cert.ReferenceIdeal.Value.run (F := Ideal) m' ρ')
    · rw [(h c).1, Cert.ReferenceIdeal.Read.val_main_v25_eq, (hagree c).1, (hagree c).2.1, (hagree c).2.2.1, (hagree c).2.2.2]
      exact (final_total m c).symm
    · rw [(h c).2.1, Cert.ReferenceIdeal.Read.val_main_v19_eq, (hagree c).1, (hagree c).2.1, (hagree c).2.2.1, (hagree c).2.2.2]
      exact (final_cut m c).symm
    · rw [(h c).2.2.1, Cert.ReferenceIdeal.Read.val_main_v24_eq, (hagree c).1]
      exact (final_balance m c).symm
    · exact (h c).2.2.2.1.trans (hagree c).1

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    frame_reference,
    trivial,
    algebraic⟩

end Cert.Proof

end
